-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S131072x32 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x512x512 : Shape := ⟨3, ![16, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x8x512x512 .f32) (main_arg1 : IVec S16x512x512 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 1 := constantI S_ 1 1#1
  let main_v6 : IVec S_ 1 := (fun x v => Host.reduce IntOp.andi x v reducesTo_S16x512x512_S_d0_1_2 h_S_) main_v5 main_c_1
  let main_v7 : IVec S_ 1 := andi main_v3 main_v6
  let main_c_2 : IVec S_ 32 := constantI S_ 32 32#32
  let main_v8 : IVec S16x512x512 32 := broadcastInDim S16x512x512 ![] bcast_S_S16x512x512 main_c_2
  let main_v9 : IVec S16x512x512 1 := cmpi .slt main_arg1 main_v8
  let main_c_3 : IVec S_ 1 := constantI S_ 1 1#1
  let main_v10 : IVec S_ 1 := (fun x v => Host.reduce IntOp.andi x v reducesTo_S16x512x512_S_d0_1_2 h_S_) main_v9 main_c_3
  let main_v11 : IVec S_ 1 := andi main_v7 main_v10
  main_v11
-- ==== Kernel.lean ====
abbrev S16x8x512x512 : Shape := ⟨4, ![16, 8, 512, 512]⟩
abbrev S16x512x512 : Shape := ⟨3, ![16, 512, 512]⟩
abbrev S16x8x262144 : Shape := ⟨3, ![16, 8, 262144]⟩
abbrev S16x262144 : Shape := ⟨2, ![16, 262144]⟩
abbrev S16x1x262144 : Shape := ⟨3, ![16, 1, 262144]⟩
abbrev S16x9x32 : Shape := ⟨3, ![16, 9, 32]⟩
abbrev S1x8x131072 : Shape := ⟨3, ![1, 8, 131072]⟩
abbrev S1x1x131072 : Shape := ⟨3, ![1, 1, 131072]⟩
abbrev S1x9x32 : Shape := ⟨3, ![1, 9, 32]⟩
abbrev S8x32 : Shape := ⟨2, ![8, 32]⟩
abbrev S1x32 : Shape := ⟨2, ![1, 32]⟩
abbrev S8x131072 : Shape := ⟨2, ![8, 131072]⟩
abbrev S131072 : Shape := ⟨1, ![131072]⟩
abbrev S131072x32 : Shape := ⟨2, ![131072, 32]⟩
abbrev S131072x1 : Shape := ⟨2, ![131072, 1]⟩
abbrev S32 : Shape := ⟨1, ![32]⟩
abbrev S1x8x32 : Shape := ⟨3, ![1, 8, 32]⟩
abbrev S1x1x32 : Shape := ⟨3, ![1, 1, 32]⟩
abbrev S16x8x32 : Shape := ⟨3, ![16, 8, 32]⟩
abbrev S16x1x32 : Shape := ⟨3, ![16, 1, 32]⟩
abbrev S16x32 : Shape := ⟨2, ![16, 32]⟩
abbrev S_ : Shape := ⟨0, ![]⟩
abbrev S16 : Shape := ⟨1, ![16]⟩
abbrev S16x1x1 : Shape := ⟨3, ![16, 1, 1]⟩
abbrev S1x1x1 : Shape := ⟨3, ![1, 1, 1]⟩
abbrev S1x1 : Shape := ⟨2, ![1, 1]⟩
abbrev S32x131072 : Shape := ⟨2, ![32, 131072]⟩
abbrev S1x131072 : Shape := ⟨2, ![1, 131072]⟩
abbrev S1 : Shape := ⟨1, ![1]⟩
abbrev S16x32x8 : Shape := ⟨3, ![16, 32, 8]⟩
abbrev S16x32x1x8 : Shape := ⟨4, ![16, 32, 1, 8]⟩
abbrev S16x1x32x8 : Shape := ⟨4, ![16, 1, 32, 8]⟩
abbrev S16x32x32x8 : Shape := ⟨4, ![16, 32, 32, 8]⟩
abbrev S16x32x32 : Shape := ⟨3, ![16, 32, 32]⟩
abbrev S32x32 : Shape := ⟨2, ![32, 32]⟩
abbrev S1x32x32 : Shape := ⟨3, ![1, 32, 32]⟩
abbrev S16x32x1 : Shape := ⟨3, ![16, 32, 1]⟩

abbrev nBuf : Space → Nat
  | .hbm => 121
  | .vmem => 17
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S16x8x262144, .f32⟩
  | .hbm, ⟨3, _⟩ => ⟨S16x262144, .i32⟩
  | .hbm, ⟨4, _⟩ => ⟨S16x1x262144, .i32⟩
  | .hbm, ⟨5, _⟩ => ⟨S16x9x32, .f32⟩
  | .hbm, ⟨6, _⟩ => ⟨S16x8x32, .f32⟩
  | .hbm, ⟨7, _⟩ => ⟨S16x1x32, .f32⟩
  | .hbm, ⟨8, _⟩ => ⟨S16x32, .f32⟩
  | .hbm, ⟨9, _⟩ => ⟨S_, .f32⟩
  | .hbm, ⟨10, _⟩ => ⟨S16x32, .f32⟩
  | .hbm, ⟨11, _⟩ => ⟨S16x32, .f32⟩
  | .hbm, ⟨12, _⟩ => ⟨S16x1x32, .f32⟩
  | .hbm, ⟨13, _⟩ => ⟨S16x8x32, .f32⟩
  | .hbm, ⟨14, _⟩ => ⟨S16x8x32, .f32⟩
  | .hbm, ⟨15, _⟩ => ⟨S_, .f32⟩
  | .hbm, ⟨16, _⟩ => ⟨S16x32, .f32⟩
  | .hbm, ⟨17, _⟩ => ⟨S16x32, .i1⟩
  | .hbm, ⟨18, _⟩ => ⟨S16x32, .i32⟩
  | .hbm, ⟨19, _⟩ => ⟨S_, .i32⟩
  | .hbm, ⟨20, _⟩ => ⟨S16, .i32⟩
  | .hbm, ⟨21, _⟩ => ⟨S16, .f32⟩
  | .hbm, ⟨22, _⟩ => ⟨S16x1x1, .f32⟩
  | .hbm, ⟨23, _⟩ => ⟨S16, .f32⟩
  | .hbm, ⟨24, _⟩ => ⟨S16, .f32⟩
  | .hbm, ⟨25, _⟩ => ⟨S16x32x8, .f32⟩
  | .hbm, ⟨26, _⟩ => ⟨S16x32x1x8, .f32⟩
  | .hbm, ⟨27, _⟩ => ⟨S16x1x32x8, .f32⟩
  | .hbm, ⟨28, _⟩ => ⟨S16x32x32x8, .f32⟩
  | .hbm, ⟨29, _⟩ => ⟨S16x32x32x8, .f32⟩
  | .hbm, ⟨30, _⟩ => ⟨S16x32x32x8, .f32⟩
  | .hbm, ⟨31, _⟩ => ⟨S16x32x32x8, .f32⟩
  | .hbm, ⟨32, _⟩ => ⟨S_, .f32⟩
  | .hbm, ⟨33, _⟩ => ⟨S16x32x32, .f32⟩
  | .hbm, ⟨34, _⟩ => ⟨S32x32, .i32⟩
  | .hbm, ⟨35, _⟩ => ⟨S32x32, .i32⟩
  | .hbm, ⟨36, _⟩ => ⟨S_, .i32⟩
  | .hbm, ⟨37, _⟩ => ⟨S32x32, .i32⟩
  | .hbm, ⟨38, _⟩ => ⟨S32x32, .i32⟩
  | .hbm, ⟨39, _⟩ => ⟨S32x32, .i1⟩
  | .hbm, ⟨40, _⟩ => ⟨S32x32, .i1⟩
  | .hbm, ⟨41, _⟩ => ⟨S1x32x32, .i1⟩
  | .hbm, ⟨42, _⟩ => ⟨S16x32x1, .i1⟩
  | .hbm, ⟨43, _⟩ => ⟨S16x32x32, .i1⟩
  | .hbm, ⟨44, _⟩ => ⟨S16x32x32, .i1⟩
  | .hbm, ⟨45, _⟩ => ⟨S16x32x32, .i1⟩
  | .hbm, ⟨46, _⟩ => ⟨S16x1x32, .i1⟩
  | .hbm, ⟨47, _⟩ => ⟨S16x32x32, .i1⟩
  | .hbm, ⟨48, _⟩ => ⟨S16x32x32, .i1⟩
  | .hbm, ⟨49, _⟩ => ⟨S_, .f32⟩
  | .hbm, ⟨50, _⟩ => ⟨S_, .f32⟩
  | .hbm, ⟨51, _⟩ => ⟨S16x32x32, .f32⟩
  | .hbm, ⟨52, _⟩ => ⟨S16x32x32, .f32⟩
  | .hbm, ⟨53, _⟩ => ⟨S16x32x32, .f32⟩
  | .hbm, ⟨54, _⟩ => ⟨S_, .f32⟩
  | .hbm, ⟨55, _⟩ => ⟨S16x32x32, .f32⟩
  | .hbm, ⟨56, _⟩ => ⟨S16x32x32, .f32⟩
  | .hbm, ⟨57, _⟩ => ⟨S_, .f32⟩
  | .hbm, ⟨58, _⟩ => ⟨S16x32x32, .f32⟩
  | .hbm, ⟨59, _⟩ => ⟨S16x32x32, .f32⟩
  | .hbm, ⟨60, _⟩ => ⟨S16x32x32, .f32⟩
  | .hbm, ⟨61, _⟩ => ⟨S_, .f32⟩
  | .hbm, ⟨62, _⟩ => ⟨S_, .f32⟩
  | .hbm, ⟨63, _⟩ => ⟨S16x32x32, .f32⟩
  | .hbm, ⟨64, _⟩ => ⟨S16x32x32, .f32⟩
  | .hbm, ⟨65, _⟩ => ⟨S_, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S16, .f32⟩
  | .hbm, ⟨78, _⟩ => ⟨S16x32x8, .f32⟩
  | .hbm, ⟨79, _⟩ => ⟨S_, .f32⟩
  | .hbm, ⟨80, _⟩ => ⟨S16x32, .f32⟩
  | .hbm, ⟨81, _⟩ => ⟨S_, .f32⟩
  | .hbm, ⟨82, _⟩ => ⟨S_, .f32⟩
  | .hbm, ⟨83, _⟩ => ⟨S16x32, .f32⟩
  | .hbm, ⟨84, _⟩ => ⟨S16x32, .f32⟩
  | .hbm, ⟨85, _⟩ => ⟨S16x32, .f32⟩
  | .hbm, ⟨86, _⟩ => ⟨S_, .f32⟩
  | .hbm, ⟨87, _⟩ => ⟨S16x32, .f32⟩
  | .hbm, ⟨88, _⟩ => ⟨S16x32, .f32⟩
  | .hbm, ⟨89, _⟩ => ⟨S_, .f32⟩
  | .hbm, ⟨90, _⟩ => ⟨S16x32, .f32⟩
  | .hbm, ⟨91, _⟩ => ⟨S16x32, .f32⟩
  | .hbm, ⟨92, _⟩ => ⟨S_, .f32⟩
  | .hbm, ⟨93, _⟩ => ⟨S_, .f32⟩
  | .hbm, ⟨94, _⟩ => ⟨S16x32, .f32⟩
  | .hbm, ⟨95, _⟩ => ⟨S16x32, .f32⟩
  | .hbm, ⟨96, _⟩ => ⟨S_, .f32⟩
  | .hbm, ⟨97, _⟩ => ⟨S16, .f32⟩
  | .hbm, ⟨98, _⟩ => ⟨S16, .f32⟩
  | .hbm, ⟨99, _⟩ => ⟨S_, .f32⟩
  | .hbm, ⟨100, _⟩ => ⟨S16, .f32⟩
  | .hbm, ⟨101, _⟩ => ⟨S16, .i1⟩
  | .hbm, ⟨102, _⟩ => ⟨S_, .f32⟩
  | .hbm, ⟨103, _⟩ => ⟨S16, .f32⟩
  | .hbm, ⟨104, _⟩ => ⟨S16, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S16, .f32⟩
  | .hbm, ⟨109, _⟩ => ⟨S_, .f32⟩
  | .hbm, ⟨110, _⟩ => ⟨S16, .f32⟩
  | .hbm, ⟨111, _⟩ => ⟨S16, .f32⟩
  | .hbm, ⟨112, _⟩ => ⟨S16, .f32⟩
  | .hbm, ⟨113, _⟩ => ⟨S_, .f32⟩
  | .hbm, ⟨114, _⟩ => ⟨S_, .f32⟩
  | .hbm, ⟨115, _⟩ => ⟨S16, .f32⟩
  | .hbm, ⟨116, _⟩ => ⟨S16, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S1x8x131072, .f32⟩
  | .local _ .vmem, ⟨1, _⟩ => ⟨S1x8x131072, .f32⟩
  | .local _ .vmem, ⟨2, _⟩ => ⟨S1x1x131072, .i32⟩
  | .local _ .vmem, ⟨3, _⟩ => ⟨S1x1x131072, .i32⟩
  | .local _ .vmem, ⟨4, _⟩ => ⟨S1x9x32, .f32⟩
  | .local _ .vmem, ⟨5, _⟩ => ⟨S1x9x32, .f32⟩
  | .local _ .vmem, ⟨6, _⟩ => ⟨S8x32, .f32⟩
  | .local _ .vmem, ⟨7, _⟩ => ⟨S1x32, .f32⟩
  | .local _ .vmem, ⟨8, _⟩ => ⟨S1x8x131072, .f32⟩
  | .local _ .vmem, ⟨9, _⟩ => ⟨S1x8x131072, .f32⟩
  | .local _ .vmem, ⟨10, _⟩ => ⟨S1x1x131072, .i32⟩
  | .local _ .vmem, ⟨11, _⟩ => ⟨S1x1x131072, .i32⟩
  | .local _ .vmem, ⟨12, _⟩ => ⟨S1x8x32, .f32⟩
  | .local _ .vmem, ⟨13, _⟩ => ⟨S1x8x32, .f32⟩
  | .local _ .vmem, ⟨14, _⟩ => ⟨S1x1x1, .f32⟩
  | .local _ .vmem, ⟨15, _⟩ => ⟨S1x1x1, .f32⟩
  | .local _ .vmem, ⟨16, _⟩ => ⟨S1x1, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call1_v0 : Ref sig .tc := ⟨.hbm, 62, rfl⟩
abbrev main_call1_v1 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_cst_19 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_20 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_21 : Ref sig .tc := ⟨.hbm, 113, rfl⟩
abbrev main_call4_v0 : Ref sig .tc := ⟨.hbm, 114, rfl⟩
abbrev main_call4_v1 : Ref sig .tc := ⟨.hbm, 115, rfl⟩
abbrev main_v80 : Ref sig .tc := ⟨.hbm, 116, rfl⟩
abbrev main_cst_22 : Ref sig .tc := ⟨.hbm, 117, rfl⟩
abbrev main_v81 : Ref sig .tc := ⟨.hbm, 118, rfl⟩
abbrev main_cst_23 : Ref sig .tc := ⟨.hbm, 119, rfl⟩
abbrev main_v82 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 2], ![false, false]⟩

def k1_cond2 (i : grid1.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_20 : BitVec 32 := 0#32
  let v48 : BitVec 1 := Scalar.cmpi .ne v47 c0_i32_20
  v48

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x131072 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16x8x512x512_S16x8x262144 : S16x8x512x512.ShapeCasts S16x8x262144
  shapeCasts_S16x512x512_S16x262144 : S16x512x512.ShapeCasts S16x262144
  shapeCasts_S16x262144_S16x1x262144 : S16x262144.ShapeCasts S16x1x262144
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x8x131072_S1x8x131072_0_0_0 : ∀ a, (![0, 0, 0] : Fin 3 → Nat) a + S1x8x131072.size a ≤ S1x8x131072.size a
  h_S1x8x131072 : 0 < S1x8x131072.numel
  shapeCasts_S1x8x131072_S8x131072 : S1x8x131072.ShapeCasts S8x131072
  bitsLt_bf16_f32 : FTy.bits .bf16 < FTy.bits .f32
  inb_S1x1x131072_S1x1x131072_0_0_0 : ∀ a, (![0, 0, 0] : Fin 3 → Nat) a + S1x1x131072.size a ≤ S1x1x131072.size a
  h_S1x1x131072 : 0 < S1x1x131072.numel
  shapeCasts_S1x1x131072_S131072 : S1x1x131072.ShapeCasts S131072
  iota_S131072x32_d1_w32 : S131072x32.Iotas .tc 32 [1]
  shapeCasts_S131072_S131072x1 : S131072.ShapeCasts S131072x1
  broadcasts_S131072x1_S131072x32 : S131072x1.Broadcasts S131072x32
  natLt_1_32 : 1 < 32
  reduces_S131072x32_S32 : S131072x32.Reduces [0] S32
  shapeCasts_S32_S1x32 : S32.ShapeCasts S1x32
  inb_S1x9x32_S1x8x32_0_0_0 : ∀ a, (![0, 0, 0] : Fin 3 → Nat) a + S1x8x32.size a ≤ S1x9x32.size a
  h_S1x8x32 : 0 < S1x8x32.numel
  shapeCasts_S1x8x32_S8x32 : S1x8x32.ShapeCasts S8x32
  shapeCasts_S8x32_S1x8x32 : S8x32.ShapeCasts S1x8x32
  inb_S1x9x32_S1x1x32_0_8_0 : ∀ a, (![0, 8, 0] : Fin 3 → Nat) a + S1x1x32.size a ≤ S1x9x32.size a
  h_S1x1x32 : 0 < S1x1x32.numel
  shapeCasts_S1x1x32_S1x32 : S1x1x32.ShapeCasts S1x32
  shapeCasts_S1x32_S1x1x32 : S1x32.ShapeCasts S1x1x32
  slices_S16x9x32_S16x8x32_0_0_0 : S16x9x32.Slices ![0, 0, 0] S16x8x32
  slices_S16x9x32_S16x1x32_0_8_0 : S16x9x32.Slices ![0, 8, 0] S16x1x32
  shapeCasts_S16x1x32_S16x32 : S16x1x32.ShapeCasts S16x32
  bcast_S_S16x32 : S_.BroadcastsInDim S16x32 (![] : Fin 0 → Fin S16x32.rank)
  bcast_S16x32_S16x1x32_0_2 : S16x32.BroadcastsInDim S16x1x32 (![0, 2] : Fin 2 → Fin S16x1x32.rank)
  bcast_S16x1x32_S16x8x32_0_1_2 : S16x1x32.BroadcastsInDim S16x8x32 (![0, 1, 2] : Fin 3 → Fin S16x8x32.rank)
  reducesTo_S16x32_S16_d1 : S16x32.ReducesTo [1] S16
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8x32_S1x8x32_0_0_0 : ∀ a, (![0, 0, 0] : Fin 3 → Nat) a + S1x8x32.size a ≤ S1x8x32.size a
  iota_S32x131072_d0_w32 : S32x131072.Iotas .tc 32 [0]
  shapeCasts_S131072_S1x131072 : S131072.ShapeCasts S1x131072
  broadcasts_S1x131072_S32x131072 : S1x131072.Broadcasts S32x131072
  reduces_S8x131072_S131072 : S8x131072.Reduces [0] S131072
  reduces_S1x131072_S1 : S1x131072.Reduces [1] S1
  shapeCasts_S1_S1x1 : S1.ShapeCasts S1x1
  inpos_S1x1_p0_0 : ∀ a, (![0, 0] : Fin 2 → Nat) a < S1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S16x1x1_S16 : S16x1x1.ShapeCasts S16
  transposes_S16x8x32_S16x32x8_0_2_1 : S16x8x32.Transposes [0, 2, 1] S16x32x8
  bcast_S16x32x8_S16x32x1x8_0_1_3 : S16x32x8.BroadcastsInDim S16x32x1x8 (![0, 1, 3] : Fin 3 → Fin S16x32x1x8.rank)
  bcast_S16x32x8_S16x1x32x8_0_2_3 : S16x32x8.BroadcastsInDim S16x1x32x8 (![0, 2, 3] : Fin 3 → Fin S16x1x32x8.rank)
  bcast_S16x32x1x8_S16x32x32x8_0_1_2_3 : S16x32x1x8.BroadcastsInDim S16x32x32x8 (![0, 1, 2, 3] : Fin 4 → Fin S16x32x32x8.rank)
  bcast_S16x1x32x8_S16x32x32x8_0_1_2_3 : S16x1x32x8.BroadcastsInDim S16x32x32x8 (![0, 1, 2, 3] : Fin 4 → Fin S16x32x32x8.rank)
  reducesTo_S16x32x32x8_S16x32x32_d3 : S16x32x32x8.ReducesTo [3] S16x32x32
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S16x32_S16x32x1_0_1 : S16x32.BroadcastsInDim S16x32x1 (![0, 1] : Fin 2 → Fin S16x32x1.rank)
  bcast_S1x32x32_S16x32x32_0_1_2 : S1x32x32.BroadcastsInDim S16x32x32 (![0, 1, 2] : Fin 3 → Fin S16x32x32.rank)
  bcast_S16x32x1_S16x32x32_0_1_2 : S16x32x1.BroadcastsInDim S16x32x32 (![0, 1, 2] : Fin 3 → Fin S16x32x32.rank)
  bcast_S16x1x32_S16x32x32_0_1_2 : S16x1x32.BroadcastsInDim S16x32x32 (![0, 1, 2] : Fin 3 → Fin S16x32x32.rank)
  bcast_S_S16x32x32 : S_.BroadcastsInDim S16x32x32 (![] : Fin 0 → Fin S16x32x32.rank)
  reducesTo_S16x32x32_S16_d1_2 : S16x32x32.ReducesTo [1, 2] S16
  bcast_S_S16 : S_.BroadcastsInDim S16 (![] : Fin 0 → Fin S16.rank)
  reducesTo_S16x32x8_S16x32_d2 : S16x32x8.ReducesTo [2] S16x32
  reducesTo_S16_S_d0 : S16.ReducesTo [0] S_
  dot_S8x131072_S131072x32_S8x32_1_0_0_1_n_n_wf : DotDims.WF S8x131072 S131072x32 S8x32 [1] [0] [0] [1] [] []
  dot_S8x32_S32x131072_S8x131072_1_0_0_1_n_n_wf : DotDims.WF S8x32 S32x131072 S8x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x131072.size a ≤ S16x8x262144.size a
  hwx0_0 : ∀ i : grid0.Coords, EltTy.bits .f32 = 32 ∨ (Rect.block (s := S16x8x262144) S1x8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x131072.size a ≤ S16x1x262144.size a
  hwx0_1 : ∀ i : grid0.Coords, EltTy.bits .i32 = 32 ∨ (Rect.block (s := S16x1x262144) S1x1x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x32.size a ≤ S16x9x32.size a
  hwx0_2 : ∀ i : grid0.Coords, EltTy.bits .f32 = 32 ∨ (Rect.block (s := S16x9x32) S1x9x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x131072.size a ≤ S16x8x262144.size a
  hwx1_0 : ∀ i : grid1.Coords, EltTy.bits .f32 = 32 ∨ (Rect.block (s := S16x8x262144) S1x8x131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x131072.size a ≤ S16x1x262144.size a
  hwx1_1 : ∀ i : grid1.Coords, EltTy.bits .i32 = 32 ∨ (Rect.block (s := S16x1x262144) S1x1x131072.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x32.size a ≤ S16x8x32.size a
  hwx1_2 : ∀ i : grid1.Coords, EltTy.bits .f32 = 32 ∨ (Rect.block (s := S16x8x32) S1x8x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S16x1x1.size a
  hwx1_3 : ∀ i : grid1.Coords, EltTy.bits .f32 = 32 ∨ (Rect.block (s := S16x1x1) S1x1x1.size (cc1_transform_3 i) (hinb1_3 i)).WholeWords (EltTy.packing .f32)

variable [Facts₀]

def dot_S8x131072_S131072x32_S8x32_1_0_0_1_n_n : DotDims S8x131072 S131072x32 S8x32 where
  lhsContracting := [1]
  rhsContracting := [0]
  lhsNonContracting := [0]
  rhsNonContracting := [1]
  lhsBatch := []
  rhsBatch := []
  wf := dot_S8x131072_S131072x32_S8x32_1_0_0_1_n_n_wf
def dot_S8x32_S32x131072_S8x131072_1_0_0_1_n_n : DotDims S8x32 S32x131072 S8x131072 where
  lhsContracting := [1]
  rhsContracting := [0]
  lhsNonContracting := [0]
  rhsNonContracting := [1]
  lhsBatch := []
  rhsBatch := []
  wf := dot_S8x32_S32x131072_S8x131072_1_0_0_1_n_n_wf

abbrev win0_0 : Pipeline.Window sig grid0 :=
  Pipeline.Window.ofSpec (Memref.whole main_v0) S1x8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x9x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x8x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x8x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S16x512x512 : Shape := ⟨3, ![16, 512, 512]⟩
abbrev S16x8x262144 : Shape := ⟨3, ![16, 8, 262144]⟩
abbrev S16x262144x8 : Shape := ⟨3, ![16, 262144, 8]⟩
abbrev S4194304x8 : Shape := ⟨2, ![4194304, 8]⟩
abbrev S16x262144 : Shape := ⟨2, ![16, 262144]⟩
abbrev S16 : Shape := ⟨1, ![16]⟩
abbrev S16x1 : Shape := ⟨2, ![16, 1]⟩
abbrev S_ : Shape := ⟨0, ![]⟩
abbrev S4194304 : Shape := ⟨1, ![4194304]⟩
abbrev S512x8 : Shape := ⟨2, ![512, 8]⟩
abbrev S4194304x1 : Shape := ⟨2, ![4194304, 1]⟩
abbrev S512 : Shape := ⟨1, ![512]⟩
abbrev S512x1 : Shape := ⟨2, ![512, 1]⟩
abbrev S16x32 : Shape := ⟨2, ![16, 32]⟩
abbrev S16x32x8 : Shape := ⟨3, ![16, 32, 8]⟩
abbrev S16x32x1x8 : Shape := ⟨4, ![16, 32, 1, 8]⟩
abbrev S16x1x32x8 : Shape := ⟨4, ![16, 1, 32, 8]⟩
abbrev S16x32x32x8 : Shape := ⟨4, ![16, 32, 32, 8]⟩
abbrev S16x32x32 : Shape := ⟨3, ![16, 32, 32]⟩
abbrev S32x32 : Shape := ⟨2, ![32, 32]⟩
abbrev S1x32x32 : Shape := ⟨3, ![1, 32, 32]⟩
abbrev S16x32x1 : Shape := ⟨3, ![16, 32, 1]⟩
abbrev S16x1x32 : Shape := ⟨3, ![16, 1, 32]⟩

abbrev nBuf : Space → Nat
  | .hbm => 175
  | .vmem => 0
  | .smem => 0
  | _ => 0

abbrev hbmTy0_0 (i : Nat) : BufTy := match i % 128 with
  | 0 => ⟨S16x8x512x512, .f32⟩
  | 1 => ⟨S16x512x512, .i32⟩
  | 2 => ⟨S16x8x262144, .f32⟩
  | 3 => ⟨S16x262144x8, .f32⟩
  | 4 => ⟨S4194304x8, .f32⟩
  | 5 => ⟨S16x262144, .i32⟩
  | 6 => ⟨S16, .i32⟩
  | 7 => ⟨S16x1, .i32⟩
  | 8 => ⟨S_, .i32⟩
  | 9 => ⟨S16x1, .i32⟩
  | 10 => ⟨S16x1, .i32⟩
  | 11 => ⟨S16x262144, .i32⟩
  | 12 => ⟨S16x262144, .i32⟩
  | 13 => ⟨S4194304, .i32⟩
  | 14 => ⟨S_, .f32⟩
  | 15 => ⟨S512x8, .f32⟩
  | 16 => ⟨S4194304x1, .i32⟩
  | 17 => ⟨S512x8, .f32⟩
  | 18 => ⟨S_, .f32⟩
  | 19 => ⟨S4194304, .f32⟩
  | 20 => ⟨S_, .f32⟩
  | 21 => ⟨S512, .f32⟩
  | 22 => ⟨S4194304x1, .i32⟩
  | 23 => ⟨S512, .f32⟩
  | 24 => ⟨S_, .f32⟩
  | 25 => ⟨S512, .f32⟩
  | 26 => ⟨S512, .f32⟩
  | 27 => ⟨S512x1, .f32⟩
  | 28 => ⟨S512x8, .f32⟩
  | 29 => ⟨S512x8, .f32⟩
  | 30 => ⟨S_, .f32⟩
  | 31 => ⟨S512, .f32⟩
  | 32 => ⟨S512, .i1⟩
  | 33 => ⟨S16x32, .i1⟩
  | 34 => ⟨S16x32, .i32⟩
  | 35 => ⟨S_, .i32⟩
  | 36 => ⟨S16, .i32⟩
  | 37 => ⟨S16, .f32⟩
  | 38 => ⟨S_, .i32⟩
  | 39 => ⟨S4194304, .i32⟩
  | 40 => ⟨S4194304, .i1⟩
  | 41 => ⟨S_, .i32⟩
  | 42 => ⟨S4194304, .i32⟩
  | 43 => ⟨S4194304, .i32⟩
  | 44 => ⟨S4194304, .i32⟩
  | 45 => ⟨S4194304x1, .i32⟩
  | 46 => ⟨S4194304x8, .f32⟩
  | 47 => ⟨S4194304x8, .f32⟩
  | 48 => ⟨S4194304x8, .f32⟩
  | 49 => ⟨S_, .f32⟩
  | 50 => ⟨S4194304, .f32⟩
  | 51 => ⟨S_, .f32⟩
  | 52 => ⟨S4194304, .f32⟩
  | 53 => ⟨S4194304, .i1⟩
  | 54 => ⟨S_, .f32⟩
  | 55 => ⟨S_, .f32⟩
  | 56 => ⟨S4194304, .f32⟩
  | 57 => ⟨S4194304, .f32⟩
  | 58 => ⟨S4194304, .f32⟩
  | 59 => ⟨S_, .f32⟩
  | 60 => ⟨S4194304, .f32⟩
  | 61 => ⟨S4194304, .i1⟩
  | 62 => ⟨S4194304, .f32⟩
  | 63 => ⟨S4194304, .f32⟩
  | 64 => ⟨S_, .f32⟩
  | 65 => ⟨S4194304, .f32⟩
  | 66 => ⟨S4194304, .f32⟩
  | 67 => ⟨S_, .f32⟩
  | 68 => ⟨S4194304, .f32⟩
  | 69 => ⟨S4194304, .f32⟩
  | 70 => ⟨S4194304, .f32⟩
  | 71 => ⟨S_, .f32⟩
  | 72 => ⟨S512, .f32⟩
  | 73 => ⟨S4194304x1, .i32⟩
  | 74 => ⟨S512, .f32⟩
  | 75 => ⟨S16x32, .f32⟩
  | 76 => ⟨S_, .f32⟩
  | 77 => ⟨S16, .f32⟩
  | 78 => ⟨S16, .f32⟩
  | 79 => ⟨S16x32x8, .f32⟩
  | 80 => ⟨S16x32x1x8, .f32⟩
  | 81 => ⟨S16x1x32x8, .f32⟩
  | 82 => ⟨S16x32x32x8, .f32⟩
  | 83 => ⟨S16x32x32x8, .f32⟩
  | 84 => ⟨S16x32x32x8, .f32⟩
  | 85 => ⟨S16x32x32x8, .f32⟩
  | 86 => ⟨S_, .f32⟩
  | 87 => ⟨S16x32x32, .f32⟩
  | 88 => ⟨S32x32, .i32⟩
  | 89 => ⟨S32x32, .i32⟩
  | 90 => ⟨S_, .i32⟩
  | 91 => ⟨S32x32, .i32⟩
  | 92 => ⟨S32x32, .i32⟩
  | 93 => ⟨S32x32, .i1⟩
  | 94 => ⟨S32x32, .i1⟩
  | 95 => ⟨S1x32x32, .i1⟩
  | 96 => ⟨S16x32x1, .i1⟩
  | 97 => ⟨S16x32x32, .i1⟩
  | 98 => ⟨S16x32x32, .i1⟩
  | 99 => ⟨S16x32x32, .i1⟩
  | 100 => ⟨S16x1x32, .i1⟩
  | 101 => ⟨S16x32x32, .i1⟩
  | 102 => ⟨S16x32x32, .i1⟩
  | 103 => ⟨S_, .f32⟩
  | 104 => ⟨S_, .f32⟩
  | 105 => ⟨S16x32x32, .f32⟩
  | 106 => ⟨S16x32x32, .f32⟩
  | 107 => ⟨S16x32x32, .f32⟩
  | 108 => ⟨S_, .f32⟩
  | 109 => ⟨S16x32x32, .f32⟩
  | 110 => ⟨S16x32x32, .f32⟩
  | 111 => ⟨S_, .f32⟩
  | 112 => ⟨S16x32x32, .f32⟩
  | 113 => ⟨S16x32x32, .f32⟩
  | 114 => ⟨S16x32x32, .f32⟩
  | 115 => ⟨S_, .f32⟩
  | 116 => ⟨S_, .f32⟩
  | 117 => ⟨S16x32x32, .f32⟩
  | 118 => ⟨S16x32x32, .f32⟩
  | 119 => ⟨S_, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S16x8x512x512, .f32⟩

abbrev hbmTy0_1 (i : Nat) : BufTy := match i % 128 with
  | 0 => ⟨S16, .f32⟩
  | 1 => ⟨S16, .f32⟩
  | 2 => ⟨S16, .f32⟩
  | 3 => ⟨S16, .f32⟩
  | 4 => ⟨S16x32x8, .f32⟩
  | 5 => ⟨S_, .f32⟩
  | 6 => ⟨S16x32, .f32⟩
  | 7 => ⟨S_, .f32⟩
  | 8 => ⟨S_, .f32⟩
  | 9 => ⟨S16x32, .f32⟩
  | 10 => ⟨S16x32, .f32⟩
  | 11 => ⟨S16x32, .f32⟩
  | 12 => ⟨S_, .f32⟩
  | 13 => ⟨S16x32, .f32⟩
  | 14 => ⟨S16x32, .f32⟩
  | 15 => ⟨S_, .f32⟩
  | 16 => ⟨S16x32, .f32⟩
  | 17 => ⟨S16x32, .f32⟩
  | 18 => ⟨S_, .f32⟩
  | 19 => ⟨S_, .f32⟩
  | 20 => ⟨S16x32, .f32⟩
  | 21 => ⟨S16x32, .f32⟩
  | 22 => ⟨S_, .f32⟩
  | 23 => ⟨S16, .f32⟩
  | 24 => ⟨S16, .f32⟩
  | 25 => ⟨S_, .f32⟩
  | 26 => ⟨S16, .f32⟩
  | 27 => ⟨S16, .i1⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S16, .f32⟩
  | 35 => ⟨S_, .f32⟩
  | 36 => ⟨S16, .f32⟩
  | 37 => ⟨S16, .f32⟩
  | 38 => ⟨S16, .f32⟩
  | 39 => ⟨S_, .f32⟩
  | 40 => ⟨S_, .f32⟩
  | 41 => ⟨S16, .f32⟩
  | 42 => ⟨S16, .f32⟩
  | 43 => ⟨S_, .f32⟩
  | 44 => ⟨S_, .f32⟩
  | 45 => ⟨S_, .f32⟩
  | 46 => ⟨S_, .f32⟩
  | _ => ⟨S16x8x512x512, .f32⟩

abbrev hbmTy (i : Nat) : BufTy := match i / 128 with
  | 0 => hbmTy0_0 i
  | 1 => hbmTy0_1 i
  | _ => ⟨S16x8x512x512, .f32⟩

abbrev bufTy : (tb : Table) → Fin (tcTables nBuf tb) → BufTy
  | .hbm, ⟨i, _⟩ => hbmTy i
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_call1_v0 : Ref sig .tc := ⟨.hbm, 104, rfl⟩
abbrev main_call1_v1 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_call2_v0 : Ref sig .tc := ⟨.hbm, 116, rfl⟩
abbrev main_call2_v1 : Ref sig .tc := ⟨.hbm, 117, rfl⟩
abbrev main_v87 : Ref sig .tc := ⟨.hbm, 118, rfl⟩
abbrev main_cst_21 : Ref sig .tc := ⟨.hbm, 119, rfl⟩
abbrev main_v88 : Ref sig .tc := ⟨.hbm, 120, rfl⟩
abbrev main_cst_22 : Ref sig .tc := ⟨.hbm, 121, rfl⟩
abbrev main_v89 : Ref sig .tc := ⟨.hbm, 122, rfl⟩
abbrev main_v90 : Ref sig .tc := ⟨.hbm, 123, rfl⟩
abbrev main_cst_23 : Ref sig .tc := ⟨.hbm, 124, rfl⟩
abbrev main_v91 : Ref sig .tc := ⟨.hbm, 125, rfl⟩
abbrev main_v92 : Ref sig .tc := ⟨.hbm, 126, rfl⟩
abbrev main_cst_24 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_25 : Ref sig .tc := ⟨.hbm, 133, rfl⟩
abbrev main_v98 : Ref sig .tc := ⟨.hbm, 134, rfl⟩
abbrev main_cst_26 : Ref sig .tc := ⟨.hbm, 135, rfl⟩
abbrev main_call3_v0 : Ref sig .tc := ⟨.hbm, 136, rfl⟩
abbrev main_call3_v1 : Ref sig .tc := ⟨.hbm, 137, rfl⟩
abbrev main_v99 : Ref sig .tc := ⟨.hbm, 138, rfl⟩
abbrev main_v100 : Ref sig .tc := ⟨.hbm, 139, rfl⟩
abbrev main_cst_27 : Ref sig .tc := ⟨.hbm, 140, rfl⟩
abbrev main_v101 : Ref sig .tc := ⟨.hbm, 141, rfl⟩
abbrev main_v102 : Ref sig .tc := ⟨.hbm, 142, rfl⟩
abbrev main_cst_28 : Ref sig .tc := ⟨.hbm, 143, rfl⟩
abbrev main_v103 : Ref sig .tc := ⟨.hbm, 144, rfl⟩
abbrev main_v104 : Ref sig .tc := ⟨.hbm, 145, rfl⟩
abbrev main_cst_29 : Ref sig .tc := ⟨.hbm, 146, rfl⟩
abbrev main_call4_v0 : Ref sig .tc := ⟨.hbm, 147, rfl⟩
abbrev main_call4_v1 : Ref sig .tc := ⟨.hbm, 148, rfl⟩
abbrev main_v105 : Ref sig .tc := ⟨.hbm, 149, rfl⟩
abbrev main_cst_30 : Ref sig .tc := ⟨.hbm, 150, rfl⟩
abbrev main_v106 : Ref sig .tc := ⟨.hbm, 151, rfl⟩
abbrev main_v107 : Ref sig .tc := ⟨.hbm, 152, rfl⟩
abbrev main_cst_31 : Ref sig .tc := ⟨.hbm, 153, rfl⟩
abbrev main_v108 : Ref sig .tc := ⟨.hbm, 154, rfl⟩
abbrev main_v109 : Ref sig .tc := ⟨.hbm, 155, rfl⟩
abbrev main_cst_32 : Ref sig .tc := ⟨.hbm, 156, rfl⟩
abbrev main_v110 : Ref sig .tc := ⟨.hbm, 157, rfl⟩
abbrev main_v111 : Ref sig .tc := ⟨.hbm, 158, rfl⟩
abbrev main_cst_33 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_34 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_35 : Ref sig .tc := ⟨.hbm, 167, rfl⟩
abbrev main_call5_v0 : Ref sig .tc := ⟨.hbm, 168, rfl⟩
abbrev main_call5_v1 : Ref sig .tc := ⟨.hbm, 169, rfl⟩
abbrev main_v118 : Ref sig .tc := ⟨.hbm, 170, rfl⟩
abbrev main_cst_36 : Ref sig .tc := ⟨.hbm, 171, rfl⟩
abbrev main_v119 : Ref sig .tc := ⟨.hbm, 172, rfl⟩
abbrev main_cst_37 : Ref sig .tc := ⟨.hbm, 173, rfl⟩
abbrev main_v120 : Ref sig .tc := ⟨.hbm, 174, rfl⟩

abbrev nD : Nat := 1
abbrev τ : Topo := Topo.v7x

variable {F : FTy → Type} [FloatOps F]

class Facts₀ : Prop where
  shapeCasts_S16x8x512x512_S16x8x262144 : S16x8x512x512.ShapeCasts S16x8x262144
  transposes_S16x8x262144_S16x262144x8_0_2_1 : S16x8x262144.Transposes [0, 2, 1] S16x262144x8
  shapeCasts_S16x262144x8_S4194304x8 : S16x262144x8.ShapeCasts S4194304x8
  shapeCasts_S16x512x512_S16x262144 : S16x512x512.ShapeCasts S16x262144
  bcast_S16_S16x1_0 : S16.BroadcastsInDim S16x1 (![0] : Fin 1 → Fin S16x1.rank)
  bcast_S_S16x1 : S_.BroadcastsInDim S16x1 (![] : Fin 0 → Fin S16x1.rank)
  bcast_S16x1_S16x262144_0_1 : S16x1.BroadcastsInDim S16x262144 (![0, 1] : Fin 2 → Fin S16x262144.rank)
  shapeCasts_S16x262144_S4194304 : S16x262144.ShapeCasts S4194304
  bcast_S_S512x8 : S_.BroadcastsInDim S512x8 (![] : Fin 0 → Fin S512x8.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S_S512 : S_.BroadcastsInDim S512 (![] : Fin 0 → Fin S512.rank)
  bcast_S512_S512x1_0 : S512.BroadcastsInDim S512x1 (![0] : Fin 1 → Fin S512x1.rank)
  bcast_S512x1_S512x8_0_1 : S512x1.BroadcastsInDim S512x8 (![0, 1] : Fin 2 → Fin S512x8.rank)
  shapeCasts_S512_S16x32 : S512.ShapeCasts S16x32
  natLt_1_32 : 1 < 32
  reducesTo_S16x32_S16_d1 : S16x32.ReducesTo [1] S16
  h_S_ : 0 < S_.numel
  reducesTo_S4194304x8_S4194304_d1 : S4194304x8.ReducesTo [1] S4194304
  shapeCasts_S512x8_S16x32x8 : S512x8.ShapeCasts S16x32x8
  bcast_S16x32x8_S16x32x1x8_0_1_3 : S16x32x8.BroadcastsInDim S16x32x1x8 (![0, 1, 3] : Fin 3 → Fin S16x32x1x8.rank)
  bcast_S16x32x8_S16x1x32x8_0_2_3 : S16x32x8.BroadcastsInDim S16x1x32x8 (![0, 2, 3] : Fin 3 → Fin S16x1x32x8.rank)
  bcast_S16x32x1x8_S16x32x32x8_0_1_2_3 : S16x32x1x8.BroadcastsInDim S16x32x32x8 (![0, 1, 2, 3] : Fin 4 → Fin S16x32x32x8.rank)
  bcast_S16x1x32x8_S16x32x32x8_0_1_2_3 : S16x1x32x8.BroadcastsInDim S16x32x32x8 (![0, 1, 2, 3] : Fin 4 → Fin S16x32x32x8.rank)
  reducesTo_S16x32x32x8_S16x32x32_d3 : S16x32x32x8.ReducesTo [3] S16x32x32
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S16x32_S16x32x1_0_1 : S16x32.BroadcastsInDim S16x32x1 (![0, 1] : Fin 2 → Fin S16x32x1.rank)
  bcast_S1x32x32_S16x32x32_0_1_2 : S1x32x32.BroadcastsInDim S16x32x32 (![0, 1, 2] : Fin 3 → Fin S16x32x32.rank)
  bcast_S16x32x1_S16x32x32_0_1_2 : S16x32x1.BroadcastsInDim S16x32x32 (![0, 1, 2] : Fin 3 → Fin S16x32x32.rank)
  bcast_S16x32_S16x1x32_0_2 : S16x32.BroadcastsInDim S16x1x32 (![0, 2] : Fin 2 → Fin S16x1x32.rank)
  bcast_S16x1x32_S16x32x32_0_1_2 : S16x1x32.BroadcastsInDim S16x32x32 (![0, 1, 2] : Fin 3 → Fin S16x32x32.rank)
  bcast_S_S16x32x32 : S_.BroadcastsInDim S16x32x32 (![] : Fin 0 → Fin S16x32x32.rank)
  reducesTo_S16x32x32_S16_d1_2 : S16x32x32.ReducesTo [1, 2] S16
  bcast_S_S16 : S_.BroadcastsInDim S16 (![] : Fin 0 → Fin S16.rank)
  reducesTo_S16x32x8_S16x32_d2 : S16x32x8.ReducesTo [2] S16x32
  bcast_S_S16x32 : S_.BroadcastsInDim S16x32 (![] : Fin 0 → Fin S16x32.rank)
  reducesTo_S16_S_d0 : S16.ReducesTo [0] S_
  scatter_S512x8_S4194304x1_S4194304x8_1_0_0_1_wf : ScatterDims.WF S512x8 S4194304x1 S4194304x8 [1] [0] [0] 1
  scatter_S512_S4194304x1_S4194304_n_0_0_1_wf : ScatterDims.WF S512 S4194304x1 S4194304 [] [0] [0] 1
  gather_S512x8_S4194304x1_S4194304x8_1_0_n_n_0_1_18_wf : GatherDims.WF S512x8 S4194304x1 S4194304x8 [1] [0] [] [0] [] 1 ![1, 8]

variable [Facts₀]

def scatter_S512x8_S4194304x1_S4194304x8_1_0_0_1 : ScatterDims S512x8 S4194304x1 S4194304x8 where
  updateWindowDims := [1]
  insertedWindowDims := [0]
  scatterDimsToOperandDims := [0]
  indexVectorDim := 1
  wf := scatter_S512x8_S4194304x1_S4194304x8_1_0_0_1_wf
def scatter_S512_S4194304x1_S4194304_n_0_0_1 : ScatterDims S512 S4194304x1 S4194304 where
  updateWindowDims := []
  insertedWindowDims := [0]
  scatterDimsToOperandDims := [0]
  indexVectorDim := 1
  wf := scatter_S512_S4194304x1_S4194304_n_0_0_1_wf
def gather_S512x8_S4194304x1_S4194304x8_1_0_n_n_0_1_18 : GatherDims S512x8 S4194304x1 S4194304x8 where
  offsetDims := [1]
  collapsedSliceDims := [0]
  operandBatchingDims := []
  startIndicesBatchingDims := []
  startIndexMap := [0]
  indexVectorDim := 1
  sliceSizes := ![1, 8]
  wf := gather_S512x8_S4194304x1_S4194304x8_1_0_n_n_0_1_18_wf

class Facts : Prop extends Facts₀ where

variable [Facts]
-- ==== Proof.K.Region0.lean ====
/-
  The body certificate of the first kernel region: the statistics kernel on its 16 × 2 grid (32 points), stated at
  any contents `V` of the core's buffers when the region is entered. Each pair of points (an even one, then the odd
  one after it) treats one sample: the even point clears the two accumulators (the per-class sums, 8 × 32, and the
  per-class counts, 1 × 32) and adds the first half's contribution; the odd point adds the second half's and writes
  the output block, rows 0–7 from the sums and row 8 from the counts. The accumulators are carried from a point to the
  next; the output block is untouched at even points.
-/
import proofs.«417056_j24696061952722_1_alg».proof.Proof.Gen.Kernel.Launch
import proofs.«417056_j24696061952722_1_alg».proof.Proof.Gen.Kernel.Skeleton
import proofs.«417056_j24696061952722_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals, over the grid -/

/-- The first conditional (clear the accumulators): the second grid coordinate is 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (write the output block): the second grid coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points the output block is idle, -/
theorem idleAt0_2_A : ∀ t : Fin cfg0.N, cond0_0 (grid0.coords t) → ¬cond0_1 (grid0.coords t) → cfg0.idle 2 (grid0.coords t) = true := by decide +kernel
/-- and not written back; -/
theorem noFlush0_2_A : ∀ t : Fin cfg0.N, cond0_0 (grid0.coords t) → ¬cond0_1 (grid0.coords t) → (cfg0.win 2).flush t = false := by decide +kernel
/-- at the odd points it is live. -/
theorem liveAt0_2_B : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x9x32 .f32 := (Memref.whole cc0_stg2_0 : Memref sig .tc .vmem S1x9x32 .f32).view
abbrev ms0_0 (t : Fin cfg0.N) : Memref sig .tc .vmem S1x8x131072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x131072 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x32 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S8x32 .f32 := Memref.whole cc0_scratch0
abbrev scM0_1 : Memref sig .tc .vmem S1x32 .f32 := Memref.whole cc0_scratch1
abbrev VS0_0 : View sig .tc .vmem S8x32 .f32 := scM0_0.view
abbrev VS0_1 : View sig .tc .vmem S1x32 .f32 := scM0_1.view

/-- The core's other scoped buffers (the second kernel's), each whole at some contents: this region never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The region's invariant as the launch hands it over, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The body on any staging memrefs, at the even points and at the odd points -/

set_option maxHeartbeats 1000000 in
/-- AT AN EVEN POINT (the first conditional taken, the second not). On whole memrefs — the inputs' at their contents, the
    output's at contents `xi2` handed back untouched, the accumulators at anything (each is cleared before it is read) —
    the body runs to the continuation holding the inputs' as they were and each accumulator with the pieces its stores
    wrote (last first): the pieces are what the run finds. -/
noncomputable def kernelRun0_A (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) :
    Σ' (L2 : List (View.Piece (Elt F) S1x9x32 .f32)) (LS0 : List (View.Piece (Elt F) S8x32 .f32)), { LS1 : List (View.Piece (Elt F) S1x32 .f32) //
      ∀ (xi2 : Vec F S1x9x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- AT AN ODD POINT (the first conditional not taken, the second taken). On whole memrefs — the inputs' at their contents,
    the output's at anything, the accumulators at what the point before left (`xs0`, `xs1`) — the body runs to the
    continuation holding the inputs' as they were and the output's buffer and each accumulator with the pieces its stores
    wrote (last first). -/
noncomputable def kernelRun0_B (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) :
    Σ' (L2 : List (View.Piece (Elt F) S1x9x32 .f32)) (LS0 : List (View.Piece (Elt F) S8x32 .f32)), { LS1 : List (View.Piece (Elt F) S1x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

/-! ## What each case leaves in the output's buffer and in the accumulators -/

/-- An even point stores nothing into the output block: a placeholder that nothing consults. -/
def out0_A_2 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) : Vec F S1x9x32 .f32 :=
  VO0_2.read (Elt F) (VO0_2.writes (Elt F) VO0_2.junk (kernelRun0_A c i arg2 harg2 arg3 harg3 arg4 harg4 arg5 harg5 arg6 harg6 hc0 hc1 x0 x1).1)

/-- An even point's stores into the sums cover them, -/
theorem scover0_A_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) (y : S8x32.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S8x32.size (by sl_kernel_rfl) y

/-- so what it leaves there is its pieces read back. -/
def sout0_A_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) : Vec F S8x32 .f32 :=
  VS0_0.read (Elt F) (VS0_0.writes (Elt F) VS0_0.junk (kernelRun0_A c i arg2 harg2 arg3 harg3 arg4 harg4 arg5 harg5 arg6 harg6 hc0 hc1 x0 x1).2.1)

/-- The same for the counts. -/
theorem scover0_A_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) (y : S1x32.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x32.size (by sl_kernel_rfl) y

def sout0_A_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) : Vec F S1x32 .f32 :=
  VS0_1.read (Elt F) (VS0_1.writes (Elt F) VS0_1.junk (kernelRun0_A c i arg2 harg2 arg3 harg3 arg4 harg4 arg5 harg5 arg6 harg6 hc0 hc1 x0 x1).2.2.1)

/-- An odd point's two stores into the output block (rows 0–7, then row 8) are of two sizes; cut into rows they tile it, so they cover it, -/
theorem cover0_B_2 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) (y : S1x9x32.Idx) :
    ∃ pc ∈ (kernelRun0_B c i arg2 harg2 arg3 harg3 arg4 harg4 arg5 harg5 arg6 harg6 hc0 hc1 x0 x1 xs0 xs1).1, y ∈ pc.1.set :=
  View.cover_of_tiledBy (kernelRun0_B c i arg2 harg2 arg3 harg3 arg4 harg4 arg5 harg5 arg6 harg6 hc0 hc1 x0 x1 xs0 xs1).1 ![1, 1, 32] (by sl_kernel_rfl) y

/-- so what it leaves there is its pieces read back. -/
def out0_B_2 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) : Vec F S1x9x32 .f32 :=
  VO0_2.read (Elt F) (VO0_2.writes (Elt F) VO0_2.junk (kernelRun0_B c i arg2 harg2 arg3 harg3 arg4 harg4 arg5 harg5 arg6 harg6 hc0 hc1 x0 x1 xs0 xs1).1)

/-- An odd point's store into the sums covers them. -/
theorem scover0_B_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) (y : S8x32.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S8x32.size (by sl_kernel_rfl) y

def sout0_B_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) : Vec F S8x32 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- And its store into the counts covers them. -/
theorem scover0_B_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) (y : S1x32.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x32.size (by sl_kernel_rfl) y

def sout0_B_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) : Vec F S1x32 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-! ## What the output's buffer and the accumulators hold after each point -/

/-- After an even point `t`: the output's buffer (a placeholder), the sums, the counts. -/
def ptA (c : Dev nD) (t : Fin cfg0.N) (h0 : t.val % 2 = 0) : Vec F S1x9x32 .f32 × Vec F S8x32 .f32 × Vec F S1x32 .f32 :=
  (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t),
   sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t))

/-- After an odd point `t`, from what the point before left in the accumulators (`p`). -/
def ptB (c : Dev nD) (t : Fin cfg0.N) (h1 : t.val % 2 = 1) (p : Vec F S8x32 .f32 × Vec F S1x32 .f32) : Vec F S1x9x32 .f32 × Vec F S8x32 .f32 × Vec F S1x32 .f32 :=
  (out0_B_2 c (grid0.coords t) (ms0_0 t) (hs0_0 t) (ms0_1 t) (hs0_1 t) (ms0_2 t) (hs0_2 t) scM0_0 (Memref.isWhole_whole _) scM0_1 (Memref.isWhole_whole _) (fun h => absurd ((hcond0_0 t).mp h) (by omega)) ((hcond0_1 t).mpr h1) (iblk0 V c 0 t) (iblk0 V c 1 t) p.1 p.2,
   sout0_B_0 c (grid0.coords t) (ms0_0 t) (hs0_0 t) (ms0_1 t) (hs0_1 t) (ms0_2 t) (hs0_2 t) scM0_0 (Memref.isWhole_whole _) scM0_1 (Memref.isWhole_whole _) (fun h => absurd ((hcond0_0 t).mp h) (by omega)) ((hcond0_1 t).mpr h1) (iblk0 V c 0 t) (iblk0 V c 1 t) p.1 p.2,
   sout0_B_1 c (grid0.coords t) (ms0_0 t) (hs0_0 t) (ms0_1 t) (hs0_1 t) (ms0_2 t) (hs0_2 t) scM0_0 (Memref.isWhole_whole _) scM0_1 (Memref.isWhole_whole _) (fun h => absurd ((hcond0_0 t).mp h) (by omega)) ((hcond0_1 t).mpr h1) (iblk0 V c 0 t) (iblk0 V c 1 t) p.1 p.2)

/-- THE ACCUMULATION: the output's staging buffer, the sums and the counts after the body at position `n`. -/
def outsAt0 (c : Dev nD) : (n : ℕ) → n < cfg0.N → Vec F S1x9x32 .f32 × Vec F S8x32 .f32 × Vec F S1x32 .f32
  | 0, hn => ptA V c ⟨0, hn⟩ (Nat.zero_mod _)
  | n + 1, hn =>
    if h0 : (n + 1) % 2 = 0 then ptA V c ⟨n + 1, hn⟩ h0
    else ptB V c ⟨n + 1, hn⟩ (show (n + 1) % 2 = 1 by omega) (outsAt0 c n (Nat.lt_of_succ_lt hn)).2

/-- At an even point. -/
theorem outsAt0_A (c : Dev nD) (t : Fin cfg0.N) (h0 : t.val % 2 = 0) :
    outsAt0 V c t.val t.isLt = ptA V c t h0 := by
  obtain ⟨n, hn⟩ := t
  cases n with
  | zero => exact rfl
  | succ n => exact (dif_pos h0).trans rfl

/-- At an odd point, over what the point before left. -/
theorem outsAt0_B (c : Dev nD) (t : Fin cfg0.N) (h1 : t.val % 2 = 1) :
    outsAt0 V c t.val t.isLt = ptB V c t h1 (outsAt0 V c (t.val - 1) (Nat.lt_of_le_of_lt (Nat.sub_le _ _) t.isLt)).2 := by
  obtain ⟨n, hn⟩ := t
  cases n with
  | zero => exact (by dsimp only at h1; omega)
  | succ n => exact (dif_neg (by dsimp only at h1; omega)).trans rfl

/-! ## The region's invariant -/

/-- Before position `n`: at the first point what the launch hands over (both accumulators at anything); afterwards both
    accumulators at what the point before left in them, the other scoped buffers and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The pipeline's proof data -/

/-- The arrays as the region finds them; after the body at point `t` each input's buffer at its block and the output's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks. At an even point the invariant hands over the
    accumulators (at anything at the very first point, at what the point before left otherwise: either way they are cleared
    before they are read), the output's buffer comes back untouched; at an odd point the accumulators come at what the even
    point before left and the output's buffer, at anything, comes back with both stores. Either way the invariant takes the
    accumulators back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have hc0 : cond0_0 (grid0.coords t) := (hcond0_0 t).mpr h0
    have hc1 : ¬cond0_1 (grid0.coords t) := fun h => absurd ((hcond0_1 t).mp h) (by omega)
    rw [Dat.leavesExact_idle (dat0 V c) 2 t (idleAt0_2_A t hc0 hc1) (noFlush0_2_A t hc0 hc1)]
    rw [outsAt0_A V c t h0]
    unfold ptA sout0_A_0 sout0_A_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
  · have h1 : t.val % 2 = 1 := by omega
    have hc0 : ¬cond0_0 (grid0.coords t) := fun h => absurd ((hcond0_0 t).mp h) (by omega)
    have hc1 : cond0_1 (grid0.coords t) := (hcond0_1 t).mpr h1
    have hz : t.val ≠ 0 := by omega
    rw [show (dat0 V c).leavesExact 2 t = owns (c : Thread nD τ) (ms0_2 t) fullShare ((dat0 V c).after 2 t) from by
      unfold Dat.leavesExact; rw [liveAt0_2_B t hc0 hc1], after0_2]
    rw [outsAt0_B V c t h1]
    unfold ptB out0_B_2 sout0_B_0 sout0_B_1; (try dsimp only)
    rw [PhiS_castSucc V c t, PhiS_pos V c _ _ hz]
    iintro ⟨⟨⟨HS0, HS1, HR⟩, Hg⟩, Ho, ⟨%d0, H0⟩, ⟨%d1, H1⟩, ⟨%d2, H2⟩⟩
    iapply ((kernelRun0_B c (grid0.coords t) _ _ _ _ _ _ _ _ _ _ hc0 hc1 (iblk0 V c 0 t) (iblk0 V c 1 t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 32 := N_0; omega)

/-- Nothing is owed at any point, and every window's share is the full one. -/
theorem owed0 (c : Dev nD) (t : Fin (cfg0.N + 1)) : (dat0 V c).owed t = 0 := rfl
theorem q0 (c : Dev nD) (w : Fin cfg0.W) : (dat0 V c).q w = fullShare := rfl

end Cert.Kernel.R0

end
-- ==== Proof.K.Region1.lean ====
/- The body certificate of the second pallas_call of the printed program (the hinge kernel, grid 16×2), stated at a
   parameter `V`: the TensorCore's buffer contents when the region is entered. The kernel carries a one-element scratch
   accumulator between grid points: at the even points it resets the accumulator and adds the point's partial sum, at
   the odd points it adds the point's partial sum and stores the total into the output block. -/
import proofs.«417056_j24696061952722_1_alg».proof.Proof.Gen.Kernel.Launch
import proofs.«417056_j24696061952722_1_alg».proof.Proof.Gen.Kernel.Skeleton
import proofs.«417056_j24696061952722_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 is fetched at the even points only; at an odd point its block index is the one of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional, from the grid coordinates: the inner coordinate is 0. -/
abbrev cond1_0 (i : grid1.Coords) : Prop := (Scalar.cmpi .ne (Scalar.extui (Scalar.cmpi .eq (BitVec.ofNat 32 (i 1).val) 0#32)) 0#32) = 1#1
/-- It holds at the even points — decided over the grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second conditional: the inner coordinate is 1. -/
abbrev cond1_1 (i : grid1.Coords) : Prop := k1_cond2 i = 1#1
/-- It holds at the odd points — decided over the grid. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: the body stores nothing into it, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the odd points the output window is live: the body stores into it. -/
theorem liveAt1_3_B : ∀ t : Fin cfg1.N, ¬cond1_0 (grid1.coords t) → cond1_1 (grid1.coords t) → cfg1.idle 3 (grid1.coords t) = false := by decide +kernel

/-! ## The staging and scratch memrefs -/

/-- One staging buffer of the output window, through which its contents are stated. -/
abbrev VO1_3 : View sig .tc .vmem S1x1x1 .f32 := (Memref.whole cc1_stg3_0 : Memref sig .tc .vmem S1x1x1 .f32).view
/-- Each window's current staging memref at point `t`, and its wholeness. -/
abbrev ms1_0 (t : Fin cfg1.N) : Memref sig .tc .vmem S1x8x131072 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x131072 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The scratch operand: a whole scoped buffer of the kernel's own, carried between points. -/
abbrev scM1_0 : Memref sig .tc .vmem S1x1 .f32 := Memref.whole cc1_scratch0
abbrev VS1_0 : View sig .tc .vmem S1x1 .f32 := scM1_0.view

/-- The core's other scoped buffers that are no staging buffer of this region, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Nine assertions conjoined one by one, the last split off. -/
theorem sep9_last {M : Type} [URA M] (A1 A2 A3 A4 A5 A6 A7 A8 S G : sProp M) :
    iprop((A1 ∗ A2 ∗ A3 ∗ A4 ∗ A5 ∗ A6 ∗ A7 ∗ A8 ∗ S) ∗ G) = iprop(((A1 ∗ A2 ∗ A3 ∗ A4 ∗ A5 ∗ A6 ∗ A7 ∗ A8) ∗ S) ∗ G) := by
  have h₁ : iprop((A1 ∗ A2 ∗ A3 ∗ A4 ∗ A5 ∗ A6 ∗ A7 ∗ A8 ∗ S) ∗ G) ⊢ iprop(((A1 ∗ A2 ∗ A3 ∗ A4 ∗ A5 ∗ A6 ∗ A7 ∗ A8) ∗ S) ∗ G) := by
    iintro ⟨⟨R1, R2, R3, R4, R5, R6, R7, R8, HS0⟩, Hg⟩
    isplitr [Hg]
    · isplitr [HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      iexact HS0
    iexact Hg
  have h₂ : iprop(((A1 ∗ A2 ∗ A3 ∗ A4 ∗ A5 ∗ A6 ∗ A7 ∗ A8) ∗ S) ∗ G) ⊢ iprop((A1 ∗ A2 ∗ A3 ∗ A4 ∗ A5 ∗ A6 ∗ A7 ∗ A8 ∗ S) ∗ G) := by
    iintro ⟨⟨⟨R1, R2, R3, R4, R5, R6, R7, R8⟩, HS0⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS0
    iexact Hg
  exact BI.equiv_iff.mp ⟨h₁, h₂⟩

/-- The class's region invariant, with the scratch operand as a memref owned at some contents, split from the other
    scoped buffers: what the body obligation hands the run and takes back. -/
theorem PhiA1_eq (c : Dev nD) :
    (Pipeline.ΦA spec1 c : sProp 𝕄)
      = iprop(iprop(others1 (F := F) c ∗ (∃ d, owns (c : Thread nD τ) scM1_0 fullShare d)) ∗ (∃ r, prngReg c r)) := by
  unfold Pipeline.ΦA others1; rw [scopedRest1_eq]; simp only [scM1_0, owns_whole]
  exact sep9_last ..

/-! ## The kernel body on any staging memrefs: a subtype the run finds -/

set_option maxHeartbeats 1000000 in
/-- What the body's stores leave in the output's staging memref and in the scratch, as pieces (last first), AT AN EVEN
    POINT (first conditional taken, second not), with the proof that on whole memrefs — the inputs' at their contents,
    the output's at contents handed back untouched, the scratch at anything — the body runs to the continuation holding
    the inputs' and the output's as they were and the scratch with its pieces written. -/
noncomputable def kernelRun1_A (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__hinge_kernel i arg2 harg2 arg3 harg3 arg4 harg4 arg5 harg5 arg6 harg6) K } := by
  refine ⟨[], ?_, fun xi3 E K => ?run⟩
  case run =>
    simp only [cc1__hinge_kernel_eq_skeleton]; unfold cc1__hinge_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The same AT AN ODD POINT (first conditional not taken, second taken): the scratch at what the point before left,
    the output's buffer at anything; the body leaves both with their pieces written. -/
noncomputable def kernelRun1_B (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__hinge_kernel i arg2 harg2 arg3 harg3 arg4 harg4 arg5 harg5 arg6 harg6) K } := by
  refine ⟨?_, ?_, fun E K => ?run⟩
  case run =>
    simp only [cc1__hinge_kernel_eq_skeleton]; unfold cc1__hinge_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves -/

/-- At an even point the body stores nothing into the output window (idle there and not written back): no pieces — a
    placeholder nothing consults. -/
def out1_A_3 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) : Vec F S1x1x1 .f32 :=
  VO1_3.read (Elt F) (VO1_3.writes (Elt F) VO1_3.junk (kernelRun1_A c i arg2 harg2 arg3 harg3 arg4 harg4 arg5 harg5 arg6 harg6 hc0 hc1 x0 x1 x2).1)

/-- The pieces an even point leaves in the scratch cover it. -/
theorem scover1_A_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y

/-- What an even point leaves in the scratch: its pieces read back over junk. -/
def sout1_A_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) : Vec F S1x1 .f32 :=
  VS1_0.read (Elt F) (VS1_0.writes (Elt F) VS1_0.junk (kernelRun1_A c i arg2 harg2 arg3 harg3 arg4 harg4 arg5 harg5 arg6 harg6 hc0 hc1 x0 x1 x2).2.1)

/-- The pieces an odd point leaves in the output's buffer cover it. -/
theorem cover1_B_3 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) (y : S1x1x1.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1x1x1.size (by sl_kernel_rfl) y

/-- What an odd point leaves in the output's staging buffer: its pieces read back over junk. -/
def out1_B_3 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) : Vec F S1x1x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- The pieces an odd point leaves in the scratch cover it. -/
theorem scover1_B_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y

/-- What an odd point leaves in the scratch: its pieces read back over junk. -/
def sout1_B_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 hc0 hc1 x0 x1 x2 xs0).2.1)

/-! ## What the output's buffer and the scratch hold after each point -/

/-- THE ACCUMULATION: the output's staging buffer and the scratch after the body at position `n`. An even point resets
    the scratch and adds its partial sum; an odd point adds its partial sum to what the point before left and stores
    the total into the output's buffer. -/
def outsAt1 (c : Dev nD) : (n : ℕ) → n < cfg1.N → Vec F S1x1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' : 0 % 2 = 1 := (hcond1_1 ⟨0, hn⟩).mp h; omega) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' : 0 % 2 = 1 := (hcond1_1 ⟨0, hn⟩).mp h; omega) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' : (n + 1) % 2 = 1 := (hcond1_1 ⟨n + 1, hn⟩).mp h; omega) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' : (n + 1) % 2 = 1 := (hcond1_1 ⟨n + 1, hn⟩).mp h; omega) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2)

/-- `outsAt1` at an even point: that case's contents. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at an odd point: that case's contents, over what the point before left. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's; afterwards the other scoped buffers
    at anything, the scratch at what the point before left in it, and the generator register at some state. -/
def PhiS (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 (F := F) c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(others1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the output's at `outsAt1`; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's parity says which case it is in; the
    invariant hands the body the scratch at what the point before left (at anything at the first point) and takes it
    back at this point's contents; the other scoped buffers, the generator register and what the core owes pass
    through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨HR, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    rw [PhiS_castSucc V c t, PhiS_pos V c _ _ hz]
    iintro ⟨⟨⟨HR, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 32 := N_1; omega)

/-- The core owes nothing at any point, and holds every array at the full share. -/
theorem owed1 (c : Dev nD) (t : Fin (cfg1.N + 1)) : (dat1 V c).owed t = 0 := rfl
theorem q1 (c : Dev nD) (w : Fin cfg1.W) : (dat1 V c).q w = fullShare := rfl

end Cert.Kernel.R1

end
-- ==== Proof.K.Run.lean ====
/-
  The run of the whole program: its two kernel regions as segments between the host stretches, and the launch.

  Region 0 is entered from the contents the first host stretch leaves and exits with its result array holding what
  the pipeline's write-backs leave; the second host stretch computes the means from it; region 1 is entered from those
  contents and exits with its own result array written; the remaining stretches compute the scalar result. Every
  unscoped buffer is followed through all fifteen items, so that at the end each is read off the last contents: the
  arguments as launched, the result at the host operations' term of the two regions' arrays.
-/
import proofs.«417056_j24696061952722_1_alg».proof.Proof.Gen.Kernel.Regions
import proofs.«417056_j24696061952722_1_alg».proof.Proof.K.Region0
import proofs.«417056_j24696061952722_1_alg».proof.Proof.K.Region1
import Idealize.ShloMosaic.Lib.Pipeline.FrameSuffix
import Idealize.ShloMosaic.Lib.Pipeline.RegionsLoop

set_option maxRecDepth 16384

noncomputable section

namespace Cert.Kernel.Run

open Cert.Kernel Cert.Kernel.Gen Cert.Kernel.R0 Cert.Kernel.R1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The proof data record nothing owed, full shares and no bound on the recorded pairs. -/
theorem rec0 (V : (c : Dev nD) → (b : Ref sig .tc) → Buf (Elt F) ((c : Thread nD τ).loc b)) (c : Dev nD) : (dat0 V c).recorded 0 = Set.univ := rfl
theorem rec1 (V : (c : Dev nD) → (b : Ref sig .tc) → Buf (Elt F) ((c : Thread nD τ).loc b)) (c : Dev nD) : (dat1 V c).recorded 0 = Set.univ := rfl

variable (m : (ℓ : Loc nD τ sig) → Buf (Elt F) ℓ) (ρ : Dev nD → PrngReg)

/-! ## The contents at the regions' ends -/

/-- Region 0's entry contents, read at the core's references: the launch memory after the first host stretch. -/
abbrev VA (c : Dev nD) (b : Ref sig .tc) : Buf (Elt F) ((c : Thread nD τ).loc b) := Gen.V1 m c b

/-- Region 0's exit contents: its arrays at what the write-backs leave, every other buffer as entered. -/
def WA (c : Dev nD) : Valuation τ sig (Elt F) :=
  Pipeline.withArrays spec0 c (Gen.V1 m c) fun w => (dat0 (VA m) c).arrAt w cfg0.N

/-- What region 0 leaves, as the unknowns the host side's valuations are written over. -/
def outsA : Gen.Outs (F := F) := fun _ r c => WA m c r

/-- Region 1's entry contents: region 0's exit contents after the second host stretch. -/
abbrev VB (c : Dev nD) (b : Ref sig .tc) : Buf (Elt F) ((c : Thread nD τ).loc b) := Gen.V3 m (outsA m) c b

/-- Region 1's exit contents. -/
def WB (c : Dev nD) : Valuation τ sig (Elt F) :=
  Pipeline.withArrays spec1 c (Gen.V3 m (outsA m) c) fun w => (dat1 (VB m) c).arrAt w cfg1.N

/-- What the two regions leave. -/
def outs : Gen.Outs (F := F) := fun j r c => if j = 4 then WB m c r else WA m c r

theorem outs_two (r : Ref sig .tc) (c : Dev nD) : outs m 2 r c = outsA m 2 r c := by
  unfold outs outsA; rw [if_neg (by decide)]

theorem outs_four (r : Ref sig .tc) (c : Dev nD) : outs m 4 r c = WB m c r := by
  unfold outs; rw [if_pos rfl]

theorem V2_outs (c : Dev nD) : Gen.V2 m (outs m) c = Gen.V2 m (outsA m) c := by
  unfold Gen.V2; rw [outs_two]

theorem V3_outs (c : Dev nD) : Gen.V3 m (outs m) c = Gen.V3 m (outsA m) c := by
  unfold Gen.V3; rw [V2_outs]

/-- The proof data of the two pipelines, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Region 0's exit contents against its entry contents -/

theorem WA_arr (c : Dev nD) (w : Fin cfg0.W) :
    WA m c (Proc.devRef .tc (Pipeline.arrRef spec0 w)) = (dat0 (VA m) c).arrAt w cfg0.N := by
  unfold WA; exact Pipeline.withArrays_arr spec0 launch0.win.arr_inj c _ _ w

theorem WA_of_ne (c : Dev nD) (b : Ref sig .tc) (hb : ∀ w, Pipeline.arrRef spec0 w ≠ b) :
    WA m c (Proc.devRef .tc b) = Gen.V1 m c (Proc.devRef .tc b) := by
  unfold WA; exact Pipeline.withArrays_of_ne spec0 c _ _ b hb

theorem WB_arr (c : Dev nD) (w : Fin cfg1.W) :
    WB m c (Proc.devRef .tc (Pipeline.arrRef spec1 w)) = (dat1 (VB m) c).arrAt w cfg1.N := by
  unfold WB; exact Pipeline.withArrays_arr spec1 launch1.win.arr_inj c _ _ w

theorem WB_of_ne (c : Dev nD) (b : Ref sig .tc) (hb : ∀ w, Pipeline.arrRef spec1 w ≠ b) :
    WB m c (Proc.devRef .tc b) = Gen.V3 m (outsA m) c (Proc.devRef .tc b) := by
  unfold WB; exact Pipeline.withArrays_of_ne spec1 c _ _ b hb

/-! ## Region 0 as a segment -/

/-- Region 0's arrays at its exit: the inputs as entered, the output what the write-backs leave; every other buffer as
    entered. -/
theorem hF0 (c : Dev nD) (w : Fin cfg0.W) :
    (pdats m 0 c).arrAt w cfg0.N = Gen.V2 m (outs m) c (Proc.devRef .tc (Pipeline.arrRef spec0 w)) := by
  match w with
  | ⟨0, _⟩ =>
    refine (((pdats m 0 c).arrAt_in 0 rfl _).trans (A_eq0 (VA m) c 0)).trans ?_
    exact (Gen.V2_of m (outs m) c main_v0 (by decide)).symm
  | ⟨1, _⟩ =>
    refine (((pdats m 0 c).arrAt_in 1 rfl _).trans (A_eq0 (VA m) c 1)).trans ?_
    exact (Gen.V2_of m (outs m) c main_v2 (by decide)).symm
  | ⟨2, _⟩ =>
    show _ = Gen.V2 m (outs m) c (Proc.devRef .tc main_v3)
    unfold Gen.V2; rw [Function.update_self, outs_two]; exact (WA_arr m c 2).symm

theorem hrest0 (c : Dev nD) : ∀ b : Ref sig .tc, b ∉ Finset.univ.image (Pipeline.arrRef spec0) →
    Gen.V2 m (outs m) c (Proc.devRef .tc b) = Gen.V1 m c (Proc.devRef .tc b) := fun b hb =>
  Gen.V2_of m (outs m) c b (by
    intro h
    rw [List.mem_singleton] at h
    exact hb (Finset.mem_image.mpr ⟨2, Finset.mem_univ _, h.symm⟩))

set_option backward.isDefEq.respectTransparency.types false in
/-- REGION 0 over the thread state: entered from every unscoped buffer at the first stretch's contents, left at those
    contents with its result array written. Its arrays are split out of the unscoped buffers and put back at the exit
    contents; the generator register goes into the body's invariant and comes back; nothing is owed; the kernel has no
    semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun c t => owed0 (VA m) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun w => q0 (VA m) c w) (VA m c) fun w => A_eq0 (VA m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by show _ ∈ (dat0 (VA m) c).recorded 0; rw [rec0 (VA m) c]; trivial)
      rw [show (pdats m 0 c).owed 0 = 0 from owed0 (VA m) c 0]
      iexact HO
    isplitl [Hp]; · iexact Hp
    iexact Hrest
  hin c := by
    refine BIBase.Entails.trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q0 (VA m) c w)
      (VA m c) (fun b => Gen.V2 m (outs m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed0 (VA m) c _]
    iexact HO

/-! ## Region 1 as a segment -/

/-- Region 1's arrays at its exit: the inputs as entered, the output what the write-backs leave; every other buffer as
    entered. -/
theorem hF1 (c : Dev nD) (w : Fin cfg1.W) :
    (pdats m 1 c).arrAt w cfg1.N = Gen.V4 m (outs m) c (Proc.devRef .tc (Pipeline.arrRef spec1 w)) := by
  match w with
  | ⟨0, _⟩ =>
    refine (((pdats m 1 c).arrAt_in 0 rfl _).trans (A_eq1 (VB m) c 0)).trans ?_
    refine Eq.trans ?_ (Gen.V4_of m (outs m) c main_v0 (by decide)).symm
    rw [V3_outs]
  | ⟨1, _⟩ =>
    refine (((pdats m 1 c).arrAt_in 1 rfl _).trans (A_eq1 (VB m) c 1)).trans ?_
    refine Eq.trans ?_ (Gen.V4_of m (outs m) c main_v2 (by decide)).symm
    rw [V3_outs]
  | ⟨2, _⟩ =>
    refine (((pdats m 1 c).arrAt_in 2 rfl _).trans (A_eq1 (VB m) c 2)).trans ?_
    refine Eq.trans ?_ (Gen.V4_of m (outs m) c main_v11 (by decide)).symm
    rw [V3_outs]
  | ⟨3, _⟩ =>
    show _ = Gen.V4 m (outs m) c (Proc.devRef .tc main_v17)
    unfold Gen.V4; rw [Function.update_self, outs_four]; exact (WB_arr m c 3).symm

theorem hrest1 (c : Dev nD) : ∀ b : Ref sig .tc, b ∉ Finset.univ.image (Pipeline.arrRef spec1) →
    Gen.V4 m (outs m) c (Proc.devRef .tc b) = Gen.V3 m (outsA m) c (Proc.devRef .tc b) := fun b hb => by
  rw [← V3_outs]
  exact Gen.V4_of m (outs m) c b (by
    intro h
    rw [List.mem_singleton] at h
    exact hb (Finset.mem_image.mpr ⟨3, Finset.mem_univ _, h.symm⟩))

set_option backward.isDefEq.respectTransparency.types false in
/-- REGION 1 over the thread state: entered from every unscoped buffer at the second stretch's contents, left at those
    contents with its result array written. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun c t => owed1 (VB m) c t
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun w => q1 (VB m) c w) (VB m c) fun w => A_eq1 (VB m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by show _ ∈ (dat1 (VB m) c).recorded 0; rw [rec1 (VB m) c]; trivial)
      rw [show (pdats m 1 c).owed 0 = 0 from owed1 (VB m) c 0]
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q1 (VB m) c w)
      (VB m c) (fun b => Gen.V4 m (outs m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed1 (VB m) c _]
    iexact HO

/-! ## The launch -/

theorem hpre0 (c : Dev nD) :
    iprop(StableHlo.held (c : Thread nD τ) (Pipeline.ucRefs τ sig) (Gen.V1 m c) ∗ R (F := F) c) ⊢ (reg0 m).pre c := .rfl
theorem hpost0 (c : Dev nD) :
    (reg0 m).post c ⊢ iprop(StableHlo.held (c : Thread nD τ) (Pipeline.ucRefs τ sig) (Gen.V2 m (outs m) c) ∗ R (F := F) c) := .rfl
theorem hpre1 (c : Dev nD) :
    iprop(StableHlo.held (c : Thread nD τ) (Pipeline.ucRefs τ sig) (Gen.V3 m (outs m) c) ∗ R (F := F) c) ⊢ (reg1 m).pre c := by
  rw [V3_outs]; exact .rfl
theorem hpost1 (c : Dev nD) :
    (reg1 m).post c ⊢ iprop(StableHlo.held (c : Thread nD τ) (Pipeline.ucRefs τ sig) (Gen.V4 m (outs m) c) ∗ R (F := F) c) := .rfl

/-- The launch hands every core the generator register and owes nothing: the rest state of every item. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE FRAME: every weakly fair execution of @main terminates, nothing faulting, and every final memory holds each
    argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () Variants.none L lv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) hu₀
    (fun _ c => R (F := F) c) (hE0 ρ) (fun c => by iintro ⟨-, HO⟩; iexact HO)
    (reg0 m) (hpre0 m) (hpost0 m) (reg1 m) (hpre1 m) (hpost1 m)

end Cert.Kernel.Run

end
-- ==== Proof.KI.Region0.lean ====
/-
  The body certificate of the first kernel region: the statistics kernel on its 16 × 2 grid (32 points), stated at
  any contents `V` of the core's buffers when the region is entered. Each pair of points (an even one, then the odd
  one after it) treats one sample: the even point clears the two accumulators (the per-class sums, 8 × 32, and the
  per-class counts, 1 × 32) and adds the first half's contribution; the odd point adds the second half's and writes
  the output block, rows 0–7 from the sums and row 8 from the counts. The accumulators are carried from a point to the
  next; the output block is untouched at even points.
-/
import proofs.«417056_j24696061952722_1_alg».proof.Proof.Gen.KernelIdeal.Launch
import proofs.«417056_j24696061952722_1_alg».proof.Proof.Gen.KernelIdeal.Skeleton
import proofs.«417056_j24696061952722_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals, over the grid -/

/-- The first conditional (clear the accumulators): the second grid coordinate is 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (write the output block): the second grid coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points the output block is idle, -/
theorem idleAt0_2_A : ∀ t : Fin cfg0.N, cond0_0 (grid0.coords t) → ¬cond0_1 (grid0.coords t) → cfg0.idle 2 (grid0.coords t) = true := by decide +kernel
/-- and not written back; -/
theorem noFlush0_2_A : ∀ t : Fin cfg0.N, cond0_0 (grid0.coords t) → ¬cond0_1 (grid0.coords t) → (cfg0.win 2).flush t = false := by decide +kernel
/-- at the odd points it is live. -/
theorem liveAt0_2_B : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x9x32 .f32 := (Memref.whole cc0_stg2_0 : Memref sig .tc .vmem S1x9x32 .f32).view
abbrev ms0_0 (t : Fin cfg0.N) : Memref sig .tc .vmem S1x8x131072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x131072 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x32 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S8x32 .f32 := Memref.whole cc0_scratch0
abbrev scM0_1 : Memref sig .tc .vmem S1x32 .f32 := Memref.whole cc0_scratch1
abbrev VS0_0 : View sig .tc .vmem S8x32 .f32 := scM0_0.view
abbrev VS0_1 : View sig .tc .vmem S1x32 .f32 := scM0_1.view

/-- The core's other scoped buffers (the second kernel's), each whole at some contents: this region never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The region's invariant as the launch hands it over, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The body on any staging memrefs, at the even points and at the odd points -/

set_option maxHeartbeats 1000000 in
/-- AT AN EVEN POINT (the first conditional taken, the second not). On whole memrefs — the inputs' at their contents, the
    output's at contents `xi2` handed back untouched, the accumulators at anything (each is cleared before it is read) —
    the body runs to the continuation holding the inputs' as they were and each accumulator with the pieces its stores
    wrote (last first): the pieces are what the run finds. -/
noncomputable def kernelRun0_A (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) :
    Σ' (L2 : List (View.Piece (Elt F) S1x9x32 .f32)) (LS0 : List (View.Piece (Elt F) S8x32 .f32)), { LS1 : List (View.Piece (Elt F) S1x32 .f32) //
      ∀ (xi2 : Vec F S1x9x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- AT AN ODD POINT (the first conditional not taken, the second taken). On whole memrefs — the inputs' at their contents,
    the output's at anything, the accumulators at what the point before left (`xs0`, `xs1`) — the body runs to the
    continuation holding the inputs' as they were and the output's buffer and each accumulator with the pieces its stores
    wrote (last first). -/
noncomputable def kernelRun0_B (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) :
    Σ' (L2 : List (View.Piece (Elt F) S1x9x32 .f32)) (LS0 : List (View.Piece (Elt F) S8x32 .f32)), { LS1 : List (View.Piece (Elt F) S1x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

/-! ## What each case leaves in the output's buffer and in the accumulators -/

/-- An even point stores nothing into the output block: a placeholder that nothing consults. -/
def out0_A_2 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) : Vec F S1x9x32 .f32 :=
  VO0_2.read (Elt F) (VO0_2.writes (Elt F) VO0_2.junk (kernelRun0_A c i arg2 harg2 arg3 harg3 arg4 harg4 arg5 harg5 arg6 harg6 hc0 hc1 x0 x1).1)

/-- An even point's stores into the sums cover them, -/
theorem scover0_A_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) (y : S8x32.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S8x32.size (by sl_kernel_rfl) y

/-- so what it leaves there is its pieces read back. -/
def sout0_A_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) : Vec F S8x32 .f32 :=
  VS0_0.read (Elt F) (VS0_0.writes (Elt F) VS0_0.junk (kernelRun0_A c i arg2 harg2 arg3 harg3 arg4 harg4 arg5 harg5 arg6 harg6 hc0 hc1 x0 x1).2.1)

/-- The same for the counts. -/
theorem scover0_A_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) (y : S1x32.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x32.size (by sl_kernel_rfl) y

def sout0_A_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) : Vec F S1x32 .f32 :=
  VS0_1.read (Elt F) (VS0_1.writes (Elt F) VS0_1.junk (kernelRun0_A c i arg2 harg2 arg3 harg3 arg4 harg4 arg5 harg5 arg6 harg6 hc0 hc1 x0 x1).2.2.1)

/-- An odd point's two stores into the output block (rows 0–7, then row 8) are of two sizes; cut into rows they tile it, so they cover it, -/
theorem cover0_B_2 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) (y : S1x9x32.Idx) :
    ∃ pc ∈ (kernelRun0_B c i arg2 harg2 arg3 harg3 arg4 harg4 arg5 harg5 arg6 harg6 hc0 hc1 x0 x1 xs0 xs1).1, y ∈ pc.1.set :=
  View.cover_of_tiledBy (kernelRun0_B c i arg2 harg2 arg3 harg3 arg4 harg4 arg5 harg5 arg6 harg6 hc0 hc1 x0 x1 xs0 xs1).1 ![1, 1, 32] (by sl_kernel_rfl) y

/-- so what it leaves there is its pieces read back. -/
def out0_B_2 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) : Vec F S1x9x32 .f32 :=
  VO0_2.read (Elt F) (VO0_2.writes (Elt F) VO0_2.junk (kernelRun0_B c i arg2 harg2 arg3 harg3 arg4 harg4 arg5 harg5 arg6 harg6 hc0 hc1 x0 x1 xs0 xs1).1)

/-- An odd point's store into the sums covers them. -/
theorem scover0_B_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) (y : S8x32.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S8x32.size (by sl_kernel_rfl) y

def sout0_B_0 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) : Vec F S8x32 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- And its store into the counts covers them. -/
theorem scover0_B_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) (y : S1x32.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x32.size (by sl_kernel_rfl) y

def sout0_B_1 (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) : Vec F S1x32 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-! ## What the output's buffer and the accumulators hold after each point -/

/-- After an even point `t`: the output's buffer (a placeholder), the sums, the counts. -/
def ptA (c : Dev nD) (t : Fin cfg0.N) (h0 : t.val % 2 = 0) : Vec F S1x9x32 .f32 × Vec F S8x32 .f32 × Vec F S1x32 .f32 :=
  (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t),
   sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => absurd ((hcond0_1 t).mp h) (by omega)) (iblk0 V c 0 t) (iblk0 V c 1 t))

/-- After an odd point `t`, from what the point before left in the accumulators (`p`). -/
def ptB (c : Dev nD) (t : Fin cfg0.N) (h1 : t.val % 2 = 1) (p : Vec F S8x32 .f32 × Vec F S1x32 .f32) : Vec F S1x9x32 .f32 × Vec F S8x32 .f32 × Vec F S1x32 .f32 :=
  (out0_B_2 c (grid0.coords t) (ms0_0 t) (hs0_0 t) (ms0_1 t) (hs0_1 t) (ms0_2 t) (hs0_2 t) scM0_0 (Memref.isWhole_whole _) scM0_1 (Memref.isWhole_whole _) (fun h => absurd ((hcond0_0 t).mp h) (by omega)) ((hcond0_1 t).mpr h1) (iblk0 V c 0 t) (iblk0 V c 1 t) p.1 p.2,
   sout0_B_0 c (grid0.coords t) (ms0_0 t) (hs0_0 t) (ms0_1 t) (hs0_1 t) (ms0_2 t) (hs0_2 t) scM0_0 (Memref.isWhole_whole _) scM0_1 (Memref.isWhole_whole _) (fun h => absurd ((hcond0_0 t).mp h) (by omega)) ((hcond0_1 t).mpr h1) (iblk0 V c 0 t) (iblk0 V c 1 t) p.1 p.2,
   sout0_B_1 c (grid0.coords t) (ms0_0 t) (hs0_0 t) (ms0_1 t) (hs0_1 t) (ms0_2 t) (hs0_2 t) scM0_0 (Memref.isWhole_whole _) scM0_1 (Memref.isWhole_whole _) (fun h => absurd ((hcond0_0 t).mp h) (by omega)) ((hcond0_1 t).mpr h1) (iblk0 V c 0 t) (iblk0 V c 1 t) p.1 p.2)

/-- THE ACCUMULATION: the output's staging buffer, the sums and the counts after the body at position `n`. -/
def outsAt0 (c : Dev nD) : (n : ℕ) → n < cfg0.N → Vec F S1x9x32 .f32 × Vec F S8x32 .f32 × Vec F S1x32 .f32
  | 0, hn => ptA V c ⟨0, hn⟩ (Nat.zero_mod _)
  | n + 1, hn =>
    if h0 : (n + 1) % 2 = 0 then ptA V c ⟨n + 1, hn⟩ h0
    else ptB V c ⟨n + 1, hn⟩ (show (n + 1) % 2 = 1 by omega) (outsAt0 c n (Nat.lt_of_succ_lt hn)).2

/-- At an even point. -/
theorem outsAt0_A (c : Dev nD) (t : Fin cfg0.N) (h0 : t.val % 2 = 0) :
    outsAt0 V c t.val t.isLt = ptA V c t h0 := by
  obtain ⟨n, hn⟩ := t
  cases n with
  | zero => exact rfl
  | succ n => exact (dif_pos h0).trans rfl

/-- At an odd point, over what the point before left. -/
theorem outsAt0_B (c : Dev nD) (t : Fin cfg0.N) (h1 : t.val % 2 = 1) :
    outsAt0 V c t.val t.isLt = ptB V c t h1 (outsAt0 V c (t.val - 1) (Nat.lt_of_le_of_lt (Nat.sub_le _ _) t.isLt)).2 := by
  obtain ⟨n, hn⟩ := t
  cases n with
  | zero => exact (by dsimp only at h1; omega)
  | succ n => exact (dif_neg (by dsimp only at h1; omega)).trans rfl

/-! ## The region's invariant -/

/-- Before position `n`: at the first point what the launch hands over (both accumulators at anything); afterwards both
    accumulators at what the point before left in them, the other scoped buffers and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The pipeline's proof data -/

/-- The arrays as the region finds them; after the body at point `t` each input's buffer at its block and the output's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks. At an even point the invariant hands over the
    accumulators (at anything at the very first point, at what the point before left otherwise: either way they are cleared
    before they are read), the output's buffer comes back untouched; at an odd point the accumulators come at what the even
    point before left and the output's buffer, at anything, comes back with both stores. Either way the invariant takes the
    accumulators back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have hc0 : cond0_0 (grid0.coords t) := (hcond0_0 t).mpr h0
    have hc1 : ¬cond0_1 (grid0.coords t) := fun h => absurd ((hcond0_1 t).mp h) (by omega)
    rw [Dat.leavesExact_idle (dat0 V c) 2 t (idleAt0_2_A t hc0 hc1) (noFlush0_2_A t hc0 hc1)]
    rw [outsAt0_A V c t h0]
    unfold ptA sout0_A_0 sout0_A_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
  · have h1 : t.val % 2 = 1 := by omega
    have hc0 : ¬cond0_0 (grid0.coords t) := fun h => absurd ((hcond0_0 t).mp h) (by omega)
    have hc1 : cond0_1 (grid0.coords t) := (hcond0_1 t).mpr h1
    have hz : t.val ≠ 0 := by omega
    rw [show (dat0 V c).leavesExact 2 t = owns (c : Thread nD τ) (ms0_2 t) fullShare ((dat0 V c).after 2 t) from by
      unfold Dat.leavesExact; rw [liveAt0_2_B t hc0 hc1], after0_2]
    rw [outsAt0_B V c t h1]
    unfold ptB out0_B_2 sout0_B_0 sout0_B_1; (try dsimp only)
    rw [PhiS_castSucc V c t, PhiS_pos V c _ _ hz]
    iintro ⟨⟨⟨HS0, HS1, HR⟩, Hg⟩, Ho, ⟨%d0, H0⟩, ⟨%d1, H1⟩, ⟨%d2, H2⟩⟩
    iapply ((kernelRun0_B c (grid0.coords t) _ _ _ _ _ _ _ _ _ _ hc0 hc1 (iblk0 V c 0 t) (iblk0 V c 1 t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 32 := N_0; omega)

/-- Nothing is owed at any point, and every window's share is the full one. -/
theorem owed0 (c : Dev nD) (t : Fin (cfg0.N + 1)) : (dat0 V c).owed t = 0 := rfl
theorem q0 (c : Dev nD) (w : Fin cfg0.W) : (dat0 V c).q w = fullShare := rfl

end Cert.KernelIdeal.R0

end
-- ==== Proof.KI.Region1.lean ====
/- The body certificate of the second pallas_call of the printed program (the hinge kernel, grid 16×2), stated at a
   parameter `V`: the TensorCore's buffer contents when the region is entered. The kernel carries a one-element scratch
   accumulator between grid points: at the even points it resets the accumulator and adds the point's partial sum, at
   the odd points it adds the point's partial sum and stores the total into the output block. -/
import proofs.«417056_j24696061952722_1_alg».proof.Proof.Gen.KernelIdeal.Launch
import proofs.«417056_j24696061952722_1_alg».proof.Proof.Gen.KernelIdeal.Skeleton
import proofs.«417056_j24696061952722_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 is fetched at the even points only; at an odd point its block index is the one of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional, from the grid coordinates: the inner coordinate is 0. -/
abbrev cond1_0 (i : grid1.Coords) : Prop := (Scalar.cmpi .ne (Scalar.extui (Scalar.cmpi .eq (BitVec.ofNat 32 (i 1).val) 0#32)) 0#32) = 1#1
/-- It holds at the even points — decided over the grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second conditional: the inner coordinate is 1. -/
abbrev cond1_1 (i : grid1.Coords) : Prop := k1_cond2 i = 1#1
/-- It holds at the odd points — decided over the grid. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: the body stores nothing into it, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the odd points the output window is live: the body stores into it. -/
theorem liveAt1_3_B : ∀ t : Fin cfg1.N, ¬cond1_0 (grid1.coords t) → cond1_1 (grid1.coords t) → cfg1.idle 3 (grid1.coords t) = false := by decide +kernel

/-! ## The staging and scratch memrefs -/

/-- One staging buffer of the output window, through which its contents are stated. -/
abbrev VO1_3 : View sig .tc .vmem S1x1x1 .f32 := (Memref.whole cc1_stg3_0 : Memref sig .tc .vmem S1x1x1 .f32).view
/-- Each window's current staging memref at point `t`, and its wholeness. -/
abbrev ms1_0 (t : Fin cfg1.N) : Memref sig .tc .vmem S1x8x131072 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x131072 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The scratch operand: a whole scoped buffer of the kernel's own, carried between points. -/
abbrev scM1_0 : Memref sig .tc .vmem S1x1 .f32 := Memref.whole cc1_scratch0
abbrev VS1_0 : View sig .tc .vmem S1x1 .f32 := scM1_0.view

/-- The core's other scoped buffers that are no staging buffer of this region, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Nine assertions conjoined one by one, the last split off. -/
theorem sep9_last {M : Type} [URA M] (A1 A2 A3 A4 A5 A6 A7 A8 S G : sProp M) :
    iprop((A1 ∗ A2 ∗ A3 ∗ A4 ∗ A5 ∗ A6 ∗ A7 ∗ A8 ∗ S) ∗ G) = iprop(((A1 ∗ A2 ∗ A3 ∗ A4 ∗ A5 ∗ A6 ∗ A7 ∗ A8) ∗ S) ∗ G) := by
  have h₁ : iprop((A1 ∗ A2 ∗ A3 ∗ A4 ∗ A5 ∗ A6 ∗ A7 ∗ A8 ∗ S) ∗ G) ⊢ iprop(((A1 ∗ A2 ∗ A3 ∗ A4 ∗ A5 ∗ A6 ∗ A7 ∗ A8) ∗ S) ∗ G) := by
    iintro ⟨⟨R1, R2, R3, R4, R5, R6, R7, R8, HS0⟩, Hg⟩
    isplitr [Hg]
    · isplitr [HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      iexact HS0
    iexact Hg
  have h₂ : iprop(((A1 ∗ A2 ∗ A3 ∗ A4 ∗ A5 ∗ A6 ∗ A7 ∗ A8) ∗ S) ∗ G) ⊢ iprop((A1 ∗ A2 ∗ A3 ∗ A4 ∗ A5 ∗ A6 ∗ A7 ∗ A8 ∗ S) ∗ G) := by
    iintro ⟨⟨⟨R1, R2, R3, R4, R5, R6, R7, R8⟩, HS0⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS0
    iexact Hg
  exact BI.equiv_iff.mp ⟨h₁, h₂⟩

/-- The class's region invariant, with the scratch operand as a memref owned at some contents, split from the other
    scoped buffers: what the body obligation hands the run and takes back. -/
theorem PhiA1_eq (c : Dev nD) :
    (Pipeline.ΦA spec1 c : sProp 𝕄)
      = iprop(iprop(others1 (F := F) c ∗ (∃ d, owns (c : Thread nD τ) scM1_0 fullShare d)) ∗ (∃ r, prngReg c r)) := by
  unfold Pipeline.ΦA others1; rw [scopedRest1_eq]; simp only [scM1_0, owns_whole]
  exact sep9_last ..

/-! ## The kernel body on any staging memrefs: a subtype the run finds -/

set_option maxHeartbeats 1000000 in
/-- What the body's stores leave in the output's staging memref and in the scratch, as pieces (last first), AT AN EVEN
    POINT (first conditional taken, second not), with the proof that on whole memrefs — the inputs' at their contents,
    the output's at contents handed back untouched, the scratch at anything — the body runs to the continuation holding
    the inputs' and the output's as they were and the scratch with its pieces written. -/
noncomputable def kernelRun1_A (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__hinge_kernel i arg2 harg2 arg3 harg3 arg4 harg4 arg5 harg5 arg6 harg6) K } := by
  refine ⟨[], ?_, fun xi3 E K => ?run⟩
  case run =>
    simp only [cc1__hinge_kernel_eq_skeleton]; unfold cc1__hinge_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The same AT AN ODD POINT (first conditional not taken, second taken): the scratch at what the point before left,
    the output's buffer at anything; the body leaves both with their pieces written. -/
noncomputable def kernelRun1_B (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__hinge_kernel i arg2 harg2 arg3 harg3 arg4 harg4 arg5 harg5 arg6 harg6) K } := by
  refine ⟨?_, ?_, fun E K => ?run⟩
  case run =>
    simp only [cc1__hinge_kernel_eq_skeleton]; unfold cc1__hinge_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves -/

/-- At an even point the body stores nothing into the output window (idle there and not written back): no pieces — a
    placeholder nothing consults. -/
def out1_A_3 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) : Vec F S1x1x1 .f32 :=
  VO1_3.read (Elt F) (VO1_3.writes (Elt F) VO1_3.junk (kernelRun1_A c i arg2 harg2 arg3 harg3 arg4 harg4 arg5 harg5 arg6 harg6 hc0 hc1 x0 x1 x2).1)

/-- The pieces an even point leaves in the scratch cover it. -/
theorem scover1_A_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y

/-- What an even point leaves in the scratch: its pieces read back over junk. -/
def sout1_A_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) : Vec F S1x1 .f32 :=
  VS1_0.read (Elt F) (VS1_0.writes (Elt F) VS1_0.junk (kernelRun1_A c i arg2 harg2 arg3 harg3 arg4 harg4 arg5 harg5 arg6 harg6 hc0 hc1 x0 x1 x2).2.1)

/-- The pieces an odd point leaves in the output's buffer cover it. -/
theorem cover1_B_3 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) (y : S1x1x1.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1x1x1.size (by sl_kernel_rfl) y

/-- What an odd point leaves in the output's staging buffer: its pieces read back over junk. -/
def out1_B_3 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) : Vec F S1x1x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- The pieces an odd point leaves in the scratch cover it. -/
theorem scover1_B_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y

/-- What an odd point leaves in the scratch: its pieces read back over junk. -/
def sout1_B_0 (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 hc0 hc1 x0 x1 x2 xs0).2.1)

/-! ## What the output's buffer and the scratch hold after each point -/

/-- THE ACCUMULATION: the output's staging buffer and the scratch after the body at position `n`. An even point resets
    the scratch and adds its partial sum; an odd point adds its partial sum to what the point before left and stores
    the total into the output's buffer. -/
def outsAt1 (c : Dev nD) : (n : ℕ) → n < cfg1.N → Vec F S1x1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' : 0 % 2 = 1 := (hcond1_1 ⟨0, hn⟩).mp h; omega) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' : 0 % 2 = 1 := (hcond1_1 ⟨0, hn⟩).mp h; omega) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' : (n + 1) % 2 = 1 := (hcond1_1 ⟨n + 1, hn⟩).mp h; omega) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' : (n + 1) % 2 = 1 := (hcond1_1 ⟨n + 1, hn⟩).mp h; omega) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (iblk1 V c 2 ⟨n + 1, hn⟩) (outsAt1 c n (Nat.lt_of_succ_lt hn)).2)

/-- `outsAt1` at an even point: that case's contents. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at an odd point: that case's contents, over what the point before left. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's; afterwards the other scoped buffers
    at anything, the scratch at what the point before left in it, and the generator register at some state. -/
def PhiS (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 (F := F) c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(others1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the output's at `outsAt1`; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's parity says which case it is in; the
    invariant hands the body the scratch at what the point before left (at anything at the first point) and takes it
    back at this point's contents; the other scoped buffers, the generator register and what the core owes pass
    through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨HR, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    rw [PhiS_castSucc V c t, PhiS_pos V c _ _ hz]
    iintro ⟨⟨⟨HR, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 32 := N_1; omega)

/-- The core owes nothing at any point, and holds every array at the full share. -/
theorem owed1 (c : Dev nD) (t : Fin (cfg1.N + 1)) : (dat1 V c).owed t = 0 := rfl
theorem q1 (c : Dev nD) (w : Fin cfg1.W) : (dat1 V c).q w = fullShare := rfl

end Cert.KernelIdeal.R1

end
-- ==== Proof.KI.Run.lean ====
/-
  The run of the whole program: its two kernel regions as segments between the host stretches, and the launch.

  Region 0 is entered from the contents the first host stretch leaves and exits with its result array holding what
  the pipeline's write-backs leave; the second host stretch computes the means from it; region 1 is entered from those
  contents and exits with its own result array written; the remaining stretches compute the scalar result. Every
  unscoped buffer is followed through all fifteen items, so that at the end each is read off the last contents: the
  arguments as launched, the result at the host operations' term of the two regions' arrays.
-/
import proofs.«417056_j24696061952722_1_alg».proof.Proof.Gen.KernelIdeal.Regions
import proofs.«417056_j24696061952722_1_alg».proof.Proof.KI.Region0
import proofs.«417056_j24696061952722_1_alg».proof.Proof.KI.Region1
import Idealize.ShloMosaic.Lib.Pipeline.FrameSuffix
import Idealize.ShloMosaic.Lib.Pipeline.RegionsLoop

set_option maxRecDepth 16384

noncomputable section

namespace Cert.KernelIdeal.Run

open Cert.KernelIdeal Cert.KernelIdeal.Gen Cert.KernelIdeal.R0 Cert.KernelIdeal.R1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The proof data record nothing owed, full shares and no bound on the recorded pairs. -/
theorem rec0 (V : (c : Dev nD) → (b : Ref sig .tc) → Buf (Elt F) ((c : Thread nD τ).loc b)) (c : Dev nD) : (dat0 V c).recorded 0 = Set.univ := rfl
theorem rec1 (V : (c : Dev nD) → (b : Ref sig .tc) → Buf (Elt F) ((c : Thread nD τ).loc b)) (c : Dev nD) : (dat1 V c).recorded 0 = Set.univ := rfl

variable (m : (ℓ : Loc nD τ sig) → Buf (Elt F) ℓ) (ρ : Dev nD → PrngReg)

/-! ## The contents at the regions' ends -/

/-- Region 0's entry contents, read at the core's references: the launch memory after the first host stretch. -/
abbrev VA (c : Dev nD) (b : Ref sig .tc) : Buf (Elt F) ((c : Thread nD τ).loc b) := Gen.V1 m c b

/-- Region 0's exit contents: its arrays at what the write-backs leave, every other buffer as entered. -/
def WA (c : Dev nD) : Valuation τ sig (Elt F) :=
  Pipeline.withArrays spec0 c (Gen.V1 m c) fun w => (dat0 (VA m) c).arrAt w cfg0.N

/-- What region 0 leaves, as the unknowns the host side's valuations are written over. -/
def outsA : Gen.Outs (F := F) := fun _ r c => WA m c r

/-- Region 1's entry contents: region 0's exit contents after the second host stretch. -/
abbrev VB (c : Dev nD) (b : Ref sig .tc) : Buf (Elt F) ((c : Thread nD τ).loc b) := Gen.V3 m (outsA m) c b

/-- Region 1's exit contents. -/
def WB (c : Dev nD) : Valuation τ sig (Elt F) :=
  Pipeline.withArrays spec1 c (Gen.V3 m (outsA m) c) fun w => (dat1 (VB m) c).arrAt w cfg1.N

/-- What the two regions leave. -/
def outs : Gen.Outs (F := F) := fun j r c => if j = 4 then WB m c r else WA m c r

theorem outs_two (r : Ref sig .tc) (c : Dev nD) : outs m 2 r c = outsA m 2 r c := by
  unfold outs outsA; rw [if_neg (by decide)]

theorem outs_four (r : Ref sig .tc) (c : Dev nD) : outs m 4 r c = WB m c r := by
  unfold outs; rw [if_pos rfl]

theorem V2_outs (c : Dev nD) : Gen.V2 m (outs m) c = Gen.V2 m (outsA m) c := by
  unfold Gen.V2; rw [outs_two]

theorem V3_outs (c : Dev nD) : Gen.V3 m (outs m) c = Gen.V3 m (outsA m) c := by
  unfold Gen.V3; rw [V2_outs]

/-- The proof data of the two pipelines, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Region 0's exit contents against its entry contents -/

theorem WA_arr (c : Dev nD) (w : Fin cfg0.W) :
    WA m c (Proc.devRef .tc (Pipeline.arrRef spec0 w)) = (dat0 (VA m) c).arrAt w cfg0.N := by
  unfold WA; exact Pipeline.withArrays_arr spec0 launch0.win.arr_inj c _ _ w

theorem WA_of_ne (c : Dev nD) (b : Ref sig .tc) (hb : ∀ w, Pipeline.arrRef spec0 w ≠ b) :
    WA m c (Proc.devRef .tc b) = Gen.V1 m c (Proc.devRef .tc b) := by
  unfold WA; exact Pipeline.withArrays_of_ne spec0 c _ _ b hb

theorem WB_arr (c : Dev nD) (w : Fin cfg1.W) :
    WB m c (Proc.devRef .tc (Pipeline.arrRef spec1 w)) = (dat1 (VB m) c).arrAt w cfg1.N := by
  unfold WB; exact Pipeline.withArrays_arr spec1 launch1.win.arr_inj c _ _ w

theorem WB_of_ne (c : Dev nD) (b : Ref sig .tc) (hb : ∀ w, Pipeline.arrRef spec1 w ≠ b) :
    WB m c (Proc.devRef .tc b) = Gen.V3 m (outsA m) c (Proc.devRef .tc b) := by
  unfold WB; exact Pipeline.withArrays_of_ne spec1 c _ _ b hb

/-! ## Region 0 as a segment -/

/-- Region 0's arrays at its exit: the inputs as entered, the output what the write-backs leave; every other buffer as
    entered. -/
theorem hF0 (c : Dev nD) (w : Fin cfg0.W) :
    (pdats m 0 c).arrAt w cfg0.N = Gen.V2 m (outs m) c (Proc.devRef .tc (Pipeline.arrRef spec0 w)) := by
  match w with
  | ⟨0, _⟩ =>
    refine (((pdats m 0 c).arrAt_in 0 rfl _).trans (A_eq0 (VA m) c 0)).trans ?_
    exact (Gen.V2_of m (outs m) c main_v0 (by decide)).symm
  | ⟨1, _⟩ =>
    refine (((pdats m 0 c).arrAt_in 1 rfl _).trans (A_eq0 (VA m) c 1)).trans ?_
    exact (Gen.V2_of m (outs m) c main_v2 (by decide)).symm
  | ⟨2, _⟩ =>
    show _ = Gen.V2 m (outs m) c (Proc.devRef .tc main_v3)
    unfold Gen.V2; rw [Function.update_self, outs_two]; exact (WA_arr m c 2).symm

theorem hrest0 (c : Dev nD) : ∀ b : Ref sig .tc, b ∉ Finset.univ.image (Pipeline.arrRef spec0) →
    Gen.V2 m (outs m) c (Proc.devRef .tc b) = Gen.V1 m c (Proc.devRef .tc b) := fun b hb =>
  Gen.V2_of m (outs m) c b (by
    intro h
    rw [List.mem_singleton] at h
    exact hb (Finset.mem_image.mpr ⟨2, Finset.mem_univ _, h.symm⟩))

set_option backward.isDefEq.respectTransparency.types false in
/-- REGION 0 over the thread state: entered from every unscoped buffer at the first stretch's contents, left at those
    contents with its result array written. Its arrays are split out of the unscoped buffers and put back at the exit
    contents; the generator register goes into the body's invariant and comes back; nothing is owed; the kernel has no
    semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun c t => owed0 (VA m) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun w => q0 (VA m) c w) (VA m c) fun w => A_eq0 (VA m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by show _ ∈ (dat0 (VA m) c).recorded 0; rw [rec0 (VA m) c]; trivial)
      rw [show (pdats m 0 c).owed 0 = 0 from owed0 (VA m) c 0]
      iexact HO
    isplitl [Hp]; · iexact Hp
    iexact Hrest
  hin c := by
    refine BIBase.Entails.trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q0 (VA m) c w)
      (VA m c) (fun b => Gen.V2 m (outs m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed0 (VA m) c _]
    iexact HO

/-! ## Region 1 as a segment -/

/-- Region 1's arrays at its exit: the inputs as entered, the output what the write-backs leave; every other buffer as
    entered. -/
theorem hF1 (c : Dev nD) (w : Fin cfg1.W) :
    (pdats m 1 c).arrAt w cfg1.N = Gen.V4 m (outs m) c (Proc.devRef .tc (Pipeline.arrRef spec1 w)) := by
  match w with
  | ⟨0, _⟩ =>
    refine (((pdats m 1 c).arrAt_in 0 rfl _).trans (A_eq1 (VB m) c 0)).trans ?_
    refine Eq.trans ?_ (Gen.V4_of m (outs m) c main_v0 (by decide)).symm
    rw [V3_outs]
  | ⟨1, _⟩ =>
    refine (((pdats m 1 c).arrAt_in 1 rfl _).trans (A_eq1 (VB m) c 1)).trans ?_
    refine Eq.trans ?_ (Gen.V4_of m (outs m) c main_v2 (by decide)).symm
    rw [V3_outs]
  | ⟨2, _⟩ =>
    refine (((pdats m 1 c).arrAt_in 2 rfl _).trans (A_eq1 (VB m) c 2)).trans ?_
    refine Eq.trans ?_ (Gen.V4_of m (outs m) c main_v11 (by decide)).symm
    rw [V3_outs]
  | ⟨3, _⟩ =>
    show _ = Gen.V4 m (outs m) c (Proc.devRef .tc main_v17)
    unfold Gen.V4; rw [Function.update_self, outs_four]; exact (WB_arr m c 3).symm

theorem hrest1 (c : Dev nD) : ∀ b : Ref sig .tc, b ∉ Finset.univ.image (Pipeline.arrRef spec1) →
    Gen.V4 m (outs m) c (Proc.devRef .tc b) = Gen.V3 m (outsA m) c (Proc.devRef .tc b) := fun b hb => by
  rw [← V3_outs]
  exact Gen.V4_of m (outs m) c b (by
    intro h
    rw [List.mem_singleton] at h
    exact hb (Finset.mem_image.mpr ⟨3, Finset.mem_univ _, h.symm⟩))

set_option backward.isDefEq.respectTransparency.types false in
/-- REGION 1 over the thread state: entered from every unscoped buffer at the second stretch's contents, left at those
    contents with its result array written. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun c t => owed1 (VB m) c t
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun w => q1 (VB m) c w) (VB m c) fun w => A_eq1 (VB m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by show _ ∈ (dat1 (VB m) c).recorded 0; rw [rec1 (VB m) c]; trivial)
      rw [show (pdats m 1 c).owed 0 = 0 from owed1 (VB m) c 0]
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q1 (VB m) c w)
      (VB m c) (fun b => Gen.V4 m (outs m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed1 (VB m) c _]
    iexact HO

/-! ## The launch -/

theorem hpre0 (c : Dev nD) :
    iprop(StableHlo.held (c : Thread nD τ) (Pipeline.ucRefs τ sig) (Gen.V1 m c) ∗ R (F := F) c) ⊢ (reg0 m).pre c := .rfl
theorem hpost0 (c : Dev nD) :
    (reg0 m).post c ⊢ iprop(StableHlo.held (c : Thread nD τ) (Pipeline.ucRefs τ sig) (Gen.V2 m (outs m) c) ∗ R (F := F) c) := .rfl
theorem hpre1 (c : Dev nD) :
    iprop(StableHlo.held (c : Thread nD τ) (Pipeline.ucRefs τ sig) (Gen.V3 m (outs m) c) ∗ R (F := F) c) ⊢ (reg1 m).pre c := by
  rw [V3_outs]; exact .rfl
theorem hpost1 (c : Dev nD) :
    (reg1 m).post c ⊢ iprop(StableHlo.held (c : Thread nD τ) (Pipeline.ucRefs τ sig) (Gen.V4 m (outs m) c) ∗ R (F := F) c) := .rfl

/-- The launch hands every core the generator register and owes nothing: the rest state of every item. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE FRAME: every weakly fair execution of @main terminates, nothing faulting, and every final memory holds each
    argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () Variants.none L lv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) hu₀
    (fun _ c => R (F := F) c) (hE0 ρ) (fun c => by iintro ⟨-, HO⟩; iexact HO)
    (reg0 m) (hpre0 m) (hpost0 m) (reg1 m) (hpre1 m) (hpost1 m)

end Cert.KernelIdeal.Run

end
-- ==== Proof.Spec.lean ====
/-
  The mathematics both programs compute, over the extended reals. A batch `b` has 262144 points `n`, each with 8
  coordinates `xs (b, d, n)` and a label word `ls (b, n)`; there are 32 clusters `c`. A point weighs one in the cluster its
  label names and zero in every other (`oh`). A cluster's sum and count are weighted sums over the batch's points, its
  mean the sum over the larger of the count and one; a point's own center is the weighted sum of the means over the
  clusters (which picks the mean of the point's cluster); the hinge of a point is the square of what its distance to
  its own center exceeds one by, the distance read as zero where the squared distance is not positive.
-/
import Idealize.ShloMosaic.PureOps.Ideal
import Idealize.ShloMosaic.Lib.ValueIdx

noncomputable section

open scoped BigOperators

namespace Cert.Spec

open Idealize.ShloMosaic Idealize.ShloMosaic.ValueIdx

/-- The points' coordinates, batch by coordinate by point. -/
abbrev SX : Shape := ⟨3, ![16, 8, 262144]⟩
/-- The points' labels, batch by point. -/
abbrev SL : Shape := ⟨2, ![16, 262144]⟩

/-- The coordinates as the programs receive them: batch by coordinate by row by column. -/
abbrev SA : Shape := ⟨4, ![16, 8, 512, 512]⟩
/-- The labels as the programs receive them: batch by row by column. -/
abbrev SB : Shape := ⟨3, ![16, 512, 512]⟩

/-- Point `n` of a batch is row `n / 512`, column `n % 512` of its image: the coordinates by point. -/
def xsOf (x0 : SA.Idx → EReal) : SX.Idx → EReal := fun i =>
  x0 (ix4 (i 0) (i 1) ⟨(i 2).val / 512, by have h : (i 2).val < 262144 := (i 2).isLt; omega⟩
    ⟨(i 2).val % 512, Nat.mod_lt _ (by norm_num)⟩)

/-- The labels by point. -/
def lsOf (x1 : SB.Idx → BitVec 32) : SL.Idx → BitVec 32 := fun i =>
  x1 (ix3 (i 0) ⟨(i 1).val / 512, by have h : (i 1).val < 262144 := (i 1).isLt; omega⟩
    ⟨(i 1).val % 512, Nat.mod_lt _ (by norm_num)⟩)

/-- The float word of one. -/
def one : EReal := Ideal.ofBits .f32 0x3F800000#32

/-- The weight of a point whose label word is `l` in cluster `c`. -/
def oh (l : BitVec 32) (c : Fin 32) : EReal := if l = BitVec.ofNat 32 c.val then 1 else 0

/-- Coordinate `d` summed over the points of batch `b` that cluster `c` holds. -/
def sums (xs : SX.Idx → EReal) (ls : SL.Idx → BitVec 32) (b : Fin 16) (d : Fin 8) (c : Fin 32) : EReal :=
  ∑ n : Fin 262144, xs (ix3 b d n) * oh (ls (ix2 b n)) c

/-- The number of points of batch `b` that cluster `c` holds. -/
def cnt (ls : SL.Idx → BitVec 32) (b : Fin 16) (c : Fin 32) : EReal :=
  ∑ n : Fin 262144, oh (ls (ix2 b n)) c

/-- A cluster's mean from its sum and its count: an empty cluster's count is read as one. -/
def mean (s k : EReal) : EReal := Ideal.div s (max k one)

/-- The clusters' means. -/
def ctr (xs : SX.Idx → EReal) (ls : SL.Idx → BitVec 32) (b : Fin 16) (d : Fin 8) (c : Fin 32) : EReal :=
  mean (sums xs ls b d c) (cnt ls b c)

/-- Coordinate `d` of the center of point `n`'s own cluster, as the weighted sum of the means `m` over the clusters. -/
def own (m : Fin 16 → Fin 8 → Fin 32 → EReal) (ls : SL.Idx → BitVec 32) (b : Fin 16) (d : Fin 8) (n : Fin 262144) : EReal :=
  ∑ c : Fin 32, m b d c * oh (ls (ix2 b n)) c

/-- The squared distance of point `n` to its own center. -/
def sq (xs : SX.Idx → EReal) (m : Fin 16 → Fin 8 → Fin 32 → EReal) (ls : SL.Idx → BitVec 32) (b : Fin 16) (n : Fin 262144) : EReal :=
  ∑ d : Fin 8, (xs (ix3 b d n) - own m ls b d n) * (xs (ix3 b d n) - own m ls b d n)

/-- The hinge of a squared distance `s`: the distance is the root of `s` where `s` is positive and zero elsewhere; what
    it exceeds one by, squared. -/
def hinge (s : EReal) : EReal :=
  max (Ideal.sqrt (if 0 < s then s else one) * (if 0 < s then 1 else 0) - one) 0
    * max (Ideal.sqrt (if 0 < s then s else one) * (if 0 < s then 1 else 0) - one) 0

/-- The hinges of batch `b`'s points, summed. -/
def hsum (xs : SX.Idx → EReal) (m : Fin 16 → Fin 8 → Fin 32 → EReal) (ls : SL.Idx → BitVec 32) (b : Fin 16) : EReal :=
  ∑ n : Fin 262144, hinge (sq xs m ls b n)

/-- A point's weights over the clusters pick its own cluster: where the label word names cluster `c₀`, the weighted sum
    of any family over the clusters is the family at `c₀`. -/
theorem sum_oh (f : Fin 32 → EReal) (l : BitVec 32) (c₀ : Fin 32) (h : l = BitVec.ofNat 32 c₀.val) :
    ∑ c : Fin 32, f c * oh l c = f c₀ := by
  rw [Finset.sum_eq_single c₀]
  · unfold oh; rw [if_pos h, mul_one]
  · intro c _ hc
    unfold oh
    rw [if_neg, mul_zero]
    intro hl
    apply hc
    rw [h] at hl
    have := congrArg BitVec.toNat hl
    simp only [BitVec.toNat_ofNat] at this
    apply Fin.ext
    have h1 := c.isLt; have h2 := c₀.isLt
    omega
  · intro h'; exact absurd (Finset.mem_univ _) h'

/-- A point's own center where its label names cluster `c₀`. -/
theorem own_eq (m : Fin 16 → Fin 8 → Fin 32 → EReal) (ls : SL.Idx → BitVec 32) (b : Fin 16) (d : Fin 8) (n : Fin 262144)
    (c₀ : Fin 32) (h : ls (ix2 b n) = BitVec.ofNat 32 c₀.val) : own m ls b d n = m b d c₀ :=
  sum_oh (fun c => m b d c) _ c₀ h

end Cert.Spec

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.KI.Host.lean ====
/-
  What the host operations of the idealized program compute before and between its two kernel regions, read index by
  index over the extended reals, from ANY contents of the buffers. Before the first region the two arguments are
  re-indexed by point: point `n` of a batch is row `n / 512`, column `n % 512` of its image. Between the regions, from
  the first region's result (per batch and cluster: rows 0–7 the coordinate sums, row 8 the count) come the clusters'
  means (each sum over the larger of the count and one), the mask of the clusters that hold a point (count above zero)
  and the number of such clusters. After the second region its per-batch result is divided by that number, and the means
  are transposed (cluster before coordinate).
-/
import proofs.«417056_j24696061952722_1_alg».proof.Proof.Gen.KernelIdeal.Launch
import proofs.«417056_j24696061952722_1_alg».proof.Proof.Spec
import proofs.«417056_j24696061952722_1_alg».proof.Proof.LibAfter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx

/-! ## The arguments by point -/

/-- The coordinates' image flattened: point `n` is row `n / 512`, column `n % 512`. -/
theorem cast_xs (x0 : S16x8x512x512.Idx → EReal) (h : S16x8x512x512.ShapeCasts S16x8x262144) :
    shapeCast S16x8x262144 x0 h = Cert.Spec.xsOf x0 := by
  funext i
  unfold Cert.Spec.xsOf
  refine shapeCast_apply x0 h i _ ?_
  rw [Shape.rowMajor_val_four, Shape.rowMajor_val_three]
  have h2 : (i 2).val < 262144 := (i 2).isLt
  show (((i 0).val * 8 + (i 1).val) * 512 + (i 2).val / 512) * 512 + (i 2).val % 512
    = ((i 0).val * 8 + (i 1).val) * 262144 + (i 2).val
  omega

/-- The labels' image flattened, then given a unit axis: the same point. -/
theorem cast_ls (x1 : S16x512x512.Idx → BitVec 32) (h : S16x512x512.ShapeCasts S16x262144)
    (h' : S16x262144.ShapeCasts S16x1x262144) (b : Fin 16) (n : Fin 262144) :
    shapeCast S16x1x262144 (shapeCast S16x262144 x1 h) h' (ix3 b 0 n) = Cert.Spec.lsOf x1 (ix2 b n) := by
  refine (shapeCast_apply (shapeCast S16x262144 x1 h) h' (ix3 b 0 n) (ix2 b n) ?_).trans ?_
  · rw [Shape.rowMajor_val_three, Shape.rowMajor_val_two]
    show b.val * 262144 + n.val = (b.val * 1 + 0) * 262144 + n.val
    omega
  · unfold Cert.Spec.lsOf
    refine shapeCast_apply x1 h (ix2 b n) _ ?_
    rw [Shape.rowMajor_val_three, Shape.rowMajor_val_two]
    have h2 : n.val < 262144 := n.isLt
    show (b.val * 512 + n.val / 512) * 512 + n.val % 512 = b.val * 262144 + n.val
    omega

/-- Before the first region: the first kernel argument is the coordinates by point. -/
theorem host0_xs (X : Valuation τ sig (Elt Ideal)) :
    (StableHlo.after hostOps0 X (Proc.devRef .tc main_v0) : S16x8x262144.Idx → EReal)
      = Cert.Spec.xsOf (X (Proc.devRef .tc main_arg0)) := by
  have e : (StableHlo.after hostOps0 X (Proc.devRef .tc main_v0) : S16x8x262144.Idx → EReal)
      = shapeCast S16x8x262144 (X (Proc.devRef .tc main_arg0) : S16x8x512x512.Idx → EReal)
          shapeCasts_S16x8x512x512_S16x8x262144 := by
    after_results
    rfl
  exact e.trans (cast_xs _ _)

/-- Before the first region: the second kernel argument is the labels by point. -/
theorem host0_ls (X : Valuation τ sig (Elt Ideal)) (b : Fin 16) (n : Fin 262144) :
    (StableHlo.after hostOps0 X (Proc.devRef .tc main_v2) : S16x1x262144.Idx → BitVec 32) (ix3 b 0 n)
      = Cert.Spec.lsOf (X (Proc.devRef .tc main_arg1)) (ix2 b n) := by
  have e : (StableHlo.after hostOps0 X (Proc.devRef .tc main_v2) : S16x1x262144.Idx → BitVec 32)
      = shapeCast S16x1x262144 (shapeCast S16x262144 (X (Proc.devRef .tc main_arg1) : S16x512x512.Idx → BitVec 32)
          shapeCasts_S16x512x512_S16x262144) shapeCasts_S16x262144_S16x1x262144 := by
    after_results
    rfl
  rw [e]
  exact cast_ls _ _ _ b n

/-! ## Between the regions: the means, the mask and the cluster count -/

/-- The count row of the first region's result, cut out and flattened. -/
theorem cnt_read (x3 : S16x9x32.Idx → EReal) (h5 : S16x9x32.Slices ![0, 8, 0] S16x1x32) (h6 : S16x1x32.ShapeCasts S16x32)
    (b : Fin 16) (c : Fin 32) :
    shapeCast S16x32 (extractStridedSlice S16x1x32 ![0, 8, 0] x3 h5) h6 (ix2 b c) = x3 (ix3 b 8 c) := by
  refine (shapeCast_apply (extractStridedSlice S16x1x32 ![0, 8, 0] x3 h5) h6 (ix2 b c) (ix3 b 0 c) ?_).trans ?_
  · rw [Shape.rowMajor_val_three, Shape.rowMajor_val_two]
    show (b.val * 1 + 0) * 32 + c.val = b.val * 32 + c.val
    omega
  · exact slice3_axis1_apply 8 x3 h5 b 0 c 8 rfl

/-- A scalar constant spread over batch and cluster reads its value everywhere. -/
theorem splat_read (w : BitVec 32) (h : S_.BroadcastsInDim S16x32 (![] : Fin 0 → Fin S16x32.rank)) (b : Fin 16) (c : Fin 32) :
    broadcastInDim S16x32 ![] h (constant (F := Ideal) S_ .f32 w) (ix2 b c) = Ideal.ofBits .f32 w :=
  (broadcastInDim_apply ![] h (constant (F := Ideal) S_ .f32 w) (ix2 b c) ix0 (fun a => a.elim0)).trans rfl

/-- The means, read at a batch, a coordinate and a cluster: the sum row over the larger of the count row and one. -/
theorem ctr_read (x3 : S16x9x32.Idx → EReal) (h4 : S16x9x32.Slices ![0, 0, 0] S16x8x32) (h5 : S16x9x32.Slices ![0, 8, 0] S16x1x32)
    (h6 : S16x1x32.ShapeCasts S16x32) (h7 : S_.BroadcastsInDim S16x32 (![] : Fin 0 → Fin S16x32.rank))
    (h9 : S16x32.BroadcastsInDim S16x1x32 (![0, 2] : Fin 2 → Fin S16x1x32.rank))
    (h10 : S16x1x32.BroadcastsInDim S16x8x32 (![0, 1, 2] : Fin 3 → Fin S16x8x32.rank))
    (b : Fin 16) (d : Fin 8) (c : Fin 32) :
    Host.divf (F := Ideal) (φ := .f32) (extractStridedSlice S16x8x32 ![0, 0, 0] x3 h4)
        (broadcastInDim S16x8x32 ![0, 1, 2] h10 (broadcastInDim S16x1x32 ![0, 2] h9
          (maximumf (F := Ideal) (φ := .f32) (shapeCast S16x32 (extractStridedSlice S16x1x32 ![0, 8, 0] x3 h5) h6)
            (broadcastInDim S16x32 ![] h7 (constant (F := Ideal) S_ .f32 0x3F800000#32))))) (ix3 b d c)
      = Cert.Spec.mean (x3 (ix3 b ⟨d.val, by have := d.isLt; omega⟩ c)) (x3 (ix3 b 8 c)) := by
  show Ideal.div (extractStridedSlice S16x8x32 ![0, 0, 0] x3 h4 (ix3 b d c))
        (broadcastInDim S16x8x32 ![0, 1, 2] h10 (broadcastInDim S16x1x32 ![0, 2] h9
          (maximumf (F := Ideal) (φ := .f32) (shapeCast S16x32 (extractStridedSlice S16x1x32 ![0, 8, 0] x3 h5) h6)
            (broadcastInDim S16x32 ![] h7 (constant (F := Ideal) S_ .f32 0x3F800000#32)))) (ix3 b d c)) = _
  rw [slice3_axis1_apply 0 x3 h4 b d c ⟨d.val, by have := d.isLt; omega⟩ (Nat.zero_add _).symm]
  rw [broadcastInDim_apply ![0, 1, 2] h10 _ (ix3 b d c) (ix3 b 0 c)
    (fun a => match a with | ⟨0, _⟩ => rfl | ⟨1, _⟩ => rfl | ⟨2, _⟩ => rfl)]
  rw [broadcastInDim_apply ![0, 2] h9 _ (ix3 b 0 c) (ix2 b c)
    (fun a => match a with | ⟨0, _⟩ => rfl | ⟨1, _⟩ => rfl)]
  rw [maximumf_apply, cnt_read, splat_read]
  rfl

/-- Between the regions: the means, from the first region's result. -/
theorem host1_ctr (X : Valuation τ sig (Elt Ideal)) (b : Fin 16) (d : Fin 8) (c : Fin 32) :
    (StableHlo.after hostOps1 X (Proc.devRef .tc main_v11) : S16x8x32.Idx → EReal) (ix3 b d c)
      = Cert.Spec.mean ((X (Proc.devRef .tc main_v3) : S16x9x32.Idx → EReal) (ix3 b ⟨d.val, by have := d.isLt; omega⟩ c))
          ((X (Proc.devRef .tc main_v3) : S16x9x32.Idx → EReal) (ix3 b 8 c)) := by
  have e : (StableHlo.after hostOps1 X (Proc.devRef .tc main_v11) : S16x8x32.Idx → EReal)
      = Host.divf (F := Ideal) (φ := .f32)
          (extractStridedSlice S16x8x32 ![0, 0, 0] (X (Proc.devRef .tc main_v3) : S16x9x32.Idx → EReal) slices_S16x9x32_S16x8x32_0_0_0)
          (broadcastInDim S16x8x32 ![0, 1, 2] bcast_S16x1x32_S16x8x32_0_1_2 (broadcastInDim S16x1x32 ![0, 2] bcast_S16x32_S16x1x32_0_2
            (maximumf (F := Ideal) (φ := .f32)
              (shapeCast S16x32 (extractStridedSlice S16x1x32 ![0, 8, 0] (X (Proc.devRef .tc main_v3) : S16x9x32.Idx → EReal)
                slices_S16x9x32_S16x1x32_0_8_0) shapeCasts_S16x1x32_S16x32)
              (broadcastInDim S16x32 ![] bcast_S_S16x32 (constant (F := Ideal) S_ .f32 0x3F800000#32))))) := by
    after_results
    rfl
  rw [e]
  exact ctr_read _ _ _ _ _ _ _ b d c

/-- Between the regions: the mask of the clusters that hold a point. -/
theorem host1_present (X : Valuation τ sig (Elt Ideal)) (b : Fin 16) (c : Fin 32) :
    (StableHlo.after hostOps1 X (Proc.devRef .tc main_v13) : S16x32.Idx → BitVec 1) (ix2 b c)
      = Ideal.cmp .ogt ((X (Proc.devRef .tc main_v3) : S16x9x32.Idx → EReal) (ix3 b 8 c)) (Ideal.ofBits .f32 0x00000000#32) := by
  have e : (StableHlo.after hostOps1 X (Proc.devRef .tc main_v13) : S16x32.Idx → BitVec 1)
      = cmpf (F := Ideal) (φ := .f32) .ogt
          (shapeCast S16x32 (extractStridedSlice S16x1x32 ![0, 8, 0] (X (Proc.devRef .tc main_v3) : S16x9x32.Idx → EReal)
            slices_S16x9x32_S16x1x32_0_8_0) shapeCasts_S16x1x32_S16x32)
          (broadcastInDim S16x32 ![] bcast_S_S16x32 (constant (F := Ideal) S_ .f32 0x00000000#32)) := by
    after_results
    rfl
  rw [e, cmpf_apply, cnt_read, splat_read]
  rfl

/-- Between the regions: the number of clusters that hold a point, as the three operations on the mask (the mask's
    bits widened to words, the words summed over the clusters, the sum converted to a float). -/
theorem host1_K (X : Valuation τ sig (Elt Ideal)) :
    (StableHlo.after hostOps1 X (Proc.devRef .tc main_v16) : S16.Idx → EReal)
      = sitofp (F := Ideal) .f32 (Host.reduce IntOp.addi
          (extui 32 (StableHlo.after hostOps1 X (Proc.devRef .tc main_v13) : S16x32.Idx → BitVec 1) natLt_1_32)
          (constantI S_ 32 0#32) reducesTo_S16x32_S16_d1 h_S_) := by
  after_results

/-! ## After the second region: the head of the last host stretch -/

section Split
variable {F : FTy → Type} [FloatOps F]

/-- The first three operations after the second region: its result flattened, divided by the cluster count; the means
    transposed. -/
abbrev pre2 : List (HloOp τ sig (Elt F)) :=
  [ StableHlo.reshape main_v17 main_v18 rfl shapeCasts_S16x1x1_S16,
    StableHlo.binary main_v18 main_v16 main_v19 (Host.divf : (⟨S16, .f32⟩ : BufTy).Contents (Elt F) → (⟨S16, .f32⟩ : BufTy).Contents (Elt F) → (⟨S16, .f32⟩ : BufTy).Contents (Elt F)),
    StableHlo.unary main_v11 main_v20 ((transpose S16x32x8 [0, 2, 1] · transposes_S16x8x32_S16x32x8_0_2_1) : (⟨S16x8x32, .f32⟩ : BufTy).Contents (Elt F) → (⟨S16x32x8, .f32⟩ : BufTy).Contents (Elt F)) ]

/-- The operations after them. -/
abbrev rest2 : List (HloOp τ sig (Elt F)) :=
  [ StableHlo.unary main_v20 main_v21 (broadcastInDim S16x32x1x8 ![0, 1, 3] bcast_S16x32x8_S16x32x1x8_0_1_3 : (⟨S16x32x8, .f32⟩ : BufTy).Contents (Elt F) → (⟨S16x32x1x8, .f32⟩ : BufTy).Contents (Elt F)),
    StableHlo.unary main_v20 main_v22 (broadcastInDim S16x1x32x8 ![0, 2, 3] bcast_S16x32x8_S16x1x32x8_0_2_3 : (⟨S16x32x8, .f32⟩ : BufTy).Contents (Elt F) → (⟨S16x1x32x8, .f32⟩ : BufTy).Contents (Elt F)),
    StableHlo.unary main_v21 main_v23 (broadcastInDim S16x32x32x8 ![0, 1, 2, 3] bcast_S16x32x1x8_S16x32x32x8_0_1_2_3 : (⟨S16x32x1x8, .f32⟩ : BufTy).Contents (Elt F) → (⟨S16x32x32x8, .f32⟩ : BufTy).Contents (Elt F)),
    StableHlo.unary main_v22 main_v24 (broadcastInDim S16x32x32x8 ![0, 1, 2, 3] bcast_S16x1x32x8_S16x32x32x8_0_1_2_3 : (⟨S16x1x32x8, .f32⟩ : BufTy).Contents (Elt F) → (⟨S16x32x32x8, .f32⟩ : BufTy).Contents (Elt F)),
    StableHlo.binary main_v23 main_v24 main_v25 (subf : (⟨S16x32x32x8, .f32⟩ : BufTy).Contents (Elt F) → (⟨S16x32x32x8, .f32⟩ : BufTy).Contents (Elt F) → (⟨S16x32x32x8, .f32⟩ : BufTy).Contents (Elt F)),
    StableHlo.binary main_v25 main_v25 main_v26 (mulf : (⟨S16x32x32x8, .f32⟩ : BufTy).Contents (Elt F) → (⟨S16x32x32x8, .f32⟩ : BufTy).Contents (Elt F) → (⟨S16x32x32x8, .f32⟩ : BufTy).Contents (Elt F)),
    StableHlo.nullary main_cst_1 (constant S_ .f32 0x00000000#32),
    StableHlo.binary main_v26 main_cst_1 main_v27 ((fun x v => Host.reduceAdd x v reducesTo_S16x32x32x8_S16x32x32_d3 h_S_) : (⟨S16x32x32x8, .f32⟩ : BufTy).Contents (Elt F) → (⟨S_, .f32⟩ : BufTy).Contents (Elt F) → (⟨S16x32x32, .f32⟩ : BufTy).Contents (Elt F)),
    StableHlo.nullary main_v28 (iotaInDim S32x32 32 0),
    StableHlo.nullary main_v29 (iotaInDim S32x32 32 1),
    StableHlo.nullary main_c_2 (constantI S_ 32 0#32),
    StableHlo.unary main_c_2 main_v30 (broadcastInDim S32x32 ![] bcast_S_S32x32 : (⟨S_, .i32⟩ : BufTy).Contents (Elt F) → (⟨S32x32, .i32⟩ : BufTy).Contents (Elt F)),
    StableHlo.binary main_v28 main_v30 main_v31 (addi : (⟨S32x32, .i32⟩ : BufTy).Contents (Elt F) → (⟨S32x32, .i32⟩ : BufTy).Contents (Elt F) → (⟨S32x32, .i32⟩ : BufTy).Contents (Elt F)),
    StableHlo.binary main_v31 main_v29 main_v32 (cmpi .eq : (⟨S32x32, .i32⟩ : BufTy).Contents (Elt F) → (⟨S32x32, .i32⟩ : BufTy).Contents (Elt F) → (⟨S32x32, .i1⟩ : BufTy).Contents (Elt F)),
    StableHlo.unary main_v32 main_v33 (noti : (⟨S32x32, .i1⟩ : BufTy).Contents (Elt F) → (⟨S32x32, .i1⟩ : BufTy).Contents (Elt F)),
    StableHlo.unary main_v33 main_v34 (broadcastInDim S1x32x32 ![1, 2] bcast_S32x32_S1x32x32_1_2 : (⟨S32x32, .i1⟩ : BufTy).Contents (Elt F) → (⟨S1x32x32, .i1⟩ : BufTy).Contents (Elt F)),
    StableHlo.unary main_v13 main_v35 (broadcastInDim S16x32x1 ![0, 1] bcast_S16x32_S16x32x1_0_1 : (⟨S16x32, .i1⟩ : BufTy).Contents (Elt F) → (⟨S16x32x1, .i1⟩ : BufTy).Contents (Elt F)),
    StableHlo.unary main_v34 main_v36 (broadcastInDim S16x32x32 ![0, 1, 2] bcast_S1x32x32_S16x32x32_0_1_2 : (⟨S1x32x32, .i1⟩ : BufTy).Contents (Elt F) → (⟨S16x32x32, .i1⟩ : BufTy).Contents (Elt F)),
    StableHlo.unary main_v35 main_v37 (broadcastInDim S16x32x32 ![0, 1, 2] bcast_S16x32x1_S16x32x32_0_1_2 : (⟨S16x32x1, .i1⟩ : BufTy).Contents (Elt F) → (⟨S16x32x32, .i1⟩ : BufTy).Contents (Elt F)),
    StableHlo.binary main_v36 main_v37 main_v38 (andi : (⟨S16x32x32, .i1⟩ : BufTy).Contents (Elt F) → (⟨S16x32x32, .i1⟩ : BufTy).Contents (Elt F) → (⟨S16x32x32, .i1⟩ : BufTy).Contents (Elt F)),
    StableHlo.unary main_v13 main_v39 (broadcastInDim S16x1x32 ![0, 2] bcast_S16x32_S16x1x32_0_2 : (⟨S16x32, .i1⟩ : BufTy).Contents (Elt F) → (⟨S16x1x32, .i1⟩ : BufTy).Contents (Elt F)),
    StableHlo.unary main_v39 main_v40 (broadcastInDim S16x32x32 ![0, 1, 2] bcast_S16x1x32_S16x32x32_0_1_2 : (⟨S16x1x32, .i1⟩ : BufTy).Contents (Elt F) → (⟨S16x32x32, .i1⟩ : BufTy).Contents (Elt F)),
    StableHlo.binary main_v38 main_v40 main_v41 (andi : (⟨S16x32x32, .i1⟩ : BufTy).Contents (Elt F) → (⟨S16x32x32, .i1⟩ : BufTy).Contents (Elt F) → (⟨S16x32x32, .i1⟩ : BufTy).Contents (Elt F)),
    StableHlo.nullary main_cst_3 (constant S_ .f32 0x3F800000#32) ]

/-- The last host stretch is the two in a row. -/
theorem hostOps2_split : (hostOps2 : List (HloOp τ sig (Elt F))) = pre2 ++ rest2 := rfl

end Split

/-- The second region's per-batch result flattened. -/
theorem cast_out (x17 : S16x1x1.Idx → EReal) (h : S16x1x1.ShapeCasts S16) (b : Fin 16) :
    shapeCast S16 x17 h (ix1 b) = x17 (ix3 b 0 0) := by
  refine shapeCast_apply x17 h (ix1 b) (ix3 b 0 0) ?_
  rw [Shape.rowMajor_val_three, Shape.rowMajor_val_one]
  show (b.val * 1 + 0) * 1 + 0 = b.val
  omega

/-- After the second region: its result over the cluster count, batch by batch. -/
theorem host2_v19 (X : Valuation τ sig (Elt Ideal)) (b : Fin 16) :
    (StableHlo.after pre2 X (Proc.devRef .tc main_v19) : S16.Idx → EReal) (ix1 b)
      = Ideal.div ((X (Proc.devRef .tc main_v17) : S16x1x1.Idx → EReal) (ix3 b 0 0))
          ((X (Proc.devRef .tc main_v16) : S16.Idx → EReal) (ix1 b)) := by
  have e : (StableHlo.after pre2 X (Proc.devRef .tc main_v19) : S16.Idx → EReal)
      = Host.divf (F := Ideal) (φ := .f32)
          (shapeCast S16 (X (Proc.devRef .tc main_v17) : S16x1x1.Idx → EReal) shapeCasts_S16x1x1_S16)
          (X (Proc.devRef .tc main_v16) : S16.Idx → EReal) := by
    after_results
    rfl
  rw [e]
  show Ideal.div (shapeCast S16 (X (Proc.devRef .tc main_v17) : S16x1x1.Idx → EReal) shapeCasts_S16x1x1_S16 (ix1 b)) _ = _
  rw [cast_out]

/-- After the second region: the means with cluster before coordinate. -/
theorem host2_v20 (X : Valuation τ sig (Elt Ideal)) (b : Fin 16) (c : Fin 32) (d : Fin 8) :
    (StableHlo.after pre2 X (Proc.devRef .tc main_v20) : S16x32x8.Idx → EReal) (ix3 b c d)
      = (X (Proc.devRef .tc main_v11) : S16x8x32.Idx → EReal) (ix3 b d c) := by
  have e : (StableHlo.after pre2 X (Proc.devRef .tc main_v20) : S16x32x8.Idx → EReal)
      = transpose S16x32x8 [0, 2, 1] (X (Proc.devRef .tc main_v11) : S16x8x32.Idx → EReal) transposes_S16x8x32_S16x32x8_0_2_1 := by
    after_results
  rw [e]
  exact transpose_ix3_021_apply _ _ b c d

/-- The three operations write the flattened result, the quotient and the transposed means, and nothing else. -/
theorem host2_frame (X : Valuation τ sig (Elt Ideal)) {r : Ref sig .tc} (h18 : r ≠ main_v18) (h19 : r ≠ main_v19)
    (h20 : r ≠ main_v20) : StableHlo.after pre2 X (Proc.devRef .tc r) = X (Proc.devRef .tc r) := by
  simp only [after_cons, after_nil]
  rw [unary_result_ne _ _ _ _ _ _ h20, binary_result_ne _ _ _ _ _ _ _ _ h19, reshape_result_ne _ _ _ _ _ _ _ h18]

/-- The mask is as it was. -/
theorem host2_v13 (X : Valuation τ sig (Elt Ideal)) :
    StableHlo.after pre2 X (Proc.devRef .tc main_v13) = X (Proc.devRef .tc main_v13) :=
  host2_frame X (by decide) (by decide) (by decide)

/-- The cluster count is as it was. -/
theorem host2_v16 (X : Valuation τ sig (Elt Ideal)) :
    StableHlo.after pre2 X (Proc.devRef .tc main_v16) = X (Proc.devRef .tc main_v16) :=
  host2_frame X (by decide) (by decide) (by decide)

/-- The means are as they were. -/
theorem host2_v11 (X : Valuation τ sig (Elt Ideal)) :
    StableHlo.after pre2 X (Proc.devRef .tc main_v11) = X (Proc.devRef .tc main_v11) :=
  host2_frame X (by decide) (by decide) (by decide)

/-- The head of the last host stretch, together. -/
theorem host2_head (X : Valuation τ sig (Elt Ideal)) :
    (∀ b : Fin 16, (StableHlo.after pre2 X (Proc.devRef .tc main_v19) : S16.Idx → EReal) (ix1 b)
        = Ideal.div ((X (Proc.devRef .tc main_v17) : S16x1x1.Idx → EReal) (ix3 b 0 0))
            ((X (Proc.devRef .tc main_v16) : S16.Idx → EReal) (ix1 b)))
    ∧ (∀ (b : Fin 16) (c : Fin 32) (d : Fin 8), (StableHlo.after pre2 X (Proc.devRef .tc main_v20) : S16x32x8.Idx → EReal) (ix3 b c d)
        = (X (Proc.devRef .tc main_v11) : S16x8x32.Idx → EReal) (ix3 b d c))
    ∧ StableHlo.after pre2 X (Proc.devRef .tc main_v13) = X (Proc.devRef .tc main_v13)
    ∧ StableHlo.after pre2 X (Proc.devRef .tc main_v16) = X (Proc.devRef .tc main_v16) :=
  ⟨host2_v19 X, host2_v20 X, host2_v13 X, host2_v16 X⟩

end Cert.KernelIdeal.Host

end
-- ==== Proof.KI.Chain.lean ====
/-
  The program's values followed through its fifteen items, from the launch memory. The first region is entered with the
  arguments re-indexed by point; it leaves the batches' sums and counts; the host stretch after it makes the clusters'
  means, the mask of the clusters that hold a point and their number; the second region is entered with the same points
  and labels and those means, and leaves the batches' hinge sums; the last stretches start from those contents: the hinge
  sums over the cluster counts, and the means transposed.
-/
import proofs.«417056_j24696061952722_1_alg».proof.Proof.KI.Run
import proofs.«417056_j24696061952722_1_alg».proof.Proof.KI.Host
import proofs.«417056_j24696061952722_1_alg».proof.Proof.Spec
import proofs.«417056_j24696061952722_1_alg».proof.Proof.LibAfter

set_option maxRecDepth 16384

noncomputable section

namespace Cert.KernelIdeal.Chain

open Cert.KernelIdeal Cert.KernelIdeal.Gen Cert.KernelIdeal.R0 Cert.KernelIdeal.R1 Cert.KernelIdeal.Run
open Idealize.ShloMosaic Idealize.ShloMosaic.TcCoe Idealize.ShloMosaic.ValueIdx

variable (m : (ℓ : Loc nD τ sig) → Buf (Elt Ideal) ℓ) (c : Dev nD)

/-- The coordinates by point, off the launch memory. -/
abbrev XS : Cert.Spec.SX.Idx → EReal := Cert.Spec.xsOf (m ((c.tc : Thread nD τ).loc main_arg0))
/-- The labels by point, off the launch memory. -/
abbrev LS : Cert.Spec.SL.Idx → BitVec 32 := Cert.Spec.lsOf (m ((c.tc : Thread nD τ).loc main_arg1))
/-- What the first region leaves in its result array: per batch and cluster, rows 0–7 the sums, row 8 the count. -/
abbrev S : S16x9x32.Idx → EReal := (dat0 (VA m) c).arrAt 2 cfg0.N
/-- What the second region leaves in its result array: per batch, the hinge sum. -/
abbrev H : S16x1x1.Idx → EReal := (dat1 (VB m) c).arrAt 3 cfg1.N
/-- The contents after the second region. -/
abbrev Y : Valuation τ sig (Elt Ideal) := Gen.V4 m (outs m) c
/-- The contents after the first three operations of the stretch that follows it. -/
abbrev Z : Valuation τ sig (Elt Ideal) := StableHlo.after Host.pre2 (Gen.V4 m (outs m) c)

/-! ## The regions' entry contents: the points and their labels -/

/-- The first region is entered with the coordinates by point … -/
theorem VA_x : (VA m c main_v0 : Cert.Spec.SX.Idx → EReal) = XS m c :=
  Host.host0_xs (Gen.V0 m c)

/-- … and the labels by point. -/
theorem VA_l (b : Fin 16) (n : Fin 262144) :
    (VA m c main_v2 : S16x1x262144.Idx → BitVec 32) (ix3 b 0 n) = LS m c (ix2 b n) :=
  Host.host0_ls (Gen.V0 m c) b n

/-- The second host stretch and the first region leave the coordinates … -/
theorem VB_v0 : VB m c main_v0 = VA m c main_v0 :=
  (Gen.V3_of m (outsA m) c main_v0 (by decide)).trans (Gen.V2_of m (outsA m) c main_v0 (by decide))

/-- … and the labels as they were. -/
theorem VB_v2 : VB m c main_v2 = VA m c main_v2 :=
  (Gen.V3_of m (outsA m) c main_v2 (by decide)).trans (Gen.V2_of m (outsA m) c main_v2 (by decide))

/-- The second region is entered with the coordinates by point … -/
theorem VB_x : (VB m c main_v0 : Cert.Spec.SX.Idx → EReal) = XS m c :=
  (VB_v0 m c).trans (VA_x m c)

/-- … and the labels by point. -/
theorem VB_l (b : Fin 16) (n : Fin 262144) :
    (VB m c main_v2 : S16x1x262144.Idx → BitVec 32) (ix3 b 0 n) = LS m c (ix2 b n) := by
  rw [VB_v2]
  exact VA_l m c b n

/-! ## The first region's result and the means made from it -/

/-- The contents after the first region hold, at its result array, what its write-backs leave. -/
theorem V2_stats : (Gen.V2 m (outsA m) c (Proc.devRef .tc main_v3) : S16x9x32.Idx → EReal) = S m c := by
  show Function.update (Gen.V1 m c) (Proc.devRef .tc main_v3) (outsA m 2 main_v3 c) (Proc.devRef .tc main_v3) = _
  rw [Function.update_self]
  exact WA_arr m c 2

/-- The second region is entered with the clusters' means: each sum over the larger of the count and one. -/
theorem VB_m (b : Fin 16) (d : Fin 8) (cl : Fin 32) :
    (VB m c main_v11 : S16x8x32.Idx → EReal) (ix3 b d cl)
      = Cert.Spec.mean (S m c (ix3 b ⟨d.val, by have := d.isLt; omega⟩ cl)) (S m c (ix3 b 8 cl)) := by
  have h := Host.host1_ctr (Gen.V2 m (outsA m) c) b d cl
  rw [V2_stats m c] at h
  exact h

/-! ## The contents after the second region -/

/-- The second region leaves the second host stretch's results as they were. -/
theorem Y_of (r : Ref sig .tc) (h : r ∉ ([main_v17] : List (Ref sig .tc))) :
    Y m c (Proc.devRef .tc r) = Gen.V3 m (outsA m) c (Proc.devRef .tc r) := by
  have e := Gen.V4_of m (outs m) c r h
  rw [V3_outs] at e
  exact e

/-- After the second region: the means are those it was entered with. -/
theorem Y_m (b : Fin 16) (d : Fin 8) (cl : Fin 32) :
    (Y m c (Proc.devRef .tc main_v11) : S16x8x32.Idx → EReal) (ix3 b d cl)
      = (VB m c main_v11 : S16x8x32.Idx → EReal) (ix3 b d cl) :=
  congrFun (Y_of m c main_v11 (by decide)) (ix3 b d cl)

/-- After the second region: the mask of the clusters that hold a point. -/
theorem Y_p (b : Fin 16) (cl : Fin 32) :
    (Y m c (Proc.devRef .tc main_v13) : S16x32.Idx → BitVec 1) (ix2 b cl)
      = Ideal.cmp .ogt (S m c (ix3 b 8 cl)) (Ideal.ofBits .f32 0x00000000#32) := by
  have h := Host.host1_present (Gen.V2 m (outsA m) c) b cl
  rw [V2_stats m c] at h
  rw [Y_of m c main_v13 (by decide)]
  exact h

/-- After the second region: the number of clusters that hold a point, as the three operations on the mask. -/
theorem Y_K :
    (Y m c (Proc.devRef .tc main_v16) : S16.Idx → EReal)
      = sitofp (F := Ideal) .f32 (Host.reduce IntOp.addi
          (extui 32 (Y m c (Proc.devRef .tc main_v13) : S16x32.Idx → BitVec 1) natLt_1_32)
          (constantI S_ 32 0#32) reducesTo_S16x32_S16_d1 h_S_) := by
  rw [Y_of m c main_v16 (by decide), Y_of m c main_v13 (by decide)]
  exact Host.host1_K (Gen.V2 m (outsA m) c)

/-- After the second region: its result array holds what its write-backs leave. -/
theorem Y_h : (Y m c (Proc.devRef .tc main_v17) : S16x1x1.Idx → EReal) = H m c := by
  show Function.update (Gen.V3 m (outs m) c) (Proc.devRef .tc main_v17) (outs m 4 main_v17 c) (Proc.devRef .tc main_v17) = _
  rw [Function.update_self, outs_four]
  exact WB_arr m c 3

/-! ## The last stretches -/

/-- The stretch after the second region, as its first three operations and then the rest. -/
theorem V5_split :
    Gen.V5 m (outs m) c = StableHlo.after Host.rest2 (StableHlo.after Host.pre2 (Gen.V4 m (outs m) c)) := by
  show StableHlo.after hostOps2 (Gen.V4 m (outs m) c) = _
  rw [Host.hostOps2_split, Cert.LibAfter.after_append]

/-- The program's result: the remaining stretches, in order, from the contents after the second region. -/
theorem V15_eq :
    Gen.V15 m (outs m) c (Proc.devRef .tc main_v82)
      = StableHlo.after hostOps2_10 (StableHlo.after hostOps2_9 (StableHlo.after hostOps2_8 (StableHlo.after hostOps2_7
          (StableHlo.after hostOps2_6 (StableHlo.after hostOps2_5 (StableHlo.after hostOps2_4 (StableHlo.after hostOps2_3
          (StableHlo.after hostOps2_2 (StableHlo.after hostOps2_1 (StableHlo.after Host.rest2 (StableHlo.after Host.pre2
            (Gen.V4 m (outs m) c)))))))))))) (Proc.devRef .tc main_v82) := by
  show StableHlo.after hostOps2_10 (StableHlo.after hostOps2_9 (StableHlo.after hostOps2_8 (StableHlo.after hostOps2_7
          (StableHlo.after hostOps2_6 (StableHlo.after hostOps2_5 (StableHlo.after hostOps2_4 (StableHlo.after hostOps2_3
          (StableHlo.after hostOps2_2 (StableHlo.after hostOps2_1 (Gen.V5 m (outs m) c)))))))))) (Proc.devRef .tc main_v82) = _
  rw [V5_split]

/-- After the first three operations: the means with cluster before coordinate. -/
theorem Z_v20 (b : Fin 16) (cl : Fin 32) (d : Fin 8) :
    (Z m c (Proc.devRef .tc main_v20) : S16x32x8.Idx → EReal) (ix3 b cl d)
      = (Y m c (Proc.devRef .tc main_v11) : S16x8x32.Idx → EReal) (ix3 b d cl) :=
  Host.host2_v20 (Y m c) b cl d

/-- After the first three operations: the hinge sum over the cluster count, batch by batch. -/
theorem Z_v19 (b : Fin 16) :
    (Z m c (Proc.devRef .tc main_v19) : S16.Idx → EReal) (ix1 b)
      = Ideal.div ((Y m c (Proc.devRef .tc main_v17) : S16x1x1.Idx → EReal) (ix3 b 0 0))
          ((Y m c (Proc.devRef .tc main_v16) : S16.Idx → EReal) (ix1 b)) :=
  Host.host2_v19 (Y m c) b

/-- The mask is as it was. -/
theorem Z_v13 : Z m c (Proc.devRef .tc main_v13) = Y m c (Proc.devRef .tc main_v13) := Host.host2_v13 (Y m c)

/-- The cluster count is as it was. -/
theorem Z_v16 : Z m c (Proc.devRef .tc main_v16) = Y m c (Proc.devRef .tc main_v16) := Host.host2_v16 (Y m c)

end Cert.KernelIdeal.Chain

end
-- ==== Proof.PreLab.lean ====
/-
  The labels' range out of the stated precondition. The precondition is the conjunction of three conditions, each the
  conjunction over every element of an array of one-bit words: every coordinate is finite in absolute value, every
  label word read as a signed integer is at least zero, and every label word read as a signed integer is below 32. Where
  the whole is the bit one, each of the three is, and so is each element of each array. A word whose signed reading lies
  in [0, 32) is the word of that number, a cluster index.
-/
import proofs.«417056_j24696061952722_1_alg».proof.Pre_finite_inputs
import proofs.«417056_j24696061952722_1_alg».proof.Proof.Gen.Pre_finite_inputs
import proofs.«417056_j24696061952722_1_alg».proof.Proof.Spec
import Idealize.ShloMosaic.Lib.ReduceAll
import Idealize.ShloMosaic.Lib.Affine
import Idealize.ShloMosaic.Lib.ValueIdx

noncomputable section

namespace Cert.PreLab

open Idealize.ShloMosaic Idealize.ShloMosaic.ValueIdx

/-- The scalar shape has one index. -/
instance subsingleton_scalar_idx : Subsingleton Cert.Pre_finite_inputs.S_.Idx := ⟨fun a b => funext fun d => d.elim0⟩

variable {F : FTy → Type} [FloatOps F]

/-- Where the precondition holds, every label word read as a signed integer lies in [0, 32). -/
theorem lab_of_pre [Cert.Pre_finite_inputs.Facts] (x0 : FVec F Cert.Pre_finite_inputs.S16x8x512x512 .f32)
    (x1 : IVec Cert.Pre_finite_inputs.S16x512x512 32)
    (h : Cert.Pre_finite_inputs.fn (F := F) x0 x1 = fun _ => 1#1) :
    ∀ i : Cert.Pre_finite_inputs.S16x512x512.Idx, (0 : Int) ≤ (x1 i).toInt ∧ (x1 i).toInt < 32 := by
  intro i
  have h0 := congrFun h ix0
  dsimp only [Cert.Pre_finite_inputs.fn] at h0
  change IntOp.andi _ _ = 1#1 at h0
  obtain ⟨h7, h10⟩ := IntOp.andi_eq_one.1 h0
  change IntOp.andi _ _ = 1#1 at h7
  obtain ⟨h3, h6⟩ := IntOp.andi_eq_one.1 h7
  have hge := Host.reduce_andi_all _ _ _ _ _ h6 i
  have hlt := Host.reduce_andi_all _ _ _ _ _ h10 i
  have hge' : (0#32 : BitVec 32).toInt ≤ (x1 i).toInt := IntOp.cmpi_sge.1 hge
  have hlt' : (x1 i).toInt < (32#32 : BitVec 32).toInt := IntOp.cmpi_slt.1 hlt
  have e0 : (0#32 : BitVec 32).toInt = 0 := by decide
  have e32 : (32#32 : BitVec 32).toInt = 32 := by decide
  rw [e0] at hge'
  rw [e32] at hlt'
  exact ⟨hge', hlt'⟩

/-- A 32-bit word whose signed reading lies in [0, 32) is the word of a number below 32. -/
theorem word_of_range (w : BitVec 32) (h0 : (0 : Int) ≤ w.toInt) (h1 : w.toInt < 32) :
    ∃ c₀ : Fin 32, w = BitVec.ofNat 32 c₀.val := by
  have hw : w.toNat < 2 ^ 32 := w.isLt
  rw [BitVec.toInt_eq_toNat_cond] at h0 h1
  by_cases hc : 2 * w.toNat < 2 ^ 32
  · rw [if_pos hc] at h0 h1
    refine ⟨⟨w.toNat, by omega⟩, ?_⟩
    apply BitVec.eq_of_toNat_eq
    rw [BitVec.toNat_ofNat, Nat.mod_eq_of_lt hw]
  · rw [if_neg hc] at h0 h1
    omega

/-- Where the precondition holds, every point's label word names a cluster. -/
theorem lab_of_pre_points [Cert.Pre_finite_inputs.Facts] (x0 : FVec F Cert.Pre_finite_inputs.S16x8x512x512 .f32)
    (x1 : IVec Cert.Pre_finite_inputs.S16x512x512 32)
    (h : Cert.Pre_finite_inputs.fn (F := F) x0 x1 = fun _ => 1#1) (b : Fin 16) (n : Fin 262144) :
    ∃ c₀ : Fin 32, Cert.Spec.lsOf x1 (ix2 b n) = BitVec.ofNat 32 c₀.val := by
  have hi := lab_of_pre x0 x1 h (ix3 b ⟨n.val / 512, by have h : n.val < 262144 := n.isLt; omega⟩
    ⟨n.val % 512, Nat.mod_lt _ (by norm_num)⟩)
  exact word_of_range _ hi.1 hi.2

end Cert.PreLab

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefHead.lean ====
/-
  What the reference program's head computes, read index by index into the shared definitions (Spec.lean), over
  the extended reals. The program flattens the sixteen batches' points to one list of 4194304 points (point
  b · 262144 + n is point n of batch b), gives each point the segment number "label + 32 · batch", and scatter-adds the
  points' coordinates, ones, and hinges into 512 rows, row b · 32 + c being cluster c of batch b. Where every label
  lies in [0, 32), a point of batch b' lands on row b · 32 + c exactly when b' = b and its label is c, so each
  scatter-add is, row by row, a weighted sum over one batch's points with the weights of Spec.oh.
-/
import proofs.«417056_j24696061952722_1_alg».proof.Proof.Spec
import proofs.«417056_j24696061952722_1_alg».proof.Proof.RefReadP
import proofs.«417056_j24696061952722_1_alg».proof.Proof.LibGatherScatter
import Idealize.ShloMosaic.Lib.StableHlo.Predicate
import Idealize.ShloMosaic.PureOps.Ideal.Laws
import Idealize.ShloMosaic.Lib.ValueIdx

noncomputable section

open scoped BigOperators

namespace Cert.RefHead

open Cert.ReferenceIdeal Cert.ReferenceIdeal.Gen Idealize.ShloMosaic Idealize.ShloMosaic.TcCoe Idealize.SL.Sem
  Idealize.ShloMosaic.StableHlo Idealize.ShloMosaic.ValueIdx Idealize.ShloMosaic.RowOps
  Idealize.ShloMosaic.StableHlo.Predicate Cert.ReferenceIdeal.ReadP

/-! ## The two arguments re-indexed by point -/

/-- The first reshape is the coordinates by point. -/
theorem ref_xs (x0 : (⟨S16x8x512x512, .f32⟩ : BufTy).Contents (Elt Ideal)) :
    ReadP.val_main_v0 (F := Ideal) x0 = Cert.Spec.xsOf x0 := by
  funext i
  rw [ReadP.val_main_v0_apply]
  unfold Cert.Spec.xsOf
  refine congrArg x0 (funext fun a => Fin.ext ?_)
  have h0 : (i 0).val < 16 := (i 0).isLt
  have h1 : (i 1).val < 8 := (i 1).isLt
  have h2 : (i 2).val < 262144 := (i 2).isLt
  match a with
  | ⟨0, _⟩ => show (((i 0).val * 8 + (i 1).val) * 262144 + (i 2).val) / 2097152 = (i 0).val; omega
  | ⟨1, _⟩ => show (((i 0).val * 8 + (i 1).val) * 262144 + (i 2).val) / 262144 % 8 = (i 1).val; omega
  | ⟨2, _⟩ => show (((i 0).val * 8 + (i 1).val) * 262144 + (i 2).val) / 512 % 512 = (i 2).val / 512; omega
  | ⟨3, _⟩ => show (((i 0).val * 8 + (i 1).val) * 262144 + (i 2).val) % 512 = (i 2).val % 512; omega

/-- The labels' reshape is the labels by point. -/
theorem ref_ls (x1 : (⟨S16x512x512, .i32⟩ : BufTy).Contents (Elt Ideal)) :
    ReadP.val_main_v3 (F := Ideal) x1 = Cert.Spec.lsOf x1 := by
  funext i
  rw [ReadP.val_main_v3_apply]
  unfold Cert.Spec.lsOf
  refine congrArg x1 (funext fun a => Fin.ext ?_)
  have h0 : (i 0).val < 16 := (i 0).isLt
  have h1 : (i 1).val < 262144 := (i 1).isLt
  match a with
  | ⟨0, _⟩ => show ((i 0).val * 262144 + (i 1).val) / 262144 = (i 0).val; omega
  | ⟨1, _⟩ => show ((i 0).val * 262144 + (i 1).val) / 512 % 512 = (i 1).val / 512; omega
  | ⟨2, _⟩ => show ((i 0).val * 262144 + (i 1).val) % 512 = (i 1).val % 512; omega

/-! ## The constants -/

/-- The float word 0x3F800000 is one. -/
theorem one_eq : Cert.Spec.one = 1 := by
  unfold Cert.Spec.one
  simp [Ideal.ofBits, Ideal.ieee]
  rw [← EReal.coe_mul, ← EReal.coe_one]
  congr 1
  norm_num

/-! ## The flat list of points -/

/-- Point n of batch b in the flat list of the sixteen batches' points. -/
def pt (b : Fin 16) (n : Fin 262144) : Fin 4194304 :=
  ⟨b.val * 262144 + n.val, by have := b.isLt; have := n.isLt; omega⟩

/-- Row b · 32 + c of the 512 rows: cluster c of batch b. -/
abbrev row (b : Fin 16) (c : Fin 32) : Fin 512 :=
  ⟨b.val * 32 + c.val, by have := b.isLt; have := c.isLt; omega⟩

/-- The flat list is the batches' points, batch after batch. -/
def ptEquiv : Fin 16 × Fin 262144 ≃ Fin 4194304 where
  toFun p := pt p.1 p.2
  invFun e := (⟨e.val / 262144, by have := e.isLt; omega⟩, ⟨e.val % 262144, Nat.mod_lt _ (by norm_num)⟩)
  left_inv p := by
    obtain ⟨b, n⟩ := p
    have := b.isLt; have := n.isLt
    apply Prod.ext
    · apply Fin.ext; show (b.val * 262144 + n.val) / 262144 = b.val; omega
    · apply Fin.ext; show (b.val * 262144 + n.val) % 262144 = n.val; omega
  right_inv e := by
    apply Fin.ext; show e.val / 262144 * 262144 + e.val % 262144 = e.val; omega

/-- A sum over the flat list is the sum over the batches of the sums over a batch's points. -/
theorem sum_pt (F : Fin 4194304 → EReal) : ∑ e, F e = ∑ b : Fin 16, ∑ n : Fin 262144, F (pt b n) := by
  rw [← Equiv.sum_comp ptEquiv F, Fintype.sum_prod_type]
  rfl

/-! ## The segment numbers -/

/-- The segment word of point n of batch b: its label plus 32 · b. -/
theorem seg_word (x1 : (⟨S16x512x512, .i32⟩ : BufTy).Contents (Elt Ideal)) (b : Fin 16) (n : Fin 262144) :
    ReadP.val_main_v10 (F := Ideal) x1 (ix1 (pt b n))
      = Cert.Spec.lsOf x1 (ix2 b n) + BitVec.ofNat 32 b.val * 32#32 := by
  have hb := b.isLt; have hn := n.isLt
  have hi : ReadP.idx_main_v10 (ix1 (pt b n)) = ix2 b n := funext fun a => Fin.ext (by
    match a with
    | ⟨0, _⟩ => show (b.val * 262144 + n.val) / 262144 = b.val; omega
    | ⟨1, _⟩ => show (b.val * 262144 + n.val) % 262144 = n.val; omega)
  rw [ReadP.val_main_v10_apply, ReadP.val_main_v9_apply, ref_ls, ReadP.val_main_v8_apply, ReadP.val_main_v7_apply,
    ReadP.val_main_v5_apply, ReadP.val_main_v6_apply, ReadP.val_main_v4_apply, ReadP.val_main_c_apply, hi]
  rfl

/-- Read signed, where the labels lie in [0, 32): the label plus 32 · b, with no wrap. -/
theorem seg_toInt (x1 : (⟨S16x512x512, .i32⟩ : BufTy).Contents (Elt Ideal))
    (hlab : ∀ i, (0 : Int) ≤ (x1 i).toInt ∧ (x1 i).toInt < 32) (b : Fin 16) (n : Fin 262144) :
    (ReadP.val_main_v10 (F := Ideal) x1 (ix1 (pt b n))).toInt
      = (Cert.Spec.lsOf x1 (ix2 b n)).toInt + (b.val : Int) * 32 := by
  rw [seg_word]
  have hb := b.isLt
  obtain ⟨h0, h1⟩ : (0 : Int) ≤ (Cert.Spec.lsOf x1 (ix2 b n)).toInt ∧ (Cert.Spec.lsOf x1 (ix2 b n)).toInt < 32 :=
    hlab _
  generalize Cert.Spec.lsOf x1 (ix2 b n) = l at h0 h1 ⊢
  have hlt := l.isLt
  have h32 : (32#32 : BitVec 32).toNat = 32 := rfl
  simp only [BitVec.toInt_eq_toNat_cond, BitVec.toNat_add, BitVec.toNat_mul, BitVec.toNat_ofNat, h32] at h0 h1 ⊢
  split_ifs at h0 h1 ⊢ <;> omega

/-- The label of a point, where the labels lie in [0, 32), is the word of a cluster. -/
theorem label_cluster (x1 : (⟨S16x512x512, .i32⟩ : BufTy).Contents (Elt Ideal))
    (hlab : ∀ i, (0 : Int) ≤ (x1 i).toInt ∧ (x1 i).toInt < 32) (b : Fin 16) (n : Fin 262144) :
    ∃ c₀ : Fin 32, Cert.Spec.lsOf x1 (ix2 b n) = BitVec.ofNat 32 c₀.val
      ∧ (Cert.Spec.lsOf x1 (ix2 b n)).toInt = (c₀.val : Int) := by
  obtain ⟨h0, h1⟩ : (0 : Int) ≤ (Cert.Spec.lsOf x1 (ix2 b n)).toInt ∧ (Cert.Spec.lsOf x1 (ix2 b n)).toInt < 32 :=
    hlab _
  generalize Cert.Spec.lsOf x1 (ix2 b n) = l at h0 h1 ⊢
  refine ⟨⟨l.toInt.toNat, by omega⟩, ?_, by show l.toInt = ((l.toInt.toNat : Nat) : Int); omega⟩
  apply BitVec.eq_of_toInt_eq
  rw [toInt_ofNat_small _ (by show l.toInt.toNat < 2 ^ 31; omega)]
  show l.toInt = ((l.toInt.toNat : Nat) : Int)
  omega

/-- WHERE A POINT LANDS. Where the labels lie in [0, 32), point n of batch b' lands on row b · 32 + c exactly when
    b' = b and its label is the word of c. Stated of any column of start indices that holds the segment words. -/
theorem lands_iff (x1 : (⟨S16x512x512, .i32⟩ : BufTy).Contents (Elt Ideal))
    (hlab : ∀ i, (0 : Int) ≤ (x1 i).toInt ∧ (x1 i).toInt < 32) (idx : IVec ⟨2, ![4194304, 1]⟩ 32)
    (hidx : ∀ e : Fin 4194304, idx (ixP e) = ReadP.val_main_v10 (F := Ideal) x1 (ix1 e))
    (b' : Fin 16) (n : Fin 262144) (b : Fin 16) (c : Fin 32) :
    lands idx (pt b' n) (b.val * 32 + c.val)
      ↔ b' = b ∧ Cert.Spec.lsOf x1 (ix2 b' n) = BitVec.ofNat 32 c.val := by
  have hb := b.isLt; have hb' := b'.isLt; have hc := c.isLt
  unfold lands
  rw [hidx, seg_toInt x1 hlab]
  obtain ⟨c₀, hw, hi⟩ := label_cluster x1 hlab b' n
  have hc₀ := c₀.isLt
  rw [hi]
  constructor
  · intro h
    have hbb : b'.val = b.val := by omega
    have hcc : c₀.val = c.val := by omega
    exact ⟨Fin.ext hbb, by rw [hw, hcc]⟩
  · rintro ⟨rfl, hl⟩
    rw [hw] at hl
    have := congrArg BitVec.toNat hl
    simp only [BitVec.toNat_ofNat] at this
    have hcc : c₀.val = c.val := by omega
    rw [hcc]; push_cast; ring

/-- A SCATTER-ADD'S ROW IS A WEIGHTED SUM OVER ONE BATCH. The updates that land on row b · 32 + c, summed, are the sum
    over batch b's points of the update times the point's weight in cluster c. -/
theorem sum_lands (x1 : (⟨S16x512x512, .i32⟩ : BufTy).Contents (Elt Ideal))
    (hlab : ∀ i, (0 : Int) ≤ (x1 i).toInt ∧ (x1 i).toInt < 32) (idx : IVec ⟨2, ![4194304, 1]⟩ 32)
    (hidx : ∀ e : Fin 4194304, idx (ixP e) = ReadP.val_main_v10 (F := Ideal) x1 (ix1 e))
    (f : Fin 4194304 → EReal) (b : Fin 16) (c : Fin 32) :
    ∑ e ∈ Finset.univ.filter (fun e : Fin 4194304 => lands idx e (b.val * 32 + c.val)), f e
      = ∑ n : Fin 262144, f (pt b n) * Cert.Spec.oh (Cert.Spec.lsOf x1 (ix2 b n)) c := by
  rw [Finset.sum_filter, sum_pt, Fintype.sum_eq_single b]
  · refine Finset.sum_congr rfl fun n _ => ?_
    unfold Cert.Spec.oh
    by_cases hl : Cert.Spec.lsOf x1 (ix2 b n) = BitVec.ofNat 32 c.val
    · rw [if_pos ((lands_iff x1 hlab idx hidx b n b c).2 ⟨rfl, hl⟩), if_pos hl, mul_one]
    · rw [if_neg (fun h => hl ((lands_iff x1 hlab idx hidx b n b c).1 h).2), if_neg hl, mul_zero]
  · intro b' hb'
    refine Finset.sum_eq_zero fun n _ => ?_
    rw [if_neg (fun h => hb' ((lands_iff x1 hlab idx hidx b' n b c).1 h).1)]

/-- The three columns of start indices hold the segment words. -/
theorem v12_word (x1 : (⟨S16x512x512, .i32⟩ : BufTy).Contents (Elt Ideal)) (e : Fin 4194304) :
    ReadP.val_main_v12 (F := Ideal) x1 (ixP e) = ReadP.val_main_v10 (F := Ideal) x1 (ix1 e) := by
  rw [ReadP.val_main_v12_apply]
  exact congrArg _ (funext fun a => by match a with | ⟨0, _⟩ => rfl)
theorem v16_word (x1 : (⟨S16x512x512, .i32⟩ : BufTy).Contents (Elt Ideal)) (e : Fin 4194304) :
    ReadP.val_main_v16 (F := Ideal) x1 (ixP e) = ReadP.val_main_v10 (F := Ideal) x1 (ix1 e) := by
  rw [ReadP.val_main_v16_apply]
  exact congrArg _ (funext fun a => by match a with | ⟨0, _⟩ => rfl)
theorem v53_word (x1 : (⟨S16x512x512, .i32⟩ : BufTy).Contents (Elt Ideal)) (e : Fin 4194304) :
    ReadP.val_main_v53 (F := Ideal) x1 (ixP e) = ReadP.val_main_v10 (F := Ideal) x1 (ix1 e) := by
  rw [ReadP.val_main_v53_apply]
  exact congrArg _ (funext fun a => by match a with | ⟨0, _⟩ => rfl)

/-! ## The sums and the counts -/

/-- The flattened coordinates at point n of batch b. -/
theorem v2_pt (x0 : (⟨S16x8x512x512, .f32⟩ : BufTy).Contents (Elt Ideal)) (b : Fin 16) (n : Fin 262144) (d : Fin 8) :
    ReadP.val_main_v2 (F := Ideal) x0 (ix2 (pt b n) d) = Cert.Spec.xsOf x0 (ix3 b d n) := by
  have hb := b.isLt; have hn := n.isLt; have hd := d.isLt
  rw [ReadP.val_main_v2_apply, ReadP.val_main_v1_apply, ref_xs]
  refine congrArg _ (funext fun a => Fin.ext ?_)
  match a with
  | ⟨0, _⟩ => show ((b.val * 262144 + n.val) * 8 + d.val) / 2097152 = b.val; omega
  | ⟨1, _⟩ => show ((b.val * 262144 + n.val) * 8 + d.val) % 8 = d.val; omega
  | ⟨2, _⟩ => show ((b.val * 262144 + n.val) * 8 + d.val) / 8 % 262144 = n.val; omega

/-- The first scatter-add: row b · 32 + c, column d is the sum of coordinate d over the points of batch b in cluster c. -/
theorem ref_sums (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) (c : Fin 32) (d : Fin 8) :
    ReadP.val_main_v13 (F := Ideal) x0 x1 (ix2 (row b c) d)
      = Cert.Spec.sums (Cert.Spec.xsOf x0) (Cert.Spec.lsOf x1) b d c := by
  unfold ReadP.val_main_v13
  rw [Host.scatterAdd, Ideal.hostScatterAdd_def, scatterAdd_rows _ rfl rfl rfl rfl, ReadP.val_main_v11_apply, ReadP.val_main_cst_apply,
    Ideal.ofBits_def, Ideal.ofBits_zero_f32, zero_add]
  refine (sum_lands x1 hlab _ (v12_word x1) (fun e => ReadP.val_main_v2 (F := Ideal) x0 (ix2 e d)) b c).trans ?_
  unfold Cert.Spec.sums
  exact Finset.sum_congr rfl fun n _ => by rw [v2_pt]

/-- The second scatter-add: row b · 32 + c is the number of points of batch b in cluster c. -/
theorem ref_cnt (x1 : (⟨S16x512x512, .i32⟩ : BufTy).Contents (Elt Ideal))
    (hlab : ∀ i, (0 : Int) ≤ (x1 i).toInt ∧ (x1 i).toInt < 32) (b : Fin 16) (c : Fin 32) :
    ReadP.val_main_v17 (F := Ideal) x1 (ix1 (row b c)) = Cert.Spec.cnt (Cert.Spec.lsOf x1) b c := by
  unfold ReadP.val_main_v17
  rw [Host.scatterAdd, Ideal.hostScatterAdd_def, scatterAdd_row1 _ rfl rfl rfl rfl, ReadP.val_main_v15_apply, ReadP.val_main_cst_1_apply,
    Ideal.ofBits_def, Ideal.ofBits_zero_f32, zero_add]
  refine (sum_lands x1 hlab _ (v16_word x1) (fun e => ReadP.val_main_v14 (F := Ideal) (ix1 e)) b c).trans ?_
  unfold Cert.Spec.cnt
  refine Finset.sum_congr rfl fun n _ => ?_
  rw [ReadP.val_main_v14_apply, ReadP.val_main_cst_0_apply, Ideal.ofBits_def]
  show Cert.Spec.one * _ = _
  rw [one_eq, one_mul]

end Cert.RefHead

end
-- ==== Proof.RefHead2.lean ====
/-
  The reference program's means and which clusters are present, read index by index into the shared definitions:
  the quotient of the scatter-added sums by the larger of the count and one is Spec.ctr, and the comparison of the
  count with zero says which clusters hold a point.
-/
import proofs.«417056_j24696061952722_1_alg».proof.Proof.RefHead

noncomputable section

open scoped BigOperators

namespace Cert.RefHead

open Cert.ReferenceIdeal Cert.ReferenceIdeal.Gen Idealize.ShloMosaic Idealize.ShloMosaic.TcCoe Idealize.SL.Sem
  Idealize.ShloMosaic.StableHlo Idealize.ShloMosaic.ValueIdx Idealize.ShloMosaic.RowOps
  Idealize.ShloMosaic.StableHlo.Predicate Cert.ReferenceIdeal.ReadP

/-! ## The means, and which clusters are present -/

/-- The counts' row broadcast over the coordinates: the larger of the count and one. -/
theorem v21_row (x1 : (⟨S16x512x512, .i32⟩ : BufTy).Contents (Elt Ideal))
    (hlab : ∀ i, (0 : Int) ≤ (x1 i).toInt ∧ (x1 i).toInt < 32) (b : Fin 16) (c : Fin 32) (d : Fin 8) :
    ReadP.val_main_v21 (F := Ideal) x1 (ix2 (row b c) d)
      = max (Cert.Spec.cnt (Cert.Spec.lsOf x1) b c) Cert.Spec.one := by
  have hi : ReadP.idx_main_v20 (ReadP.idx_main_v21 (ix2 (row b c) d)) = ix1 (row b c) :=
    funext fun a => by match a with | ⟨0, _⟩ => rfl
  rw [ReadP.val_main_v21_apply, ReadP.val_main_v20_apply, ReadP.val_main_v19_apply, Ideal.maximumf_def, hi,
    ref_cnt x1 hlab, ReadP.val_main_v18_apply, ReadP.val_main_cst_2_apply, Ideal.ofBits_def]
  rfl

/-- The quotient's row b · 32 + c, column d: the mean of cluster c of batch b at coordinate d. -/
theorem v22_row (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) (c : Fin 32) (d : Fin 8) :
    ReadP.val_main_v22 (F := Ideal) x0 x1 (ix2 (row b c) d)
      = Cert.Spec.ctr (Cert.Spec.xsOf x0) (Cert.Spec.lsOf x1) b d c := by
  unfold Cert.Spec.ctr Cert.Spec.mean
  rw [ReadP.val_main_v22_apply, Ideal.hostDivf_def, ref_sums x0 x1 hlab, v21_row x1 hlab]

/-- The means, batch by cluster by coordinate. -/
theorem ref_ctr (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) (c : Fin 32) (d : Fin 8) :
    ReadP.val_main_v58 (F := Ideal) x0 x1 (ix3 b c d)
      = Cert.Spec.ctr (Cert.Spec.xsOf x0) (Cert.Spec.lsOf x1) b d c := by
  have hb := b.isLt; have hc := c.isLt; have hd := d.isLt
  have hi : ReadP.idx_main_v58 (ix3 b c d) = ix2 (row b c) d := funext fun a => Fin.ext (by
    match a with
    | ⟨0, _⟩ => show ((b.val * 32 + c.val) * 8 + d.val) / 8 = b.val * 32 + c.val; omega
    | ⟨1, _⟩ => show ((b.val * 32 + c.val) * 8 + d.val) % 8 = d.val; omega)
  rw [ReadP.val_main_v58_apply, hi, v22_row x0 x1 hlab]

/-- Which clusters are present: the count above the zero word (the zero word left as the program writes it). -/
theorem ref_present (x1 : (⟨S16x512x512, .i32⟩ : BufTy).Contents (Elt Ideal))
    (hlab : ∀ i, (0 : Int) ≤ (x1 i).toInt ∧ (x1 i).toInt < 32) (b : Fin 16) (c : Fin 32) :
    ReadP.val_main_v25 (F := Ideal) x1 (ix2 b c)
      = Ideal.cmp .ogt (Cert.Spec.cnt (Cert.Spec.lsOf x1) b c) (Ideal.ofBits .f32 0x00000000#32) := by
  have hi : ReadP.idx_main_v25 (ix2 b c) = ix1 (row b c) := funext fun a => by match a with | ⟨0, _⟩ => rfl
  rw [ReadP.val_main_v25_apply, hi, ReadP.val_main_v24_apply, Ideal.cmpf_def, ref_cnt x1 hlab, ReadP.val_main_v23_apply,
    ReadP.val_main_cst_3_apply, Ideal.ofBits_def]

/-- The same with the zero word read: the count above zero. -/
theorem ref_present_zero (x1 : (⟨S16x512x512, .i32⟩ : BufTy).Contents (Elt Ideal))
    (hlab : ∀ i, (0 : Int) ≤ (x1 i).toInt ∧ (x1 i).toInt < 32) (b : Fin 16) (c : Fin 32) :
    ReadP.val_main_v25 (F := Ideal) x1 (ix2 b c) = Ideal.cmp .ogt (Cert.Spec.cnt (Cert.Spec.lsOf x1) b c) 0 := by
  rw [ref_present x1 hlab, Ideal.ofBits_zero_f32]

end Cert.RefHead

end
-- ==== Proof.RefHinge.lean ====
/-
  The reference program's hinge sums, read index by index into the shared definitions. Per point: the gather reads
  the means' row the point's segment number names, which is the point's own center (the segment number is in range,
  so neither the negative-index select nor the clamp binds); the squared distance to it is Spec.sq, and the
  operations after it are Spec.hinge. The third scatter-add puts each point's hinge on its cluster's row; the sum
  over a batch's 32 rows regroups the batch's points, each of which weighs one in exactly one cluster.
-/
import proofs.«417056_j24696061952722_1_alg».proof.Proof.RefHead2

noncomputable section

open scoped BigOperators

namespace Cert.RefHinge

open Cert.ReferenceIdeal Cert.ReferenceIdeal.Gen Idealize.ShloMosaic Idealize.ShloMosaic.TcCoe Idealize.SL.Sem
  Idealize.ShloMosaic.StableHlo Idealize.ShloMosaic.ValueIdx Idealize.ShloMosaic.RowOps
  Idealize.ShloMosaic.StableHlo.Predicate Cert.ReferenceIdeal.ReadP Cert.RefHead

/-! ## One point's hinge -/

/-- A one-bit word converted unsigned is its value. -/
theorem uitofp_ideal (w : BitVec 1) : FloatOps.uitofp (F := Ideal) .f32 w = ((w.toNat : ℝ) : EReal) := rfl

/-- The printed hinge of a squared distance s, operation by operation, is Spec.hinge s. -/
theorem hinge_eq (s : EReal) :
    max (Ideal.sqrt (Scalar.select (Ideal.cmp .ogt s 0) s Cert.Spec.one) * (((Ideal.cmp .ogt s 0).toNat : ℝ) : EReal)
        - Cert.Spec.one) 0
      * max (Ideal.sqrt (Scalar.select (Ideal.cmp .ogt s 0) s Cert.Spec.one) * (((Ideal.cmp .ogt s 0).toNat : ℝ) : EReal)
        - Cert.Spec.one) 0
      = Cert.Spec.hinge s := by
  unfold Cert.Spec.hinge Ideal.cmp Scalar.select
  by_cases h : 0 < s
  · simp [h]
  · simp [h]

/-- The gather's start index of a point is its segment word: the word is not negative, so the select keeps it. -/
theorem v34_pt (x1 : (⟨S16x512x512, .i32⟩ : BufTy).Contents (Elt Ideal))
    (hlab : ∀ i, (0 : Int) ≤ (x1 i).toInt ∧ (x1 i).toInt < 32) (b : Fin 16) (n : Fin 262144) :
    ReadP.val_main_v34 (F := Ideal) x1 (ixP (pt b n)) = ReadP.val_main_v10 (F := Ideal) x1 (ix1 (pt b n)) := by
  have hi : ReadP.idx_main_v34 (ixP (pt b n)) = ix1 (pt b n) := funext fun a => by match a with | ⟨0, _⟩ => rfl
  have hs : IntOp.cmpi .slt (ReadP.val_main_v10 (F := Ideal) x1 (ix1 (pt b n))) 0#32 = 0#1 := by
    obtain ⟨c₀, _, hc⟩ := label_cluster x1 hlab b n
    have h := seg_toInt x1 hlab b n
    rw [hc] at h
    unfold IntOp.cmpi
    have h0 : (0#32 : BitVec 32).toInt = 0 := by decide
    have : (ReadP.val_main_v10 (F := Ideal) x1 (ix1 (pt b n))).slt 0#32 = false := by
      simp only [BitVec.slt, h, h0, decide_eq_false_iff_not, not_lt]
      omega
    rw [this]; rfl
  rw [ReadP.val_main_v34_apply, hi, ReadP.val_main_v33_apply, ReadP.val_main_v30_apply, ReadP.val_main_v29_apply,
    ReadP.val_main_c_5_apply, hs, select_zero]

/-- The gathered row of a point is its own center. -/
theorem v35_pt (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) (n : Fin 262144) (d : Fin 8) :
    ReadP.val_main_v35 (F := Ideal) x0 x1 (ix2 (pt b n) d)
      = Cert.Spec.own (Cert.Spec.ctr (Cert.Spec.xsOf x0) (Cert.Spec.lsOf x1)) (Cert.Spec.lsOf x1) b d n := by
  obtain ⟨c₀, hw, hc⟩ := label_cluster x1 hlab b n
  have hl : lands (ReadP.val_main_v34 (F := Ideal) x1) (pt b n) (row b c₀).val := by
    unfold lands
    rw [v34_pt x1 hlab, seg_toInt x1 hlab, hc]
    show _ = ((b.val * 32 + c₀.val : Nat) : Int)
    push_cast; ring
  unfold ReadP.val_main_v35
  rw [gather_rows _ rfl rfl rfl rfl rfl rfl _ _ _ _ (by norm_num : 0 < 512), clampRow_of_lands _ _ _ (row b c₀) hl,
    v22_row x0 x1 hlab, Cert.Spec.own_eq _ _ b d n c₀ hw]

/-- The squared distance of a point to its own center. -/
theorem v38_pt (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) (n : Fin 262144) :
    ReadP.val_main_v38 (F := Ideal) x0 x1 (ix1 (pt b n))
      = Cert.Spec.sq (Cert.Spec.xsOf x0) (Cert.Spec.ctr (Cert.Spec.xsOf x0) (Cert.Spec.lsOf x1)) (Cert.Spec.lsOf x1) b n := by
  rw [ReadP.val_main_v38_apply, ReadP.val_main_cst_7_apply, Ideal.ofBits_def, Ideal.ofBits_zero_f32, zero_add]
  unfold Cert.Spec.sq
  refine Finset.sum_congr rfl fun k _ => ?_
  have hi : ReadP.idx_main_v38 (ix1 (pt b n)) k = ix2 (pt b n) k :=
    funext fun a => by match a with | ⟨0, _⟩ => rfl | ⟨1, _⟩ => rfl
  rw [hi, ReadP.val_main_v37_apply, ReadP.val_main_v36_apply, Ideal.mulf_def, Ideal.subf_def, v2_pt, v35_pt x0 x1 hlab]

/-- The hinge of a point. -/
theorem v51_pt (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) (n : Fin 262144) :
    ReadP.val_main_v51 (F := Ideal) x0 x1 (ix1 (pt b n))
      = Cert.Spec.hinge (Cert.Spec.sq (Cert.Spec.xsOf x0) (Cert.Spec.ctr (Cert.Spec.xsOf x0) (Cert.Spec.lsOf x1))
          (Cert.Spec.lsOf x1) b n) := by
  rw [ReadP.val_main_v51_apply, ReadP.val_main_v50_apply, ReadP.val_main_v48_apply, ReadP.val_main_v46_apply,
    ReadP.val_main_v42_apply, ReadP.val_main_v41_apply, ReadP.val_main_v40_apply, ReadP.val_main_v45_apply,
    ReadP.val_main_v44_apply, v38_pt x0 x1 hlab, ReadP.val_main_v39_apply, ReadP.val_main_cst_8_apply,
    ReadP.val_main_call0_v1_apply, ReadP.val_main_call0_v0_apply, ReadP.val_main_cst_9_apply, ReadP.val_main_v43_apply,
    ReadP.val_main_cst_10_apply, ReadP.val_main_v47_apply, ReadP.val_main_cst_11_apply, ReadP.val_main_v49_apply,
    ReadP.val_main_cst_12_apply]
  simp only [Ideal.ofBits_def, Ideal.ofBits_zero_f32, Ideal.cmpf_def, uitofp_ideal, Ideal.mulf_def, Ideal.subf_def,
    Ideal.maximumf_def, Ideal.hostUnary_sqrt_def]
  exact hinge_eq _

/-- The hinges of a batch's points, summed: the third scatter-add, then the sum over the batch's 32 rows. -/
theorem ref_hsum (x0 : (⟨S16x8x512x512, .f32⟩ : BufTy).Contents (Elt Ideal))
    (x1 : (⟨S16x512x512, .i32⟩ : BufTy).Contents (Elt Ideal))
    (hlab : ∀ i, (0 : Int) ≤ (x1 i).toInt ∧ (x1 i).toInt < 32) (b : Fin 16) :
    ReadP.val_main_v56 (F := Ideal) x0 x1 (ix1 b)
      = Cert.Spec.hsum (Cert.Spec.xsOf x0) (Cert.Spec.ctr (Cert.Spec.xsOf x0) (Cert.Spec.lsOf x1)) (Cert.Spec.lsOf x1) b := by
  have hrow : ∀ k : Fin 32, ReadP.val_main_v55 (F := Ideal) x0 x1 (ReadP.idx_main_v56 (ix1 b) k)
      = ∑ n : Fin 262144, Cert.Spec.hinge (Cert.Spec.sq (Cert.Spec.xsOf x0)
          (Cert.Spec.ctr (Cert.Spec.xsOf x0) (Cert.Spec.lsOf x1)) (Cert.Spec.lsOf x1) b n)
            * Cert.Spec.oh (Cert.Spec.lsOf x1 (ix2 b n)) k := by
    intro k
    have hi : ReadP.idx_main_v55 (ReadP.idx_main_v56 (ix1 b) k) = ix1 (row b k) :=
      funext fun a => by match a with | ⟨0, _⟩ => rfl
    rw [ReadP.val_main_v55_apply, hi]
    unfold ReadP.val_main_v54
    rw [Host.scatterAdd, Ideal.hostScatterAdd_def, scatterAdd_row1 _ rfl rfl rfl rfl, ReadP.val_main_v52_apply,
      ReadP.val_main_cst_13_apply, Ideal.ofBits_def, Ideal.ofBits_zero_f32, zero_add]
    refine (sum_lands x1 hlab _ (v53_word x1) (fun e => ReadP.val_main_v51 (F := Ideal) x0 x1 (ix1 e)) b k).trans ?_
    exact Finset.sum_congr rfl fun n _ => by rw [v51_pt x0 x1 hlab]
  rw [ReadP.val_main_v56_apply, ReadP.val_main_cst_14_apply, Ideal.ofBits_def, Ideal.ofBits_zero_f32, zero_add]
  refine (Finset.sum_congr rfl fun k _ => hrow k).trans ?_
  rw [Finset.sum_comm]
  unfold Cert.Spec.hsum
  refine Finset.sum_congr rfl fun n _ => ?_
  obtain ⟨c₀, hw, _⟩ := label_cluster x1 hlab b n
  exact Cert.Spec.sum_oh (fun _ => _) _ c₀ hw

end Cert.RefHinge

end
-- ==== Proof.KI.Region0V.lean ====
/-
  The values of the first kernel region, point by point: what an even point and an odd point leave in the two
  accumulators (the per-class sums and counts) and what an odd point leaves in the output block, through the kernel's
  payloads. Each of the body's stores covers its whole buffer (the accumulators) or tiles it (the output block's rows
  0–7 and row 8), each load reads a whole buffer, and a load after a store of the same point reads that store's payload.
-/
import proofs.«417056_j24696061952722_1_alg».proof.Proof.KI.Region0
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Each case's contents through the payloads -/

theorem hz2 : (![0, 0] : Fin 2 → Nat) = fun _ => 0 := funext fun a => by fin_cases a <;> rfl
theorem hz3 : (![0, 0, 0] : Fin 3 → Nat) = fun _ => 0 := funext fun a => by fin_cases a <;> rfl

/-- An even point leaves in the sums the first half's contribution added to the cleared block: the clearing store is
    read back whole, the inputs' loads read the whole blocks. -/
theorem sout0_A_0_eq (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) :
    sout0_A_0 c i arg2 harg2 arg3 harg3 arg4 harg4 arg5 harg5 arg6 harg6 hc0 hc1 x0 x1 = k0_pay4 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S8x32) hz2, View.readCov_unit_zero (S := S8x32) _ hz2]
  simp only [View.readAt_eq_ld, harg2.read_unread, harg3.read_unread, View.ld_unit_zero (S := S1x8x131072) hz3, View.ld_unit_zero (S := S1x1x131072) hz3]

/-- And in the counts the first half's counts added to the cleared row. -/
theorem sout0_A_1_eq (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : cond0_0 i) (hc1 : ¬cond0_1 i)
    (x0 : Vec F S1x8x131072 .f32) (x1 : Vec F S1x1x131072 .i32) :
    sout0_A_1 c i arg2 harg2 arg3 harg3 arg4 harg4 arg5 harg5 arg6 harg6 hc0 hc1 x0 x1 = k0_pay5 x1 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x32) hz2, View.readCov_unit_zero (S := S1x32) _ hz2]
  simp only [View.readAt_eq_ld, harg2.read_unread, harg3.read_unread, View.ld_unit_zero (S := S1x8x131072) hz3, View.ld_unit_zero (S := S1x1x131072) hz3]

/-- An odd point adds the second half's contribution to what the even point left in the sums, -/
theorem sout0_B_0_eq (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) :
    sout0_B_0 c i arg2 harg2 arg3 harg3 arg4 harg4 arg5 harg5 arg6 harg6 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, View.ld_unit_zero (S := S1x8x131072) hz3, View.ld_unit_zero (S := S1x1x131072) hz3, harg5.read_unread, View.ld_unit_zero (S := S8x32) hz2]

/-- and in the counts. -/
theorem sout0_B_1_eq (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) :
    sout0_B_1 c i arg2 harg2 arg3 harg3 arg4 harg4 arg5 harg5 arg6 harg6 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, View.ld_unit_zero (S := S1x8x131072) hz3, View.ld_unit_zero (S := S1x1x131072) hz3, harg6.read_unread, View.ld_unit_zero (S := S1x32) hz2]

/-- The output block an odd point leaves, from the accumulators' contents at that point: rows 0–7 the sums, row 8 the counts. -/
def outBlock (s0 : Vec F S8x32 .f32) (s1 : Vec F S1x32 .f32) : Vec F S1x9x32 .f32 :=
  View.canon [⟨Rect.unit (s := S1x9x32) ![0, 8, 0] S1x1x32.size inb_S1x9x32_S1x1x32_0_8_0, k0_pay7 s1⟩,
    ⟨Rect.unit (s := S1x9x32) ![0, 0, 0] S1x8x32.size inb_S1x9x32_S1x8x32_0_0_0, k0_pay6 s0⟩]

theorem out0_B_2_eq (c : Dev nD) (i : grid0.Coords) (arg2 : Memref sig .tc .vmem S1x8x131072 .f32) (harg2 : arg2.IsWhole) (arg3 : Memref sig .tc .vmem S1x1x131072 .i32) (harg3 : arg3.IsWhole) (arg4 : Memref sig .tc .vmem S1x9x32 .f32) (harg4 : arg4.IsWhole) (arg5 : Memref sig .tc .vmem S8x32 .f32) (harg5 : arg5.IsWhole) (arg6 : Memref sig .tc .vmem S1x32 .f32) (harg6 : arg6.IsWhole) (hc0 : ¬cond0_0 i) (hc1 : cond0_1 i)
    (x0 : Vec F S1x8x131072 .f32) (x1 : Vec F S1x1x131072 .i32) (xs0 : Vec F S8x32 .f32) (xs1 : Vec F S1x32 .f32) :
    out0_B_2 c i arg2 harg2 arg3 harg3 arg4 harg4 arg5 harg5 arg6 harg6 hc0 hc1 x0 x1 xs0 xs1 = outBlock (k0_pay4 x0 x1 xs0) (k0_pay5 x1 xs1) := by
  unfold out0_B_2 outBlock
  rw [View.read_writes_eq_canon _ _ _ (cover0_B_2 c i arg2 harg2 arg3 harg3 arg4 harg4 arg5 harg5 arg6 harg6 hc0 hc1 x0 x1 xs0 xs1)]
  unfold kernelRun0_B
  dsimp only
  sl_unfold_words
  simp only [View.readCov_unit_zero (S := S8x32) _ hz2, View.readCov_unit_zero (S := S1x32) _ hz2, View.readAt_eq_ld, harg2.read_unread, harg3.read_unread, View.ld_unit_zero (S := S1x8x131072) hz3, View.ld_unit_zero (S := S1x1x131072) hz3, harg5.read_unread, harg6.read_unread, View.ld_unit_zero (S := S8x32) hz2, View.ld_unit_zero (S := S1x32) hz2]

/-! ## The value equations, point by point -/

/-- After an even point: the sums and the counts are the first half's contributions over the cleared accumulators. -/
theorem outsAt0_even (c : Dev nD) (t : Fin cfg0.N) (h : t.val % 2 = 0) :
    (outsAt0 V c t.val t.isLt).2 = (k0_pay4 (iblk0 V c 0 t) (iblk0 V c 1 t) k0_pay1, k0_pay5 (iblk0 V c 1 t) k0_pay2) := by
  rw [outsAt0_A V c t h]; unfold ptA; dsimp only
  rw [sout0_A_0_eq c (grid0.coords t) (ms0_0 t) (hs0_0 t) (ms0_1 t) (hs0_1 t) (ms0_2 t) (hs0_2 t) scM0_0 (Memref.isWhole_whole _) scM0_1 (Memref.isWhole_whole _) ((hcond0_0 t).mpr h) (fun h' => absurd ((hcond0_1 t).mp h') (by omega)) (iblk0 V c 0 t) (iblk0 V c 1 t),
    sout0_A_1_eq c (grid0.coords t) (ms0_0 t) (hs0_0 t) (ms0_1 t) (hs0_1 t) (ms0_2 t) (hs0_2 t) scM0_0 (Memref.isWhole_whole _) scM0_1 (Memref.isWhole_whole _) ((hcond0_0 t).mpr h) (fun h' => absurd ((hcond0_1 t).mp h') (by omega)) (iblk0 V c 0 t) (iblk0 V c 1 t)]

/-- After an odd point: the second half's contributions over what the even point before left. -/
theorem outsAt0_odd (c : Dev nD) (t : Fin cfg0.N) (h : t.val % 2 = 1) :
    (outsAt0 V c t.val t.isLt).2 = (k0_pay4 (iblk0 V c 0 t) (iblk0 V c 1 t) (outsAt0 V c (t.val - 1) (Nat.lt_of_le_of_lt (Nat.sub_le _ _) t.isLt)).2.1, k0_pay5 (iblk0 V c 1 t) (outsAt0 V c (t.val - 1) (Nat.lt_of_le_of_lt (Nat.sub_le _ _) t.isLt)).2.2) := by
  rw [outsAt0_B V c t h]; unfold ptB; dsimp only
  rw [sout0_B_0_eq c (grid0.coords t) (ms0_0 t) (hs0_0 t) (ms0_1 t) (hs0_1 t) (ms0_2 t) (hs0_2 t) scM0_0 (Memref.isWhole_whole _) scM0_1 (Memref.isWhole_whole _) (fun h' => absurd ((hcond0_0 t).mp h') (by omega)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    sout0_B_1_eq c (grid0.coords t) (ms0_0 t) (hs0_0 t) (ms0_1 t) (hs0_1 t) (ms0_2 t) (hs0_2 t) scM0_0 (Memref.isWhole_whole _) scM0_1 (Memref.isWhole_whole _) (fun h' => absurd ((hcond0_0 t).mp h') (by omega)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]

/-- After an odd point the output's staging buffer is the block of that point's accumulators. -/
theorem out0_odd (c : Dev nD) (t : Fin cfg0.N) (h : t.val % 2 = 1) :
    (outsAt0 V c t.val t.isLt).1 = outBlock (outsAt0 V c t.val t.isLt).2.1 (outsAt0 V c t.val t.isLt).2.2 := by
  rw [outsAt0_B V c t h]; unfold ptB; dsimp only
  rw [out0_B_2_eq c (grid0.coords t) (ms0_0 t) (hs0_0 t) (ms0_1 t) (hs0_1 t) (ms0_2 t) (hs0_2 t) scM0_0 (Memref.isWhole_whole _) scM0_1 (Memref.isWhole_whole _) (fun h' => absurd ((hcond0_0 t).mp h') (by omega)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    sout0_B_0_eq c (grid0.coords t) (ms0_0 t) (hs0_0 t) (ms0_1 t) (hs0_1 t) (ms0_2 t) (hs0_2 t) scM0_0 (Memref.isWhole_whole _) scM0_1 (Memref.isWhole_whole _) (fun h' => absurd ((hcond0_0 t).mp h') (by omega)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    sout0_B_1_eq c (grid0.coords t) (ms0_0 t) (hs0_0 t) (ms0_1 t) (hs0_1 t) (ms0_2 t) (hs0_2 t) scM0_0 (Memref.isWhole_whole _) scM0_1 (Memref.isWhole_whole _) (fun h' => absurd ((hcond0_0 t).mp h') (by omega)) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]

end Cert.KernelIdeal.R0

end
-- ==== Proof.KI.Pay.lean ====
/-
  What the two kernel bodies' payloads compute, index by index, over the extended reals, in the shared definitions:
  the statistics kernel's one-hot weights, its product of the coordinates with the weights (the clusters' sums), its
  lane sum of the weights (the clusters' counts); the hinge kernel's per-point hinge and its lane sum.
-/
import proofs.«417056_j24696061952722_1_alg».proof.Proof.Gen.KernelIdeal.Skeleton
import proofs.«417056_j24696061952722_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Pay

open Cert.KernelIdeal Cert.KernelIdeal.Gen
open Idealize.ShloMosaic Idealize.ShloMosaic.ValueIdx

/-! ## The one-hot weight of a label word -/

/-- The comparison of a label word with a cluster's number, widened and converted, is the point's weight in that cluster. -/
theorem oh_word (w : BitVec 32) (c : Fin 32) :
    FloatOps.sitofp (F := Ideal) .f32 ((IntOp.cmpi .eq w (BitVec.ofNat 32 c.val)).setWidth 32) = Cert.Spec.oh w c := by
  unfold Cert.Spec.oh
  by_cases h : w = BitVec.ofNat 32 c.val
  · rw [if_pos h, h]
    show (((BitVec.setWidth 32 (BitVec.ofBool (BitVec.ofNat 32 c.val == BitVec.ofNat 32 c.val))).toInt : ℝ) : EReal) = 1
    simp
  · rw [if_neg h]
    show (((BitVec.setWidth 32 (BitVec.ofBool (w == BitVec.ofNat 32 c.val))).toInt : ℝ) : EReal) = 0
    have : (w == BitVec.ofNat 32 c.val) = false := by simpa using h
    rw [this]
    simp

/-- The same with the cluster's number on the left of the comparison. -/
theorem oh_word' (w : BitVec 32) (c : Fin 32) :
    FloatOps.sitofp (F := Ideal) .f32 ((IntOp.cmpi .eq (BitVec.ofNat 32 c.val) w).setWidth 32) = Cert.Spec.oh w c := by
  rw [← oh_word]
  have : IntOp.cmpi .eq (BitVec.ofNat 32 c.val) w = IntOp.cmpi .eq w (BitVec.ofNat 32 c.val) := by
    show BitVec.ofBool (BitVec.ofNat 32 c.val == w) = BitVec.ofBool (w == BitVec.ofNat 32 c.val)
    rw [Bool.beq_comm]
  rw [this]

/-! ## The labels' block read through its layout operations -/

/-- The labels' block viewed as a column and broadcast along the clusters reads, at (point, cluster), the point's label. -/
theorem lab_col (l : Vec Ideal S1x1x131072 .i32) (k : Fin 131072) (c : Fin 32) :
    broadcastTo S131072x32 (shapeCast S131072x1 (shapeCast S131072 l shapeCasts_S1x1x131072_S131072) shapeCasts_S131072_S131072x1)
      broadcasts_S131072x1_S131072x32 (ix2 k c) = l (ix3 (0 : Fin 1) (0 : Fin 1) k) := by
  refine (broadcastTo_apply _ _ (ix2 k c) (ix2 k (0 : Fin 1)) fun a => ?_).trans ?_
  · match a with
    | ⟨0, _⟩ => rfl
    | ⟨1, _⟩ => rfl
  refine (shapeCast_apply _ _ (ix2 k (0 : Fin 1)) (ix1 k) ?_).trans ?_
  · rw [Shape.rowMajor_val_two, Shape.rowMajor_val_one]
    show k.val = k.val * 1 + 0
    omega
  refine shapeCast_apply _ _ (ix1 k) (ix3 (0 : Fin 1) (0 : Fin 1) k) ?_
  rw [Shape.rowMajor_val_three, Shape.rowMajor_val_one]
  show (0 * 1 + 0) * 131072 + k.val = k.val
  omega

/-- The labels' block viewed as a row and broadcast along the clusters reads, at (cluster, point), the point's label. -/
theorem lab_row (l : Vec Ideal S1x1x131072 .i32) (c : Fin 32) (k : Fin 131072) :
    broadcastTo S32x131072 (shapeCast S1x131072 (shapeCast S131072 l shapeCasts_S1x1x131072_S131072) shapeCasts_S131072_S1x131072)
      broadcasts_S1x131072_S32x131072 (ix2 c k) = l (ix3 (0 : Fin 1) (0 : Fin 1) k) := by
  refine (broadcastTo_apply _ _ (ix2 c k) (ix2 (0 : Fin 1) k) fun a => ?_).trans ?_
  · match a with
    | ⟨0, _⟩ => rfl
    | ⟨1, _⟩ => rfl
  refine (shapeCast_apply _ _ (ix2 (0 : Fin 1) k) (ix1 k) ?_).trans ?_
  · rw [Shape.rowMajor_val_two, Shape.rowMajor_val_one]
    show k.val = 0 * 131072 + k.val
    omega
  refine shapeCast_apply _ _ (ix1 k) (ix3 (0 : Fin 1) (0 : Fin 1) k) ?_
  rw [Shape.rowMajor_val_three, Shape.rowMajor_val_one]
  show (0 * 1 + 0) * 131072 + k.val = k.val
  omega

/-! ## The statistics kernel -/

/-- The weights: at (point, cluster), the point's weight in the cluster. -/
theorem pay3_apply (l : Vec Ideal S1x1x131072 .i32) (k : Fin 131072) (c : Fin 32) :
    k0_pay3 (F := Ideal) l (ix2 k c) = Cert.Spec.oh (l (ix3 (0 : Fin 1) (0 : Fin 1) k)) c := by
  unfold k0_pay3
  refine Eq.trans ?_ (oh_word (l (ix3 (0 : Fin 1) (0 : Fin 1) k)) c)
  show FloatOps.sitofp (F := Ideal) .f32 ((IntOp.cmpi .eq (broadcastTo S131072x32 (shapeCast S131072x1 (shapeCast S131072 l shapeCasts_S1x1x131072_S131072) shapeCasts_S131072_S131072x1)
      broadcasts_S131072x1_S131072x32 (ix2 k c)) (iota .tc S131072x32 32 [1] iota_S131072x32_d1_w32 (ix2 k c))).setWidth 32) = _
  rw [lab_col, iota_single_apply]

/-! ### The product of the coordinates with the weights -/

/- The product's operand indices at an output index and a contraction index, axis by axis: the left operand's are
   (output row, contraction coordinate), the right operand's (contraction coordinate, output column). -/
theorem lhs_S8x32_0 (i : S8x32.Idx) (q : dot_S8x131072_S131072x32_S8x32_1_0_0_1_n_n.contr.Idx) :
    (dot_S8x131072_S131072x32_S8x32_1_0_0_1_n_n.lhsIdx i q 0).val = (i 0).val := by
  unfold DotDims.lhsIdx
  rw [dif_neg (show ¬(0 : Fin S8x131072.rank) ∈ dot_S8x131072_S131072x32_S8x32_1_0_0_1_n_n.lhsBatch by decide),
    dif_pos (show (0 : Fin S8x131072.rank) ∈ dot_S8x131072_S131072x32_S8x32_1_0_0_1_n_n.lhsNonContracting by decide)]
  rfl
theorem lhs_S8x32_1 (i : S8x32.Idx) (q : dot_S8x131072_S131072x32_S8x32_1_0_0_1_n_n.contr.Idx) :
    (dot_S8x131072_S131072x32_S8x32_1_0_0_1_n_n.lhsIdx i q 1).val = (q ⟨0, by decide⟩).val :=
  dot_S8x131072_S131072x32_S8x32_1_0_0_1_n_n.lhsIdx_val_of_single rfl i q
theorem rhs_S8x32_0 (i : S8x32.Idx) (q : dot_S8x131072_S131072x32_S8x32_1_0_0_1_n_n.contr.Idx) :
    (dot_S8x131072_S131072x32_S8x32_1_0_0_1_n_n.rhsIdx i q 0).val = (q ⟨0, by decide⟩).val :=
  dot_S8x131072_S131072x32_S8x32_1_0_0_1_n_n.rhsIdx_val_of_single rfl i q
theorem rhs_S8x32_1 (i : S8x32.Idx) (q : dot_S8x131072_S131072x32_S8x32_1_0_0_1_n_n.contr.Idx) :
    (dot_S8x131072_S131072x32_S8x32_1_0_0_1_n_n.rhsIdx i q 1).val = (i 1).val := by
  unfold DotDims.rhsIdx
  rw [dif_neg (show ¬(1 : Fin S131072x32.rank) ∈ dot_S8x131072_S131072x32_S8x32_1_0_0_1_n_n.rhsBatch by decide),
    dif_pos (show (1 : Fin S131072x32.rank) ∈ dot_S8x131072_S131072x32_S8x32_1_0_0_1_n_n.rhsNonContracting by decide)]
  rfl

/-- The coordinates' block with its unit axis dropped reads, at (coordinate, point), the block there. -/
theorem x_flat (x : Vec Ideal S1x8x131072 .f32) (d : Fin 8) (k : Fin 131072) :
    shapeCast S8x131072 x shapeCasts_S1x8x131072_S8x131072 (ix2 d k) = x (ix3 (0 : Fin 1) d k) :=
  shapeCast_1ab_ab_apply x _ d k

/-- The product into the zero accumulator: at (coordinate, cluster), the coordinate summed over the points with
    their weights in the cluster. -/
theorem dotA_apply (x : Vec Ideal S1x8x131072 .f32) (l : Vec Ideal S1x1x131072 .i32) (d : Fin 8) (c : Fin 32) :
    matmul (F := Ideal) dot_S8x131072_S131072x32_S8x32_1_0_0_1_n_n none
        (truncf .bf16 (shapeCast S8x131072 x shapeCasts_S1x8x131072_S8x131072) bitsLt_bf16_f32)
        (truncf .bf16 (k0_pay3 (F := Ideal) l) bitsLt_bf16_f32) (constant S8x32 .f32 0x00000000#32) (ix2 d c)
      = ∑ k : Fin 131072, x (ix3 (0 : Fin 1) d k) * Cert.Spec.oh (l (ix3 (0 : Fin 1) (0 : Fin 1) k)) c := by
  refine (Ideal.matmul_constant_zero_apply _ none _ _ (ix2 d c)).trans ?_
  rw [← Equiv.sum_comp (contrEquiv1 dot_S8x131072_S131072x32_S8x32_1_0_0_1_n_n 131072 rfl rfl).symm]
  refine Finset.sum_congr rfl fun k _ => ?_
  have hk := contrEquiv1_symm_val dot_S8x131072_S131072x32_S8x32_1_0_0_1_n_n 131072 rfl rfl k
  have el : dot_S8x131072_S131072x32_S8x32_1_0_0_1_n_n.lhsIdx (ix2 d c)
      ((contrEquiv1 dot_S8x131072_S131072x32_S8x32_1_0_0_1_n_n 131072 rfl rfl).symm k) = ix2 d k := funext fun a => Fin.ext (by
    match a with
    | ⟨0, _⟩ => exact lhs_S8x32_0 _ _
    | ⟨1, _⟩ => exact (lhs_S8x32_1 _ _).trans hk)
  have er : dot_S8x131072_S131072x32_S8x32_1_0_0_1_n_n.rhsIdx (ix2 d c)
      ((contrEquiv1 dot_S8x131072_S131072x32_S8x32_1_0_0_1_n_n 131072 rfl rfl).symm k) = ix2 k c := funext fun a => Fin.ext (by
    match a with
    | ⟨0, _⟩ => exact (rhs_S8x32_0 _ _).trans hk
    | ⟨1, _⟩ => exact rhs_S8x32_1 _ _)
  rw [el, er]
  show shapeCast S8x131072 x shapeCasts_S1x8x131072_S8x131072 (ix2 d k) * k0_pay3 (F := Ideal) l (ix2 k c) = _
  rw [x_flat, pay3_apply]

/-- The sums' accumulator after a step: what it held plus the step's points' coordinates weighted by cluster. -/
theorem pay4_apply (x : Vec Ideal S1x8x131072 .f32) (l : Vec Ideal S1x1x131072 .i32) (acc : Vec Ideal S8x32 .f32) (d : Fin 8) (c : Fin 32) :
    k0_pay4 (F := Ideal) x l acc (ix2 d c)
      = acc (ix2 d c) + ∑ k : Fin 131072, x (ix3 (0 : Fin 1) d k) * Cert.Spec.oh (l (ix3 (0 : Fin 1) (0 : Fin 1) k)) c := by
  unfold k0_pay4
  refine (congrFun (shapeCast_self _ shapeCasts_S8x32_S8x32) (ix2 d c)).trans ?_
  exact congrArg (acc (ix2 d c) + ·) (dotA_apply x l d c)

/-! ### The lane sum of the weights -/

/-- The counts' accumulator after a step: what it held plus the number of the step's points in each cluster. -/
theorem pay5_apply (l : Vec Ideal S1x1x131072 .i32) (acc : Vec Ideal S1x32 .f32) (c : Fin 32) :
    k0_pay5 (F := Ideal) l acc (ix2 (0 : Fin 1) c)
      = acc (ix2 (0 : Fin 1) c) + ∑ k : Fin 131072, Cert.Spec.oh (l (ix3 (0 : Fin 1) (0 : Fin 1) k)) c := by
  unfold k0_pay5
  refine (congrFun (shapeCast_self _ shapeCasts_S1x32_S1x32) (ix2 (0 : Fin 1) c)).trans ?_
  refine congrArg (acc (ix2 (0 : Fin 1) c) + ·) ?_
  refine (shapeCast_a_1a_apply _ shapeCasts_S32_S1x32 (0 : Fin 1) c).trans ?_
  refine (Ideal.multiReduction_add_single (k0_pay3 (F := Ideal) l) _ reduces_S131072x32_S32 _ _ (ix1 c)).trans ?_
  show ∑ k : Fin 131072, k0_pay3 (F := Ideal) l (reduces_S131072x32_S32.lift (ix1 c) k) = _
  refine Finset.sum_congr rfl fun k _ => ?_
  have e : reduces_S131072x32_S32.lift (ix1 c) k = ix2 k c := funext fun a => Fin.ext (by
    match a with
    | ⟨0, _⟩ => rfl
    | ⟨1, _⟩ => rfl)
  rw [e]
  exact pay3_apply l k c

/-! ### The cleared accumulators and the output block's rows -/

/-- The sums' accumulator is cleared to zero. -/
theorem pay1_zero (d : Fin 8) (c : Fin 32) : k0_pay1 (F := Ideal) (ix2 d c) = 0 := by
  unfold k0_pay1
  refine (congrFun (shapeCast_self _ shapeCasts_S8x32_S8x32) (ix2 d c)).trans ?_
  exact Ideal.ofBits_zero_f32

/-- The counts' accumulator is cleared to zero. -/
theorem pay2_zero (c : Fin 32) : k0_pay2 (F := Ideal) (ix2 (0 : Fin 1) c) = 0 := by
  unfold k0_pay2
  refine (congrFun (shapeCast_self _ shapeCasts_S1x32_S1x32) (ix2 (0 : Fin 1) c)).trans ?_
  exact Ideal.ofBits_zero_f32

/-- The sums go to the output block's first eight rows as they are. -/
theorem pay6_apply (v : Vec Ideal S8x32 .f32) (d : Fin 8) (c : Fin 32) :
    k0_pay6 (F := Ideal) v (ix3 (0 : Fin 1) d c) = v (ix2 d c) := by
  unfold k0_pay6
  exact shapeCast_ab_1ab_apply v shapeCasts_S8x32_S1x8x32 (0 : Fin 1) d c

/-- The counts go to the output block's last row as they are. -/
theorem pay7_apply (v : Vec Ideal S1x32 .f32) (c : Fin 32) :
    k0_pay7 (F := Ideal) v (ix3 (0 : Fin 1) (0 : Fin 1) c) = v (ix2 (0 : Fin 1) c) := by
  unfold k0_pay7
  exact shapeCast_ab_1ab_apply v shapeCasts_S1x32_S1x1x32 (0 : Fin 1) (0 : Fin 1) c

/-! ## The hinge kernel -/

/-- The hinges' accumulator is cleared to zero. -/
theorem k1pay3_zero : k1_pay3 (F := Ideal) (ix2 (0 : Fin 1) (0 : Fin 1)) = 0 := by
  unfold k1_pay3
  refine (congrFun (shapeCast_self _ shapeCasts_S1x1_S1x1) (ix2 (0 : Fin 1) (0 : Fin 1))).trans ?_
  exact Ideal.ofBits_zero_f32

/-- The hinges' sum goes to the output block as it is. -/
theorem k1pay2_apply (v : Vec Ideal S1x1 .f32) :
    k1_pay2 (F := Ideal) v (ix3 (0 : Fin 1) (0 : Fin 1) (0 : Fin 1)) = v (ix2 (0 : Fin 1) (0 : Fin 1)) := by
  unfold k1_pay2
  exact shapeCast_ab_1ab_apply v shapeCasts_S1x1_S1x1x1 (0 : Fin 1) (0 : Fin 1) (0 : Fin 1)

/-- The element a rank-2 unit vector's extraction at (0, 0) reads. -/
theorem extractAt_00 {α : Type} (v : S1x1.Idx → α) : extractAt ![0, 0] v inpos_S1x1_p0_0 = v (ix2 (0 : Fin 1) (0 : Fin 1)) := by
  unfold extractAt
  exact congrArg v (funext fun a => Fin.ext (by
    match a with
    | ⟨0, _⟩ => rfl
    | ⟨1, _⟩ => rfl))

/-- The lane sum of a row of hinges, viewed as a 1 × 1 block. -/
theorem rowsum_apply (h : Vec Ideal S131072 .f32) :
    shapeCast S1x1 (multiReduction (F := Ideal) .add [1] S1 (shapeCast S1x131072 h shapeCasts_S131072_S1x131072) 0x00000000#32
      reduces_S1x131072_S1 (.inl rfl) rfl) shapeCasts_S1_S1x1 (ix2 (0 : Fin 1) (0 : Fin 1)) = ∑ k : Fin 131072, h (ix1 k) := by
  refine (shapeCast_a_1a_apply _ shapeCasts_S1_S1x1 (0 : Fin 1) (0 : Fin 1)).trans ?_
  refine (Ideal.multiReduction_add_single (shapeCast S1x131072 h shapeCasts_S131072_S1x131072) _ reduces_S1x131072_S1 _ _ (ix1 (0 : Fin 1))).trans ?_
  show ∑ k : Fin 131072, shapeCast S1x131072 h shapeCasts_S131072_S1x131072 (reduces_S1x131072_S1.lift (ix1 (0 : Fin 1)) k) = _
  refine Finset.sum_congr rfl fun k _ => ?_
  have e : reduces_S1x131072_S1.lift (ix1 (0 : Fin 1)) k = ix2 (0 : Fin 1) k := funext fun a => Fin.ext (by
    match a with
    | ⟨0, _⟩ => rfl
    | ⟨1, _⟩ => rfl)
  rw [e]
  exact shapeCast_a_1a_apply h shapeCasts_S131072_S1x131072 (0 : Fin 1) k

/-- The hinges' accumulator after a step: what it held plus the step's points' hinges. -/
theorem k1pay1_apply (h : Vec Ideal S131072 .f32) (s : Vec Ideal S1x1 .f32) :
    k1_pay1 (F := Ideal) h s (ix2 (0 : Fin 1) (0 : Fin 1)) = s (ix2 (0 : Fin 1) (0 : Fin 1)) + ∑ k : Fin 131072, h (ix1 k) := by
  unfold k1_pay1
  refine (congrFun (shapeCast_self _ shapeCasts_S1x1_S1x1) (ix2 (0 : Fin 1) (0 : Fin 1))).trans ?_
  refine congrArg (s (ix2 (0 : Fin 1) (0 : Fin 1)) + ·) ?_
  refine Eq.trans ?_ (rowsum_apply h)
  exact extractAt_00 _

/-! ### The points' hinges -/

/- The second product's operand indices, axis by axis: the left operand's are (output row, contraction coordinate),
   the right operand's (contraction coordinate, output column). -/
theorem lhs_S8x131072_0 (i : S8x131072.Idx) (q : dot_S8x32_S32x131072_S8x131072_1_0_0_1_n_n.contr.Idx) :
    (dot_S8x32_S32x131072_S8x131072_1_0_0_1_n_n.lhsIdx i q 0).val = (i 0).val := by
  unfold DotDims.lhsIdx
  rw [dif_neg (show ¬(0 : Fin S8x32.rank) ∈ dot_S8x32_S32x131072_S8x131072_1_0_0_1_n_n.lhsBatch by decide),
    dif_pos (show (0 : Fin S8x32.rank) ∈ dot_S8x32_S32x131072_S8x131072_1_0_0_1_n_n.lhsNonContracting by decide)]
  rfl
theorem lhs_S8x131072_1 (i : S8x131072.Idx) (q : dot_S8x32_S32x131072_S8x131072_1_0_0_1_n_n.contr.Idx) :
    (dot_S8x32_S32x131072_S8x131072_1_0_0_1_n_n.lhsIdx i q 1).val = (q ⟨0, by decide⟩).val :=
  dot_S8x32_S32x131072_S8x131072_1_0_0_1_n_n.lhsIdx_val_of_single rfl i q
theorem rhs_S8x131072_0 (i : S8x131072.Idx) (q : dot_S8x32_S32x131072_S8x131072_1_0_0_1_n_n.contr.Idx) :
    (dot_S8x32_S32x131072_S8x131072_1_0_0_1_n_n.rhsIdx i q 0).val = (q ⟨0, by decide⟩).val :=
  dot_S8x32_S32x131072_S8x131072_1_0_0_1_n_n.rhsIdx_val_of_single rfl i q
theorem rhs_S8x131072_1 (i : S8x131072.Idx) (q : dot_S8x32_S32x131072_S8x131072_1_0_0_1_n_n.contr.Idx) :
    (dot_S8x32_S32x131072_S8x131072_1_0_0_1_n_n.rhsIdx i q 1).val = (i 1).val := by
  unfold DotDims.rhsIdx
  rw [dif_neg (show ¬(1 : Fin S32x131072.rank) ∈ dot_S8x32_S32x131072_S8x131072_1_0_0_1_n_n.rhsBatch by decide),
    dif_pos (show (1 : Fin S32x131072.rank) ∈ dot_S8x32_S32x131072_S8x131072_1_0_0_1_n_n.rhsNonContracting by decide)]
  rfl

/-- The weights laid out cluster by point. -/
def ohT (l : Vec Ideal S1x1x131072 .i32) : FVec Ideal S32x131072 .f32 :=
  sitofp .f32 (extui 32 (cmpi .eq (iota .tc S32x131072 32 [0] iota_S32x131072_d0_w32)
    (broadcastTo S32x131072 (shapeCast S1x131072 (shapeCast S131072 l shapeCasts_S1x1x131072_S131072) shapeCasts_S131072_S1x131072)
      broadcasts_S1x131072_S32x131072)) natLt_1_32)

/-- At (cluster, point), the point's weight in the cluster. -/
theorem ohT_apply (l : Vec Ideal S1x1x131072 .i32) (c : Fin 32) (k : Fin 131072) :
    ohT l (ix2 c k) = Cert.Spec.oh (l (ix3 (0 : Fin 1) (0 : Fin 1) k)) c := by
  refine Eq.trans ?_ (oh_word' (l (ix3 (0 : Fin 1) (0 : Fin 1) k)) c)
  show FloatOps.sitofp (F := Ideal) .f32 ((IntOp.cmpi .eq (iota .tc S32x131072 32 [0] iota_S32x131072_d0_w32 (ix2 c k))
      (broadcastTo S32x131072 (shapeCast S1x131072 (shapeCast S131072 l shapeCasts_S1x1x131072_S131072) shapeCasts_S131072_S1x131072)
        broadcasts_S1x131072_S32x131072 (ix2 c k))).setWidth 32) = _
  rw [lab_row, iota_single_apply]

/-- The means' block with its unit axis dropped reads, at (coordinate, cluster), the block there. -/
theorem m_flat (m : Vec Ideal S1x8x32 .f32) (d : Fin 8) (c : Fin 32) :
    shapeCast S8x32 m shapeCasts_S1x8x32_S8x32 (ix2 d c) = m (ix3 (0 : Fin 1) d c) :=
  shapeCast_1ab_ab_apply m _ d c

/-- The product of the means with the weights, into the zero accumulator: at (coordinate, point), the means weighted
    over the clusters by the point's weights, which is the point's own center. -/
theorem dotB_apply (l : Vec Ideal S1x1x131072 .i32) (m : Vec Ideal S1x8x32 .f32) (d : Fin 8) (k : Fin 131072) :
    matmul (F := Ideal) dot_S8x32_S32x131072_S8x131072_1_0_0_1_n_n none
        (truncf .bf16 (shapeCast S8x32 m shapeCasts_S1x8x32_S8x32) bitsLt_bf16_f32)
        (truncf .bf16 (ohT l) bitsLt_bf16_f32) (constant S8x131072 .f32 0x00000000#32) (ix2 d k)
      = ∑ c : Fin 32, m (ix3 (0 : Fin 1) d c) * Cert.Spec.oh (l (ix3 (0 : Fin 1) (0 : Fin 1) k)) c := by
  refine (Ideal.matmul_constant_zero_apply _ none _ _ (ix2 d k)).trans ?_
  rw [← Equiv.sum_comp (contrEquiv1 dot_S8x32_S32x131072_S8x131072_1_0_0_1_n_n 32 rfl rfl).symm]
  refine Finset.sum_congr rfl fun c _ => ?_
  have hc := contrEquiv1_symm_val dot_S8x32_S32x131072_S8x131072_1_0_0_1_n_n 32 rfl rfl c
  have el : dot_S8x32_S32x131072_S8x131072_1_0_0_1_n_n.lhsIdx (ix2 d k)
      ((contrEquiv1 dot_S8x32_S32x131072_S8x131072_1_0_0_1_n_n 32 rfl rfl).symm c) = ix2 d c := funext fun a => Fin.ext (by
    match a with
    | ⟨0, _⟩ => exact lhs_S8x131072_0 _ _
    | ⟨1, _⟩ => exact (lhs_S8x131072_1 _ _).trans hc)
  have er : dot_S8x32_S32x131072_S8x131072_1_0_0_1_n_n.rhsIdx (ix2 d k)
      ((contrEquiv1 dot_S8x32_S32x131072_S8x131072_1_0_0_1_n_n 32 rfl rfl).symm c) = ix2 c k := funext fun a => Fin.ext (by
    match a with
    | ⟨0, _⟩ => exact (rhs_S8x131072_0 _ _).trans hc
    | ⟨1, _⟩ => exact rhs_S8x131072_1 _ _)
  rw [el, er]
  show shapeCast S8x32 m shapeCasts_S1x8x32_S8x32 (ix2 d c) * ohT l (ix2 c k) = _
  rw [m_flat, ohT_apply]

/-- The points' squared distances to their own centers. -/
def sqv (x : Vec Ideal S1x8x131072 .f32) (l : Vec Ideal S1x1x131072 .i32) (m : Vec Ideal S1x8x32 .f32) : FVec Ideal S131072 .f32 :=
  multiReduction .add [0] S131072
    (mulf
      (subf (shapeCast S8x131072 x shapeCasts_S1x8x131072_S8x131072)
        (matmul dot_S8x32_S32x131072_S8x131072_1_0_0_1_n_n none (truncf .bf16 (shapeCast S8x32 m shapeCasts_S1x8x32_S8x32) bitsLt_bf16_f32)
          (truncf .bf16 (ohT l) bitsLt_bf16_f32) (constant S8x131072 .f32 0x00000000#32)))
      (subf (shapeCast S8x131072 x shapeCasts_S1x8x131072_S8x131072)
        (matmul dot_S8x32_S32x131072_S8x131072_1_0_0_1_n_n none (truncf .bf16 (shapeCast S8x32 m shapeCasts_S1x8x32_S8x32) bitsLt_bf16_f32)
          (truncf .bf16 (ohT l) bitsLt_bf16_f32) (constant S8x131072 .f32 0x00000000#32))))
    0x00000000#32 reduces_S8x131072_S131072 (.inl rfl) rfl

/-- At a point: the squares, summed over the coordinates, of the coordinate less the own center's. -/
theorem sqv_apply (x : Vec Ideal S1x8x131072 .f32) (l : Vec Ideal S1x1x131072 .i32) (m : Vec Ideal S1x8x32 .f32) (k : Fin 131072) :
    sqv x l m (ix1 k) = ∑ d : Fin 8, (x (ix3 (0 : Fin 1) d k) - ∑ c : Fin 32, m (ix3 (0 : Fin 1) d c) * Cert.Spec.oh (l (ix3 (0 : Fin 1) (0 : Fin 1) k)) c)
      * (x (ix3 (0 : Fin 1) d k) - ∑ c : Fin 32, m (ix3 (0 : Fin 1) d c) * Cert.Spec.oh (l (ix3 (0 : Fin 1) (0 : Fin 1) k)) c) := by
  unfold sqv
  refine (Ideal.multiReduction_add_single _ _ reduces_S8x131072_S131072 _ _ (ix1 k)).trans ?_
  show ∑ d : Fin 8, _ = _
  refine Finset.sum_congr rfl fun d _ => ?_
  have e : reduces_S8x131072_S131072.lift (ix1 k) d = ix2 d k := funext fun a => Fin.ext (by
    match a with
    | ⟨0, _⟩ => rfl
    | ⟨1, _⟩ => rfl)
  rw [e]
  show (shapeCast S8x131072 x shapeCasts_S1x8x131072_S8x131072 (ix2 d k) - matmul (F := Ideal) dot_S8x32_S32x131072_S8x131072_1_0_0_1_n_n none
        (truncf .bf16 (shapeCast S8x32 m shapeCasts_S1x8x32_S8x32) bitsLt_bf16_f32)
        (truncf .bf16 (ohT l) bitsLt_bf16_f32) (constant S8x131072 .f32 0x00000000#32) (ix2 d k))
      * (shapeCast S8x131072 x shapeCasts_S1x8x131072_S8x131072 (ix2 d k) - matmul (F := Ideal) dot_S8x32_S32x131072_S8x131072_1_0_0_1_n_n none
        (truncf .bf16 (shapeCast S8x32 m shapeCasts_S1x8x32_S8x32) bitsLt_bf16_f32)
        (truncf .bf16 (ohT l) bitsLt_bf16_f32) (constant S8x131072 .f32 0x00000000#32) (ix2 d k)) = _
  rw [x_flat, dotB_apply]

/-- The hinge as the kernel computes it from a squared distance. -/
def hingeS (s : Ideal .f32) : Ideal .f32 :=
  FloatOps.mulf
    (FloatOps.maximumf
      (FloatOps.subf
        (FloatOps.mulf
          (FloatOps.sqrt (Scalar.select (FloatOps.cmpf .ogt s (Scalar.ofBits .f32 0x00000000#32)) s (Scalar.ofBits .f32 0x3F800000#32)))
          (FloatOps.sitofp .f32 ((FloatOps.cmpf .ogt s (Scalar.ofBits .f32 0x00000000#32)).setWidth 32)))
        (Scalar.ofBits .f32 0x3F800000#32))
      (Scalar.ofBits .f32 0x00000000#32))
    (FloatOps.maximumf
      (FloatOps.subf
        (FloatOps.mulf
          (FloatOps.sqrt (Scalar.select (FloatOps.cmpf .ogt s (Scalar.ofBits .f32 0x00000000#32)) s (Scalar.ofBits .f32 0x3F800000#32)))
          (FloatOps.sitofp .f32 ((FloatOps.cmpf .ogt s (Scalar.ofBits .f32 0x00000000#32)).setWidth 32)))
        (Scalar.ofBits .f32 0x3F800000#32))
      (Scalar.ofBits .f32 0x00000000#32))

/-- It is the shared hinge. -/
theorem hingeS_eq (s : Ideal .f32) : hingeS s = Cert.Spec.hinge s := by
  unfold hingeS Cert.Spec.hinge
  have hz : Scalar.ofBits (F := Ideal) .f32 0x00000000#32 = (0 : EReal) := Ideal.ofBits_zero_f32
  have ho : Scalar.ofBits (F := Ideal) .f32 0x3F800000#32 = Cert.Spec.one := rfl
  rw [hz, ho]
  by_cases h : (0 : EReal) < s
  · have hc : FloatOps.cmpf (F := Ideal) (φ := .f32) .ogt s (0 : EReal) = 1#1 := by
      show BitVec.ofBool (decide ((0 : EReal) < s)) = 1#1
      rw [decide_eq_true h]; rfl
    have h1 : FloatOps.sitofp (F := Ideal) .f32 ((1#1 : BitVec 1).setWidth 32) = (1 : EReal) := by
      show (((BitVec.setWidth 32 1#1).toInt : ℝ) : EReal) = 1
      simp
    rw [hc, if_pos h, if_pos h, select_one, h1]
    rfl
  · have hc : FloatOps.cmpf (F := Ideal) (φ := .f32) .ogt s (0 : EReal) = 0#1 := by
      show BitVec.ofBool (decide ((0 : EReal) < s)) = 0#1
      rw [decide_eq_false h]; rfl
    have h0 : FloatOps.sitofp (F := Ideal) .f32 ((0#1 : BitVec 1).setWidth 32) = (0 : EReal) := by
      show (((BitVec.setWidth 32 0#1).toInt : ℝ) : EReal) = 0
      simp
    rw [hc, if_neg h, if_neg h, select_zero, h0]
    rfl

/-- The hinge payload at a point is the kernel's hinge of the point's squared distance. -/
theorem k1pay4_eq (x : Vec Ideal S1x8x131072 .f32) (l : Vec Ideal S1x1x131072 .i32) (m : Vec Ideal S1x8x32 .f32) (k : Fin 131072) :
    k1_pay4 (F := Ideal) x l m (ix1 k) = hingeS (sqv x l m (ix1 k)) := by
  unfold k1_pay4 hingeS sqv ohT
  rfl

/-- The hinge payload at a point: the shared hinge of the point's squared distance to its own center. -/
theorem k1pay4_apply (x : Vec Ideal S1x8x131072 .f32) (l : Vec Ideal S1x1x131072 .i32) (m : Vec Ideal S1x8x32 .f32) (k : Fin 131072) :
    k1_pay4 (F := Ideal) x l m (ix1 k)
      = Cert.Spec.hinge (∑ d : Fin 8, (x (ix3 (0 : Fin 1) d k) - ∑ c : Fin 32, m (ix3 (0 : Fin 1) d c) * Cert.Spec.oh (l (ix3 (0 : Fin 1) (0 : Fin 1) k)) c)
        * (x (ix3 (0 : Fin 1) d k) - ∑ c : Fin 32, m (ix3 (0 : Fin 1) d c) * Cert.Spec.oh (l (ix3 (0 : Fin 1) (0 : Fin 1) k)) c)) := by
  rw [k1pay4_eq, hingeS_eq, sqv_apply]

end Cert.KernelIdeal.Pay

end
-- ==== Proof.KI.Blocks.lean ====
/-
  Which array element each element of a staged block is, and which array indices an output block covers. Both kernel
  regions run on a 16 × 2 grid in row-major order: point `t` treats batch `t / 2`, half `t % 2`. A window's block at a
  point starts, on each axis, at its block index there times the block's extent on the axis. So the coordinates' block
  at point `t` is the batch's 8 coordinates of the half's 131072 points, the labels' block the half's labels, the means'
  block the batch's 8 × 32 means; and an output block is the batch's whole slab of the result.
-/
import proofs.«417056_j24696061952722_1_alg».proof.Proof.KI.Region0
import proofs.«417056_j24696061952722_1_alg».proof.Proof.KI.Region1
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.R0 Cert.KernelIdeal.R1
open Idealize.ShloMosaic Idealize.ShloMosaic.TcCoe Idealize.ShloMosaic.ValueIdx

variable {F : FTy → Type} [FloatOps F]

-- the core's buffer contents when a region is entered
variable (V : (c : Dev nD) → (b : Ref sig .tc) → Buf (Elt F) ((c : Thread nD τ).loc b))

/-! ## The grids' points and the windows' block indices -/

/-- The first region's grid has 32 points. -/
theorem lt0 (t : Fin cfg0.N) : t.val < 32 := lt_of_lt_of_eq t.isLt N_0
/-- The second region's grid has 32 points. -/
theorem lt1 (t : Fin cfg1.N) : t.val < 32 := lt_of_lt_of_eq t.isLt N_1

/-- The first region's block indices at point `t`: batch `t / 2`, half `t % 2` for the two inputs; batch `t / 2` for
    the output. -/
theorem idx0 : ∀ t : Fin cfg0.N,
    (win0_0.index t (0 : Fin 3) = t.val / 2 ∧ win0_0.index t (1 : Fin 3) = 0 ∧ win0_0.index t (2 : Fin 3) = t.val % 2)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = 0 ∧ win0_2.index t (2 : Fin 3) = 0) :=
  (by decide +kernel : ∀ t : Fin grid0.N, _)

/-- The second region's block indices at point `t`: as the first's for the two inputs; batch `t / 2` for the means and
    for the output. -/
theorem idx1 : ∀ t : Fin cfg1.N,
    (win1_0.index t (0 : Fin 3) = t.val / 2 ∧ win1_0.index t (1 : Fin 3) = 0 ∧ win1_0.index t (2 : Fin 3) = t.val % 2)
    ∧ (win1_1.index t (0 : Fin 3) = t.val / 2 ∧ win1_1.index t (1 : Fin 3) = 0 ∧ win1_1.index t (2 : Fin 3) = t.val % 2)
    ∧ (win1_2.index t (0 : Fin 3) = t.val / 2 ∧ win1_2.index t (1 : Fin 3) = 0 ∧ win1_2.index t (2 : Fin 3) = 0)
    ∧ (win1_3.index t (0 : Fin 3) = t.val / 2 ∧ win1_3.index t (1 : Fin 3) = 0 ∧ win1_3.index t (2 : Fin 3) = 0) :=
  (by decide +kernel : ∀ t : Fin grid1.N, _)

/-! ## The first region's input blocks -/

/-- The coordinates' block at point `t`: coordinate `d` of point `(t % 2) · 131072 + k` of batch `t / 2`. -/
theorem iblk0_x (c : Dev nD) (t : Fin cfg0.N) (d : Fin 8) (k : Fin 131072) :
    (iblk0 V c 0 t : S1x8x131072.Idx → Elt F .f32) (ix3 0 d k)
      = (V c main_v0 : S16x8x262144.Idx → Elt F .f32)
          (ix3 ⟨t.val / 2, by have := lt0 t; omega⟩ d ⟨(t.val % 2) * 131072 + k.val, by have := k.isLt; omega⟩) := by
  obtain ⟨⟨e0, e1, e2⟩, -, -⟩ := idx0 t
  unfold iblk0
  rw [View.read_apply]
  show V c main_v0 _ = V c main_v0 _
  congr 1
  funext a
  apply Fin.ext
  match a with
  | ⟨0, _⟩ => show win0_0.index t (0 : Fin 3) * 1 + 1 * 0 = t.val / 2; omega
  | ⟨1, _⟩ => show win0_0.index t (1 : Fin 3) * 8 + 1 * d.val = d.val; omega
  | ⟨2, _⟩ => show win0_0.index t (2 : Fin 3) * 131072 + 1 * k.val = t.val % 2 * 131072 + k.val; omega

/-- The labels' block at point `t`: the label of point `(t % 2) · 131072 + k` of batch `t / 2`. -/
theorem iblk0_l (c : Dev nD) (t : Fin cfg0.N) (k : Fin 131072) :
    (iblk0 V c 1 t : S1x1x131072.Idx → Elt F .i32) (ix3 0 0 k)
      = (V c main_v2 : S16x1x262144.Idx → Elt F .i32)
          (ix3 ⟨t.val / 2, by have := lt0 t; omega⟩ 0 ⟨(t.val % 2) * 131072 + k.val, by have := k.isLt; omega⟩) := by
  obtain ⟨-, ⟨e0, e1, e2⟩, -⟩ := idx0 t
  unfold iblk0
  rw [View.read_apply]
  show V c main_v2 _ = V c main_v2 _
  congr 1
  funext a
  apply Fin.ext
  match a with
  | ⟨0, _⟩ => show win0_1.index t (0 : Fin 3) * 1 + 1 * 0 = t.val / 2; omega
  | ⟨1, _⟩ => show win0_1.index t (1 : Fin 3) * 1 + 1 * 0 = 0; omega
  | ⟨2, _⟩ => show win0_1.index t (2 : Fin 3) * 131072 + 1 * k.val = t.val % 2 * 131072 + k.val; omega

/-! ## The second region's input blocks -/

/-- The coordinates' block at point `t`, as in the first region. -/
theorem iblk1_x (c : Dev nD) (t : Fin cfg1.N) (d : Fin 8) (k : Fin 131072) :
    (iblk1 V c 0 t : S1x8x131072.Idx → Elt F .f32) (ix3 0 d k)
      = (V c main_v0 : S16x8x262144.Idx → Elt F .f32)
          (ix3 ⟨t.val / 2, by have := lt1 t; omega⟩ d ⟨(t.val % 2) * 131072 + k.val, by have := k.isLt; omega⟩) := by
  obtain ⟨⟨e0, e1, e2⟩, -, -, -⟩ := idx1 t
  unfold iblk1
  rw [View.read_apply]
  show V c main_v0 _ = V c main_v0 _
  congr 1
  funext a
  apply Fin.ext
  match a with
  | ⟨0, _⟩ => show win1_0.index t (0 : Fin 3) * 1 + 1 * 0 = t.val / 2; omega
  | ⟨1, _⟩ => show win1_0.index t (1 : Fin 3) * 8 + 1 * d.val = d.val; omega
  | ⟨2, _⟩ => show win1_0.index t (2 : Fin 3) * 131072 + 1 * k.val = t.val % 2 * 131072 + k.val; omega

/-- The labels' block at point `t`, as in the first region. -/
theorem iblk1_l (c : Dev nD) (t : Fin cfg1.N) (k : Fin 131072) :
    (iblk1 V c 1 t : S1x1x131072.Idx → Elt F .i32) (ix3 0 0 k)
      = (V c main_v2 : S16x1x262144.Idx → Elt F .i32)
          (ix3 ⟨t.val / 2, by have := lt1 t; omega⟩ 0 ⟨(t.val % 2) * 131072 + k.val, by have := k.isLt; omega⟩) := by
  obtain ⟨-, ⟨e0, e1, e2⟩, -, -⟩ := idx1 t
  unfold iblk1
  rw [View.read_apply]
  show V c main_v2 _ = V c main_v2 _
  congr 1
  funext a
  apply Fin.ext
  match a with
  | ⟨0, _⟩ => show win1_1.index t (0 : Fin 3) * 1 + 1 * 0 = t.val / 2; omega
  | ⟨1, _⟩ => show win1_1.index t (1 : Fin 3) * 1 + 1 * 0 = 0; omega
  | ⟨2, _⟩ => show win1_1.index t (2 : Fin 3) * 131072 + 1 * k.val = t.val % 2 * 131072 + k.val; omega

/-- The means' block at point `t`: the means of batch `t / 2`. -/
theorem iblk1_m (c : Dev nD) (t : Fin cfg1.N) (d : Fin 8) (cl : Fin 32) :
    (iblk1 V c 2 t : S1x8x32.Idx → Elt F .f32) (ix3 0 d cl)
      = (V c main_v11 : S16x8x32.Idx → Elt F .f32) (ix3 ⟨t.val / 2, by have := lt1 t; omega⟩ d cl) := by
  obtain ⟨-, -, ⟨e0, e1, e2⟩, -⟩ := idx1 t
  unfold iblk1
  rw [View.read_apply]
  show V c main_v11 _ = V c main_v11 _
  congr 1
  funext a
  apply Fin.ext
  match a with
  | ⟨0, _⟩ => show win1_2.index t (0 : Fin 3) * 1 + 1 * 0 = t.val / 2; omega
  | ⟨1, _⟩ => show win1_2.index t (1 : Fin 3) * 8 + 1 * d.val = d.val; omega
  | ⟨2, _⟩ => show win1_2.index t (2 : Fin 3) * 32 + 1 * cl.val = cl.val; omega

/-! ## The output blocks -/

/-- An index of the first region's result is in point `t`'s block iff each coordinate is in the block's range on its
    axis. -/
theorem mem_blk0_2_axes (t : Fin cfg0.N) (j : S16x9x32.Idx) :
    j ∈ ((cfg0.win 2).blk t).view.set
      ↔ ∀ a : Fin 3, win0_2.index t a * S1x9x32.size a ≤ (j a).val ∧ (j a).val < win0_2.index t a * S1x9x32.size a + S1x9x32.size a := by
  show j ∈ ((View.whole main_v3).slice (win0_2.rect t)).set ↔ _
  rw [View.set_slice_whole, Rect.mem_set_unit]
  exact Iff.rfl

/-- An index of the first region's result is in point `t`'s block iff its batch is `t / 2`. -/
theorem mem_blk0_2 (t : Fin cfg0.N) (j : S16x9x32.Idx) :
    j ∈ ((cfg0.win 2).blk t).view.set ↔ (j 0).val = t.val / 2 := by
  rw [mem_blk0_2_axes]
  obtain ⟨-, -, ⟨e0, e1, e2⟩⟩ := idx0 t
  have h1 : (j 1).val < 9 := (j 1).isLt
  have h2 : (j 2).val < 32 := (j 2).isLt
  constructor
  · intro h
    have b0 : win0_2.index t (0 : Fin 3) * 1 ≤ (j 0).val ∧ (j 0).val < win0_2.index t (0 : Fin 3) * 1 + 1 := h 0
    omega
  · intro h a
    match a with
    | ⟨0, _⟩ => show win0_2.index t (0 : Fin 3) * 1 ≤ (j 0).val ∧ (j 0).val < win0_2.index t (0 : Fin 3) * 1 + 1; omega
    | ⟨1, _⟩ => show win0_2.index t (1 : Fin 3) * 9 ≤ (j 1).val ∧ (j 1).val < win0_2.index t (1 : Fin 3) * 9 + 9; omega
    | ⟨2, _⟩ => show win0_2.index t (2 : Fin 3) * 32 ≤ (j 2).val ∧ (j 2).val < win0_2.index t (2 : Fin 3) * 32 + 32; omega

/-- An index of the second region's result is in point `t`'s block iff each coordinate is in the block's range on its
    axis. -/
theorem mem_blk1_3_axes (t : Fin cfg1.N) (j : S16x1x1.Idx) :
    j ∈ ((cfg1.win 3).blk t).view.set
      ↔ ∀ a : Fin 3, win1_3.index t a * S1x1x1.size a ≤ (j a).val ∧ (j a).val < win1_3.index t a * S1x1x1.size a + S1x1x1.size a := by
  show j ∈ ((View.whole main_v17).slice (win1_3.rect t)).set ↔ _
  rw [View.set_slice_whole, Rect.mem_set_unit]
  exact Iff.rfl

/-- An index of the second region's result is in point `t`'s block iff its batch is `t / 2`. -/
theorem mem_blk1_3 (t : Fin cfg1.N) (j : S16x1x1.Idx) :
    j ∈ ((cfg1.win 3).blk t).view.set ↔ (j 0).val = t.val / 2 := by
  rw [mem_blk1_3_axes]
  obtain ⟨-, -, -, ⟨e0, e1, e2⟩⟩ := idx1 t
  have h1 : (j 1).val < 1 := (j 1).isLt
  have h2 : (j 2).val < 1 := (j 2).isLt
  constructor
  · intro h
    have b0 : win1_3.index t (0 : Fin 3) * 1 ≤ (j 0).val ∧ (j 0).val < win1_3.index t (0 : Fin 3) * 1 + 1 := h 0
    omega
  · intro h a
    match a with
    | ⟨0, _⟩ => show win1_3.index t (0 : Fin 3) * 1 ≤ (j 0).val ∧ (j 0).val < win1_3.index t (0 : Fin 3) * 1 + 1; omega
    | ⟨1, _⟩ => show win1_3.index t (1 : Fin 3) * 1 ≤ (j 1).val ∧ (j 1).val < win1_3.index t (1 : Fin 3) * 1 + 1; omega
    | ⟨2, _⟩ => show win1_3.index t (2 : Fin 3) * 1 ≤ (j 2).val ∧ (j 2).val < win1_3.index t (2 : Fin 3) * 1 + 1; omega

end Cert.KernelIdeal.Blocks

end
-- ==== Proof.KI.Vals0.lean ====
/-
  The first kernel region's result array in closed form, over the extended reals: after the region's 32 points, batch
  `b`'s block of the result holds in rows 0–7 the clusters' coordinate sums and in row 8 the clusters' counts over all
  262144 points of the batch. Batch `b` is treated by points `2b` (first half of its points, over cleared accumulators)
  and `2b + 1` (second half, over what `2b` left; the block is written back there): the two halves' sums join into the
  sum over the batch.
-/
import proofs.«417056_j24696061952722_1_alg».proof.Proof.KI.Region0V
import proofs.«417056_j24696061952722_1_alg».proof.Proof.KI.Pay
import proofs.«417056_j24696061952722_1_alg».proof.Proof.KI.Blocks
import proofs.«417056_j24696061952722_1_alg».proof.Proof.Spec
import Idealize.ShloMosaic.Lib.Pipeline.Value
import Idealize.ShloMosaic.Lib.ValueIdx
import Mathlib.Algebra.BigOperators.Fin

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

-- the core's buffer contents when the region is entered
variable (V : (c : Dev nD) → (b : Ref sig .tc) → Buf (Elt Ideal) ((c : Thread nD τ).loc b))

/-! ## The output block, row by row -/

/-- Row 8 of the block an odd point leaves is the counts, -/
theorem outBlock_row8 (s0 : Vec Ideal S8x32 .f32) (s1 : Vec Ideal S1x32 .f32) (cl : Fin 32) :
    outBlock s0 s1 (ix3 (0 : Fin 1) (8 : Fin 9) cl) = s1 (ix2 (0 : Fin 1) cl) := by
  unfold outBlock
  have e : (ix3 (0 : Fin 1) (8 : Fin 9) cl : S1x9x32.Idx)
      = (Rect.unit (s := S1x9x32) ![0, 8, 0] S1x1x32.size inb_S1x9x32_S1x1x32_0_8_0).emb (ix3 (0 : Fin 1) (0 : Fin 1) cl) := by
    funext a; apply Fin.ext
    match a with
    | ⟨0, _⟩ => rfl
    | ⟨1, _⟩ => rfl
    | ⟨2, _⟩ => show cl.val = 0 + 1 * cl.val; omega
  rw [e, View.canon_cons_emb]
  exact Pay.pay7_apply s1 cl

/-- and rows 0–7 are the sums. -/
theorem outBlock_rows (s0 : Vec Ideal S8x32 .f32) (s1 : Vec Ideal S1x32 .f32) (d : Fin 8) (cl : Fin 32) :
    outBlock s0 s1 (ix3 (0 : Fin 1) (⟨d.val, by have := d.isLt; omega⟩ : Fin 9) cl) = s0 (ix2 d cl) := by
  unfold outBlock
  rw [View.canon_cons_of_not_mem _ _ (by
    rw [Rect.mem_set_unit]; intro h
    have h1 : (8 : ℕ) ≤ d.val := (h (1 : Fin 3)).1
    have := d.isLt; omega)]
  have e : (ix3 (0 : Fin 1) (⟨d.val, by have := d.isLt; omega⟩ : Fin 9) cl : S1x9x32.Idx)
      = (Rect.unit (s := S1x9x32) ![0, 0, 0] S1x8x32.size inb_S1x9x32_S1x8x32_0_0_0).emb (ix3 (0 : Fin 1) d cl) := by
    funext a; apply Fin.ext
    match a with
    | ⟨0, _⟩ => rfl
    | ⟨1, _⟩ => show d.val = 0 + 1 * d.val; omega
    | ⟨2, _⟩ => show cl.val = 0 + 1 * cl.val; omega
  rw [e, View.canon_cons_emb]
  exact Pay.pay6_apply s0 d cl

/-! ## The arrays, by point of a batch -/

/-- The coordinates, batch by coordinate by point, as the region finds them. -/
abbrev xsA (c : Dev nD) : Cert.Spec.SX.Idx → EReal := V c main_v0
/-- The labels as the region finds them, -/
abbrev larr (c : Dev nD) : S16x1x262144.Idx → BitVec 32 := V c main_v2
/-- batch by point. -/
abbrev lsA (c : Dev nD) : Cert.Spec.SL.Idx → BitVec 32 := fun i => larr V c (ix3 (i 0) 0 (i 1))

/-- A sum over a batch's 262144 points is the sum over their first half plus the sum over their second half. -/
theorem sum_halves (f : Fin 262144 → EReal) :
    ∑ n : Fin 262144, f n
      = (∑ k : Fin 131072, f ⟨(0 : Fin 2).val * 131072 + k.val, by have := k.isLt; show 0 * 131072 + k.val < 262144; omega⟩)
        + ∑ k : Fin 131072, f ⟨(1 : Fin 2).val * 131072 + k.val, by have := k.isLt; show 1 * 131072 + k.val < 262144; omega⟩ := by
  refine (Fin.sum_univ_add (a := 131072) (b := 131072) (M := EReal) f).trans ?_
  refine congrArg₂ (· + ·) (Finset.sum_congr rfl fun k _ => congrArg f (Fin.ext ?_)) (Finset.sum_congr rfl fun k _ => congrArg f (Fin.ext ?_))
  · show k.val = 0 * 131072 + k.val; omega
  · show 131072 + k.val = 1 * 131072 + k.val; omega

/-- The coordinates' block at the point of a batch that treats its half "hf". -/
theorem xblk_at (c : Dev nD) (t : Fin cfg0.N) (b : Fin 16) (hf : Fin 2) (ht : t.val = 2 * b.val + hf.val) (d : Fin 8) (k : Fin 131072) :
    (iblk0 V c 0 t : S1x8x131072.Idx → EReal) (ix3 (0 : Fin 1) d k)
      = xsA V c (ix3 b d ⟨hf.val * 131072 + k.val, by have := k.isLt; have := hf.isLt; omega⟩) := by
  rw [Blocks.iblk0_x V c t d k]
  show V c main_v0 _ = V c main_v0 _
  congr 1
  funext a
  apply Fin.ext
  have := hf.isLt
  match a with
  | ⟨0, _⟩ => show t.val / 2 = b.val; omega
  | ⟨1, _⟩ => rfl
  | ⟨2, _⟩ => show t.val % 2 * 131072 + k.val = hf.val * 131072 + k.val; omega

/-- The labels' block there. -/
theorem lblk_at (c : Dev nD) (t : Fin cfg0.N) (b : Fin 16) (hf : Fin 2) (ht : t.val = 2 * b.val + hf.val) (k : Fin 131072) :
    (iblk0 V c 1 t : S1x1x131072.Idx → BitVec 32) (ix3 (0 : Fin 1) (0 : Fin 1) k)
      = lsA V c (ix2 b ⟨hf.val * 131072 + k.val, by have := k.isLt; have := hf.isLt; omega⟩) := by
  rw [Blocks.iblk0_l V c t k]
  show V c main_v2 _ = V c main_v2 _
  congr 1
  funext a
  apply Fin.ext
  have := hf.isLt
  match a with
  | ⟨0, _⟩ => show t.val / 2 = b.val; omega
  | ⟨1, _⟩ => rfl
  | ⟨2, _⟩ => show t.val % 2 * 131072 + k.val = hf.val * 131072 + k.val; omega

/-! ## The accumulators at the point that writes a batch's block back -/

/-- The contents after a point depend on the point's position only, however its bound is proved. -/
theorem outsAt0_pos (c : Dev nD) (n n' : ℕ) (hn : n < cfg0.N) (hn' : n' < cfg0.N) (e : n = n') :
    outsAt0 V c n hn = outsAt0 V c n' hn' := by
  subst e; rfl

/-- The sums there are the batch's: the even point's half over the cleared block, then the odd point's half. -/
theorem acc_sums (c : Dev nD) (t te : Fin cfg0.N) (b : Fin 16) (hb : t.val = 2 * b.val + 1) (hte : te.val = 2 * b.val) (d : Fin 8) (cl : Fin 32) :
    ((outsAt0 V c t.val t.isLt).2.1 : S8x32.Idx → EReal) (ix2 d cl) = Cert.Spec.sums (xsA V c) (lsA V c) b d cl := by
  have ho : t.val % 2 = 1 := by omega
  have hp : te.val % 2 = 0 := by omega
  rw [outsAt0_odd V c t ho]
  dsimp only
  rw [outsAt0_pos V c (t.val - 1) te.val _ te.isLt (by omega), outsAt0_even V c te hp]
  dsimp only
  rw [Pay.pay4_apply (iblk0 V c 0 t) (iblk0 V c 1 t) _ d cl,
    Pay.pay4_apply (iblk0 V c 0 te) (iblk0 V c 1 te) _ d cl, Pay.pay1_zero, zero_add]
  unfold Cert.Spec.sums
  rw [sum_halves]
  refine congrArg₂ (· + ·) (Finset.sum_congr rfl fun k _ => ?_) (Finset.sum_congr rfl fun k _ => ?_)
  · rw [xblk_at V c te b 0 (by show te.val = 2 * b.val + 0; omega) d k,
      lblk_at V c te b 0 (by show te.val = 2 * b.val + 0; omega) k]
  · rw [xblk_at V c t b 1 (by show t.val = 2 * b.val + 1; omega) d k,
      lblk_at V c t b 1 (by show t.val = 2 * b.val + 1; omega) k]

/-- The counts there are the batch's. -/
theorem acc_cnt (c : Dev nD) (t te : Fin cfg0.N) (b : Fin 16) (hb : t.val = 2 * b.val + 1) (hte : te.val = 2 * b.val) (cl : Fin 32) :
    ((outsAt0 V c t.val t.isLt).2.2 : S1x32.Idx → EReal) (ix2 (0 : Fin 1) cl) = Cert.Spec.cnt (lsA V c) b cl := by
  have ho : t.val % 2 = 1 := by omega
  have hp : te.val % 2 = 0 := by omega
  rw [outsAt0_odd V c t ho]
  dsimp only
  rw [outsAt0_pos V c (t.val - 1) te.val _ te.isLt (by omega), outsAt0_even V c te hp]
  dsimp only
  rw [Pay.pay5_apply (iblk0 V c 1 t) _ cl, Pay.pay5_apply (iblk0 V c 1 te) _ cl, Pay.pay2_zero, zero_add]
  unfold Cert.Spec.cnt
  rw [sum_halves]
  refine congrArg₂ (· + ·) (Finset.sum_congr rfl fun k _ => ?_) (Finset.sum_congr rfl fun k _ => ?_)
  · rw [lblk_at V c te b 0 (by show te.val = 2 * b.val + 0; omega) k]
  · rw [lblk_at V c t b 1 (by show t.val = 2 * b.val + 1; omega) k]

/-! ## The result array -/

/-- The result as one function of the arrays: rows 0–7 of a batch's block the clusters' sums, row 8 their counts. -/
def G0 (c : Dev nD) : S16x9x32.Idx → EReal := fun i =>
  if h : (i 1).val < 8 then Cert.Spec.sums (xsA V c) (lsA V c) (i 0) ⟨(i 1).val, h⟩ (i 2)
  else Cert.Spec.cnt (lsA V c) (i 0) (i 2)

/-- Where a point's block of the result sits in the array: batch "t / 2", the block's own row and column. -/
theorem blk2_emb (t : Fin cfg0.N) (r : Fin 9) (cl : Fin 32) :
    ((cfg0.win 2).blk t).view.emb (ix3 (0 : Fin 1) r cl : S1x9x32.Idx)
      = (ix3 ⟨t.val / 2, by have := Blocks.lt0 t; omega⟩ r cl : S16x9x32.Idx) := by
  obtain ⟨-, -, ⟨e0, e1, e2⟩⟩ := Blocks.idx0 t
  funext a
  apply Fin.ext
  match a with
  | ⟨0, _⟩ => show win0_2.index t (0 : Fin 3) * 1 + 1 * 0 = t.val / 2; omega
  | ⟨1, _⟩ => show win0_2.index t (1 : Fin 3) * 9 + 1 * r.val = r.val; omega
  | ⟨2, _⟩ => show win0_2.index t (2 : Fin 3) * 32 + 1 * cl.val = cl.val; omega

/-- WHAT AN ODD POINT WRITES BACK is its block of that function. -/
theorem flushed2_eq (c : Dev nD) (t : Fin cfg0.N) (hf : (cfg0.win 2).flush t = true) :
    (dat0 V c).flushed 2 t = ((cfg0.win 2).blk t).view.read (Elt Ideal) (G0 V c) := by
  have ho : t.val % 2 = 1 := (flush0_2 t).mp hf
  have hN := Blocks.lt0 t
  have hN' : cfg0.N = 32 := N_0
  show (cfg0.win 2).cut (grid0.coords t) ((dat0 V c).after 2 t) = _
  rw [after0_2, out0_odd V c t ho]
  refine funext fun (j : S1x9x32.Idx) => ?_
  show outBlock (outsAt0 V c t.val t.isLt).2.1 (outsAt0 V c t.val t.isLt).2.2 j
    = G0 V c (((cfg0.win 2).blk t).view.emb j)
  obtain ⟨a, r, cl, rfl⟩ : ∃ (a : Fin 1) (r : Fin 9) (cl : Fin 32), j = ix3 a r cl := ⟨j 0, j 1, j 2, eq_ix3 j⟩
  obtain rfl : a = 0 := Subsingleton.elim _ _
  rw [blk2_emb t r cl]
  unfold G0
  by_cases hr : r.val < 8
  · rw [dif_pos (show ((ix3 (⟨t.val / 2, by omega⟩ : Fin 16) r cl : S16x9x32.Idx) 1).val < 8 from hr)]
    refine (outBlock_rows _ _ (⟨r.val, hr⟩ : Fin 8) cl).trans ?_
    exact acc_sums V c t ⟨t.val - 1, by omega⟩ ⟨t.val / 2, by omega⟩ (by show t.val = 2 * (t.val / 2) + 1; omega) (by show t.val - 1 = 2 * (t.val / 2); omega) ⟨r.val, hr⟩ cl
  · rw [dif_neg (show ¬ ((ix3 (⟨t.val / 2, by omega⟩ : Fin 16) r cl : S16x9x32.Idx) 1).val < 8 from hr)]
    obtain rfl : r = (8 : Fin 9) := Fin.ext (by have := r.isLt; show r.val = 8; omega)
    refine (outBlock_row8 _ _ cl).trans ?_
    exact acc_cnt V c t ⟨t.val - 1, by omega⟩ ⟨t.val / 2, by omega⟩ (by show t.val = 2 * (t.val / 2) + 1; omega) (by show t.val - 1 = 2 * (t.val / 2); omega) cl

/-- THE ARRAY after the region's points, index by index: every index is in the block its batch's odd point writes back. -/
theorem arr2_eq (c : Dev nD) (i : S16x9x32.Idx) :
    ((dat0 V c).arrAt 2 cfg0.N : S16x9x32.Idx → EReal) i = G0 V c i := by
  have hi : (i 0).val < 16 := (i 0).isLt
  have hN : cfg0.N = 32 := N_0
  exact (dat0 V c).arrAt_apply_of_mem 2 (G0 V c) (fun t hf => flushed2_eq V c t hf) cfg0.N
    ⟨2 * (i 0).val + 1, by omega⟩ i (by show 2 * (i 0).val + 1 < cfg0.N; omega)
    ((flush0_2 _).mpr (by show (2 * (i 0).val + 1) % 2 = 1; omega))
    ((Blocks.mem_blk0_2 _ i).mpr (by show (i 0).val = (2 * (i 0).val + 1) / 2; omega))

/-- Rows 0–7 of batch b's block: the clusters' coordinate sums. -/
theorem stats_sums (c : Dev nD) (b : Fin 16) (d : Fin 8) (cl : Fin 32) :
    ((dat0 V c).arrAt 2 cfg0.N : S16x9x32.Idx → EReal) (ix3 b ⟨d.val, by have := d.isLt; omega⟩ cl)
      = Cert.Spec.sums (V c main_v0 : Cert.Spec.SX.Idx → EReal)
          (fun i : Cert.Spec.SL.Idx => (V c main_v2 : S16x1x262144.Idx → BitVec 32) (ix3 (i 0) 0 (i 1))) b d cl := by
  rw [arr2_eq]
  unfold G0
  rw [dif_pos (show ((ix3 b (⟨d.val, by have := d.isLt; omega⟩ : Fin 9) cl : S16x9x32.Idx) 1).val < 8 from d.isLt)]

/-- Row 8 of batch b's block: the clusters' counts. -/
theorem stats_cnt (c : Dev nD) (b : Fin 16) (cl : Fin 32) :
    ((dat0 V c).arrAt 2 cfg0.N : S16x9x32.Idx → EReal) (ix3 b 8 cl)
      = Cert.Spec.cnt (fun i : Cert.Spec.SL.Idx => (V c main_v2 : S16x1x262144.Idx → BitVec 32) (ix3 (i 0) 0 (i 1))) b cl := by
  rw [arr2_eq]
  unfold G0
  rw [dif_neg (show ¬ ((ix3 b (8 : Fin 9) cl : S16x9x32.Idx) 1).val < 8 from by show ¬ (8 : ℕ) < 8; omega)]

end Cert.KernelIdeal.R0

end
-- ==== Proof.KI.Region1V.lean ====
/- The VALUES the second pallas_call's body leaves (the hinge kernel, grid 16×2): after an even point the scratch holds
   the point's partial sum added to zero; after an odd point the scratch holds the point's partial sum added to what the
   point before left, and the output's staging buffer holds that total reshaped. Each is the payloads of the case's
   stores read back through the whole-buffer rectangle. -/
import proofs.«417056_j24696061952722_1_alg».proof.Proof.KI.Region1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## What each case leaves, as the payloads of its stores -/

theorem zero2 : (![0, 0] : Fin S1x1.rank → Nat) = fun _ => 0 := by funext a; fin_cases a <;> rfl
theorem zero3 : (![0, 0, 0] : Fin S1x1x1.rank → Nat) = fun _ => 0 := by funext a; fin_cases a <;> rfl

/-- An even point leaves in the scratch the point's partial sum added to zero: the reset, read back, then the update. -/
theorem sout1_A_0_eq (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x8x131072 .f32) (x1 : Vec F S1x1x131072 .i32) (x2 : Vec F S1x8x32 .f32) :
    sout1_A_0 c i arg2 harg2 arg3 harg3 arg4 harg4 arg5 harg5 arg6 harg6 hc0 hc1 x0 x1 x2 = k1_pay1 (k1_pay4 x0 x1 x2) (k1_pay3 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A; dsimp only; sl_unfold_words
  rw [View.canon_cons_unit_zero (S := S1x1) zero2, View.readCov_unit_zero (S := S1x1) _ zero2]
  simp only [View.readAt_eq_ld, harg2.read_unread, harg3.read_unread, harg4.read_unread,
    View.ld_unit_zero (S := S1x8x131072) zero3, View.ld_unit_zero (S := S1x1x131072) zero3, View.ld_unit_zero (S := S1x8x32) zero3]

/-- An odd point leaves in the scratch the point's partial sum added to what the point before left, -/
theorem sout1_B_0_eq (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) :
    sout1_B_0 c i arg2 harg2 arg3 harg3 arg4 harg4 arg5 harg5 arg6 harg6 hc0 hc1 x0 x1 x2 xs0 = k1_pay1 (k1_pay4 x0 x1 x2) xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B; dsimp only; sl_unfold_words
  rw [View.canon_unit_zero (S := S1x1) zero2]
  simp only [View.readAt_eq_ld, harg2.read_unread, harg3.read_unread, harg4.read_unread, harg6.read_unread,
    View.ld_unit_zero (S := S1x8x131072) zero3, View.ld_unit_zero (S := S1x1x131072) zero3, View.ld_unit_zero (S := S1x8x32) zero3,
    View.ld_unit_zero (S := S1x1) zero2]

/-- and in the output's buffer that total, reshaped. -/
theorem out1_B_3_eq (c : Dev nD) (i : grid1.Coords) (arg2 : Memref sig .tc .vmem S1x8x131072 .f32) (harg2 : arg2.IsWhole) (arg3 : Memref sig .tc .vmem S1x1x131072 .i32) (harg3 : arg3.IsWhole) (arg4 : Memref sig .tc .vmem S1x8x32 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x8x131072 .f32) (x1 : Vec F S1x1x131072 .i32) (x2 : Vec F S1x8x32 .f32) (xs0 : Vec F S1x1 .f32) :
    out1_B_3 c i arg2 harg2 arg3 harg3 arg4 harg4 arg5 harg5 arg6 harg6 hc0 hc1 x0 x1 x2 xs0 = k1_pay2 (k1_pay1 (k1_pay4 x0 x1 x2) xs0) := by
  unfold out1_B_3
  rw [View.read_writes_eq_canon _ _ _ (cover1_B_3 c i arg2 harg2 arg3 harg3 arg4 harg4 arg5 harg5 arg6 harg6 hc0 hc1 x0 x1 x2 xs0)]
  unfold kernelRun1_B; dsimp only; sl_unfold_words
  rw [View.canon_unit_zero (S := S1x1x1) zero3, View.readCov_unit_zero (S := S1x1) _ zero2]
  simp only [View.readAt_eq_ld, harg2.read_unread, harg3.read_unread, harg4.read_unread, harg6.read_unread,
    View.ld_unit_zero (S := S1x8x131072) zero3, View.ld_unit_zero (S := S1x1x131072) zero3, View.ld_unit_zero (S := S1x8x32) zero3,
    View.ld_unit_zero (S := S1x1) zero2]

/-! ## The scratch and the output's buffer after each point -/

/-- After an even point the scratch holds the point's partial sum added to zero. -/
theorem outsAt1_even (c : Dev nD) (t : Fin cfg1.N) (h : t.val % 2 = 0) :
    (outsAt1 V c t.val t.isLt).2 = k1_pay1 (k1_pay4 (iblk1 V c 0 t) (iblk1 V c 1 t) (iblk1 V c 2 t)) (k1_pay3 (F := F)) := by
  rw [outsAt1_A V c t h (by omega)]
  dsimp only
  exact sout1_A_0_eq c _ _ _ _ _ _ _ _ _ _ _ _ _ _ _ _

/-- After an odd point the scratch holds the point's partial sum added to what the point before left, and the output's
    buffer the same, reshaped. -/
theorem outsAt1_odd (c : Dev nD) (t : Fin cfg1.N) (h : t.val % 2 = 1) :
    outsAt1 V c t.val t.isLt =
      (k1_pay2 (k1_pay1 (k1_pay4 (iblk1 V c 0 t) (iblk1 V c 1 t) (iblk1 V c 2 t)) (outsAt1 V c (t.val - 1) (Nat.lt_of_le_of_lt (Nat.sub_le _ _) t.isLt)).2),
        k1_pay1 (k1_pay4 (iblk1 V c 0 t) (iblk1 V c 1 t) (iblk1 V c 2 t)) (outsAt1 V c (t.val - 1) (Nat.lt_of_le_of_lt (Nat.sub_le _ _) t.isLt)).2) := by
  rw [outsAt1_B V c t (by omega) h, out1_B_3_eq, sout1_B_0_eq]

end Cert.KernelIdeal.R1

end
-- ==== Proof.KI.Vals1.lean ====
/- The second kernel region's RESULT ARRAY after the run. The output's blocks are the batches' single elements; batch
   `b`'s block is written back at grid point `2b + 1` and at no other, so after the run the array holds at batch `b`
   what that point left in the output's staging buffer. Over the extended reals that element is the running sum the
   two points of the batch built from zero: the hinges of the batch's first 131072 points, then of its last 131072 —
   the batch's hinges, summed. -/
import proofs.«417056_j24696061952722_1_alg».proof.Proof.KI.Region1V
import proofs.«417056_j24696061952722_1_alg».proof.Proof.KI.Pay
import proofs.«417056_j24696061952722_1_alg».proof.Proof.KI.Blocks
import proofs.«417056_j24696061952722_1_alg».proof.Proof.Spec
import Idealize.ShloMosaic.Lib.Pipeline.Value

set_option maxRecDepth 16384

noncomputable section

open scoped BigOperators

namespace Cert.KernelIdeal.R1

open Cert.KernelIdeal Cert.KernelIdeal.Gen Cert.KernelIdeal.Pay Cert.KernelIdeal.Blocks
open Idealize.ShloMosaic Idealize.ShloMosaic.TcCoe Idealize.ShloMosaic.ValueIdx
open Idealize.ShloMosaic.Pipeline (Dat)

/-! # The result array, batch by batch: what the batch's odd point left in the output's staging buffer -/

section AnyValues

variable {F : FTy → Type} [FloatOps F]

-- the TensorCore's buffer contents when the region is entered
variable (V : (c : Dev nD) → (b : Ref sig .tc) → Buf (Elt F) ((c : Thread nD τ).loc b))

/-- A one-element block has one index. -/
theorem Vals1.idx111 (y : S1x1x1.Idx) : y = ix3 0 0 0 := by
  refine (eq_ix3 (n0 := 1) (n1 := 1) (n2 := 1) y).trans ?_
  rw [Fin.fin_one_eq_zero (y 0), Fin.fin_one_eq_zero (y 1), Fin.fin_one_eq_zero (y 2)]
  rfl

/-- The contents after a point depend on the point's position only. -/
theorem Vals1.outsAt1_congr (c : Dev nD) (n m : ℕ) (h : n = m) (hn : n < cfg1.N) (hm : m < cfg1.N) :
    outsAt1 V c n hn = outsAt1 V c m hm := by
  subst h; rfl

/-- What the result array ends holding: at batch `b`, the one element that point `2b + 1` left in the output's staging
    buffer. -/
def Vals1.G0 (c : Dev nD) : S16x1x1.Idx → Elt F .f32 := fun i =>
  ((outsAt1 V c (2 * (i 0).val + 1) (by
      have h : (i 0).val < 16 := (i 0).isLt
      rw [show cfg1.N = 32 from N_1]; omega)).1 : S1x1x1.Idx → Elt F .f32) (ix3 0 0 0)

/-- What an odd point writes back is its block of `G0`: the block is the one element of batch `t / 2`, and `t` is
    `2 (t / 2) + 1`. -/
theorem Vals1.flushed0_eq (c : Dev nD) (t : Fin cfg1.N) (hf : (cfg1.win 3).flush t = true) :
    (dat1 V c).flushed 3 t = ((cfg1.win 3).blk t).view.read (Elt F) (Vals1.G0 V c) := by
  have h1 : t.val % 2 = 1 := (flush1_3 t).mp hf
  have hlt := lt1 t
  show (cfg1.win 3).cut (grid1.coords t) ((dat1 V c).after 3 t) = _
  rw [after1_3]
  funext y
  rw [View.read_apply]
  have hm := ((cfg1.win 3).blk t).view.emb_mem_set y
  have hi := (mem_blk1_3 t _).mp hm
  have e1 : ((cfg1.win 3).xinj (grid1.coords t) y : S1x1x1.Idx) = ix3 0 0 0 := Vals1.idx111 _
  have e2 : Vals1.G0 V c (((cfg1.win 3).blk t).view.emb y)
      = ((outsAt1 V c t.val t.isLt).1 : S1x1x1.Idx → Elt F .f32) (ix3 0 0 0) := by
    unfold Vals1.G0
    rw [Vals1.outsAt1_congr V c (2 * (((cfg1.win 3).blk t).view.emb y 0).val + 1) t.val (by omega) _ t.isLt]
  generalize Vals1.G0 V c (((cfg1.win 3).blk t).view.emb y) = g at e2 ⊢
  subst e2
  show ((outsAt1 V c t.val t.isLt).1 : S1x1x1.Idx → Elt F .f32) ((cfg1.win 3).xinj (grid1.coords t) y) = _
  rw [e1]
  exact (cast_eq _ _).symm

/-- THE RESULT ARRAY, BATCH BY BATCH: after the run, batch `b`'s element is the one element point `2b + 1` left in the
    output's staging buffer (that point's block is batch `b`'s, and it is written back there). -/
theorem hinge_arr0 (c : Dev nD) (b : Fin 16) :
    ((dat1 V c).arrAt 3 cfg1.N : S16x1x1.Idx → Elt F .f32) (ix3 b 0 0)
      = ((outsAt1 V c (2 * b.val + 1) (by have := b.isLt; rw [show cfg1.N = 32 from N_1]; omega)).1 : S1x1x1.Idx → Elt F .f32) (ix3 0 0 0) := by
  have hb := b.isLt
  have ht : 2 * b.val + 1 < cfg1.N := by rw [show cfg1.N = 32 from N_1]; omega
  have hf : (cfg1.win 3).flush ⟨2 * b.val + 1, ht⟩ = true := (flush1_3 _).mpr (by show (2 * b.val + 1) % 2 = 1; omega)
  exact (dat1 V c).arrAt_apply_of_mem 3 (Vals1.G0 V c) (Vals1.flushed0_eq V c) cfg1.N ⟨2 * b.val + 1, ht⟩ (ix3 b 0 0) ht hf
    ((mem_blk1_3 _ _).mpr (by show b.val = (2 * b.val + 1) / 2; omega))

end AnyValues

/-! # Over the extended reals: the batch's hinges, summed -/

section AtIdeal

-- the TensorCore's buffer contents when the region is entered, over the extended reals
variable (V : (c : Dev nD) → (b : Ref sig .tc) → Buf (Elt Ideal) ((c : Thread nD τ).loc b))

/-- A sum over a batch's 262144 points is the sum over its first 131072 points and the sum over its last 131072. -/
theorem Vals1.sum_two_halves (f : Fin 262144 → EReal) (g0 g1 : Fin 131072 → EReal)
    (h0 : ∀ k : Fin 131072, g0 k = f ⟨k.val, by have := k.isLt; omega⟩)
    (h1 : ∀ k : Fin 131072, g1 k = f ⟨131072 + k.val, by have := k.isLt; omega⟩) :
    (0 + ∑ k : Fin 131072, g0 k) + ∑ k : Fin 131072, g1 k = ∑ n : Fin 262144, f n := by
  rw [zero_add]
  have e := Fin.sum_univ_add (M := EReal) (a := 131072) (b := 131072) (fun i => f i)
  refine Eq.trans ?_ e.symm
  exact congrArg₂ (· + ·)
    (Finset.sum_congr rfl fun k _ => (h0 k).trans (congrArg f (Fin.ext rfl)))
    (Finset.sum_congr rfl fun k _ => (h1 k).trans (congrArg f (Fin.ext rfl)))

/-- At grid point `t` the hinge payload's element `k` is the hinge of point `(t % 2) · 131072 + k` of batch `t / 2`:
    the blocks the body loads are that batch's coordinates and labels at that half and the batch's means. -/
theorem Vals1.pt_hinge (c : Dev nD) (t : Fin cfg1.N) (k : Fin 131072) (b : Fin 16) (n : Fin 262144)
    (hb : b.val = t.val / 2) (hn : n.val = (t.val % 2) * 131072 + k.val) :
    k1_pay4 (F := Ideal) (iblk1 V c 0 t) (iblk1 V c 1 t) (iblk1 V c 2 t) (ix1 k)
      = Cert.Spec.hinge (Cert.Spec.sq (V c main_v0 : Cert.Spec.SX.Idx → EReal) (fun (b : Fin 16) (d : Fin 8) (cl : Fin 32) => (V c main_v11 : S16x8x32.Idx → EReal) (ix3 b d cl)) (fun i : Cert.Spec.SL.Idx => (V c main_v2 : S16x1x262144.Idx → BitVec 32) (ix3 (i 0) 0 (i 1))) b n) := by
  obtain ⟨bv, hbv⟩ := b
  obtain ⟨nv, hnv⟩ := n
  dsimp only at hb hn
  subst hb hn
  refine (k1pay4_apply (iblk1 V c 0 t) (iblk1 V c 1 t) (iblk1 V c 2 t) k).trans ?_
  unfold Cert.Spec.sq Cert.Spec.own
  refine congrArg Cert.Spec.hinge (Finset.sum_congr rfl fun d _ => ?_)
  rw [iblk1_x V c t d k, iblk1_l V c t k]
  simp only [iblk1_m V c t d]

/-- The output's staging buffer after an odd point: the hinges of the batch's two halves, summed from zero. -/
theorem Vals1.stage_odd (c : Dev nD) (t : Fin cfg1.N) (h : t.val % 2 = 1) (b : Fin 16) (hb : b.val = t.val / 2) :
    ((outsAt1 V c t.val t.isLt).1 : S1x1x1.Idx → EReal) (ix3 0 0 0)
      = Cert.Spec.hsum (V c main_v0 : Cert.Spec.SX.Idx → EReal) (fun (b : Fin 16) (d : Fin 8) (cl : Fin 32) => (V c main_v11 : S16x8x32.Idx → EReal) (ix3 b d cl)) (fun i : Cert.Spec.SL.Idx => (V c main_v2 : S16x1x262144.Idx → BitVec 32) (ix3 (i 0) 0 (i 1))) b := by
  have hlt := lt1 t
  have hlt' : t.val - 1 < cfg1.N := Nat.lt_of_le_of_lt (Nat.sub_le _ _) t.isLt
  have he := outsAt1_even V c ⟨t.val - 1, hlt'⟩ (by show (t.val - 1) % 2 = 0; omega)
  rw [outsAt1_odd V c t h]
  dsimp only
  rw [k1pay2_apply, k1pay1_apply]
  dsimp only at he
  rw [he, k1pay1_apply, k1pay3_zero]
  unfold Cert.Spec.hsum
  exact Vals1.sum_two_halves (fun n => Cert.Spec.hinge (Cert.Spec.sq (V c main_v0 : Cert.Spec.SX.Idx → EReal) (fun (b : Fin 16) (d : Fin 8) (cl : Fin 32) => (V c main_v11 : S16x8x32.Idx → EReal) (ix3 b d cl)) (fun i : Cert.Spec.SL.Idx => (V c main_v2 : S16x1x262144.Idx → BitVec 32) (ix3 (i 0) 0 (i 1))) b n)) _ _
    (fun k => Vals1.pt_hinge V c ⟨t.val - 1, hlt'⟩ k b ⟨k.val, by have := k.isLt; omega⟩ (by show b.val = (t.val - 1) / 2; omega) (by show k.val = (t.val - 1) % 2 * 131072 + k.val; omega))
    (fun k => Vals1.pt_hinge V c t k b ⟨131072 + k.val, by have := k.isLt; omega⟩ hb (by show 131072 + k.val = t.val % 2 * 131072 + k.val; omega))

/-- REGION 1'S RESULT ARRAY IN CLOSED FORM: after the run, batch `b`'s element is the batch's hinges summed. -/
theorem Vals1.hinge_arr (c : Dev nD) (b : Fin 16) :
    ((dat1 V c).arrAt 3 cfg1.N : S16x1x1.Idx → EReal) (ix3 b 0 0)
      = Cert.Spec.hsum (V c main_v0 : Cert.Spec.SX.Idx → EReal) (fun (b : Fin 16) (d : Fin 8) (cl : Fin 32) => (V c main_v11 : S16x8x32.Idx → EReal) (ix3 b d cl)) (fun i : Cert.Spec.SL.Idx => (V c main_v2 : S16x1x262144.Idx → BitVec 32) (ix3 (i 0) 0 (i 1))) b := by
  have hb := b.isLt
  have ht : 2 * b.val + 1 < cfg1.N := by rw [show cfg1.N = 32 from N_1]; omega
  exact (hinge_arr0 V c b).trans
    (Vals1.stage_odd V c ⟨2 * b.val + 1, ht⟩ (by show (2 * b.val + 1) % 2 = 1; omega) b (by show b.val = (2 * b.val + 1) / 2; omega))

end AtIdeal

end Cert.KernelIdeal.R1

end
-- ==== Proof.Tail.lean ====
/-
  Both programs end with the same computation on the host: from the clusters' means, the mask of the clusters that hold
  a point, the number of such clusters in each batch as a float, and the batches' variance term, the last scalar is
  computed by one fixed chain of elementwise operations, broadcasts and sums. The chain is carried here as ONE function
  `tail` of those four values; nothing in it is opened. The reference's last value is `tail` of its four values, and
  the contents the idealized kernel program's last host operations leave at their last buffer are `tail` of the contents
  of the four buffers they read.
-/
import proofs.«417056_j24696061952722_1_alg».proof.Proof.RefReadP
import proofs.«417056_j24696061952722_1_alg».proof.Proof.Gen.KernelIdeal.Launch
import proofs.«417056_j24696061952722_1_alg».proof.Proof.LibAfter
import Idealize.ShloMosaic.Lib.StableHlo.Run

noncomputable section

namespace Cert.Tail

section Reference

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The squared distance between the means of every two clusters of a batch (batch by cluster by cluster). -/
def pairSq (c58 : FVec F S16x32x8 .f32) :
    FVec F S16x32x32 .f32 :=
  let v59 : FVec F S16x32x1x8 .f32 := broadcastInDim S16x32x1x8 ![0, 1, 3] bcast_S16x32x8_S16x32x1x8_0_1_3 c58
  let v60 : FVec F S16x1x32x8 .f32 := broadcastInDim S16x1x32x8 ![0, 2, 3] bcast_S16x32x8_S16x1x32x8_0_2_3 c58
  let v61 : FVec F S16x32x32x8 .f32 := broadcastInDim S16x32x32x8 ![0, 1, 2, 3] bcast_S16x32x1x8_S16x32x32x8_0_1_2_3 v59
  let v62 : FVec F S16x32x32x8 .f32 := broadcastInDim S16x32x32x8 ![0, 1, 2, 3] bcast_S16x1x32x8_S16x32x32x8_0_1_2_3 v60
  let v63 : FVec F S16x32x32x8 .f32 := subf v61 v62
  let v64 : FVec F S16x32x32x8 .f32 := mulf v63 v63
  let cst15 : FVec F S_ .f32 := constant S_ .f32 0x00000000#32
  let v65 : FVec F S16x32x32 .f32 := Host.reduceAdd v64 cst15 reducesTo_S16x32x32x8_S16x32x32_d3 h_S_
  v65

/-- The pairs of two different clusters of a batch that both hold a point. -/
def pairMask (p25 : IVec S16x32 1) :
    IVec S16x32x32 1 :=
  let v66 : IVec S32x32 32 := iotaInDim S32x32 32 0
  let v67 : IVec S32x32 32 := iotaInDim S32x32 32 1
  let c16 : IVec S_ 32 := constantI S_ 32 0#32
  let v68 : IVec S32x32 32 := broadcastInDim S32x32 ![] bcast_S_S32x32 c16
  let v69 : IVec S32x32 32 := addi v66 v68
  let v70 : IVec S32x32 1 := cmpi .eq v69 v67
  let v71 : IVec S32x32 1 := noti v70
  let v72 : IVec S1x32x32 1 := broadcastInDim S1x32x32 ![1, 2] bcast_S32x32_S1x32x32_1_2 v71
  let v73 : IVec S16x32x1 1 := broadcastInDim S16x32x1 ![0, 1] bcast_S16x32_S16x32x1_0_1 p25
  let v74 : IVec S16x32x32 1 := broadcastInDim S16x32x32 ![0, 1, 2] bcast_S1x32x32_S16x32x32_0_1_2 v72
  let v75 : IVec S16x32x32 1 := broadcastInDim S16x32x32 ![0, 1, 2] bcast_S16x32x1_S16x32x32_0_1_2 v73
  let v76 : IVec S16x32x32 1 := andi v74 v75
  let v77 : IVec S16x1x32 1 := broadcastInDim S16x1x32 ![0, 2] bcast_S16x32_S16x1x32_0_2 p25
  let v78 : IVec S16x32x32 1 := broadcastInDim S16x32x32 ![0, 1, 2] bcast_S16x1x32_S16x32x32_0_1_2 v77
  let v79 : IVec S16x32x32 1 := andi v76 v78
  v79

/-- Over the pairs `v79`, with squared distances `v65`: the square of what four exceeds the distance by, where it
    does, summed over a batch's pairs and halved. The distance is read as one outside the pairs. -/
def repel (v79 : IVec S16x32x32 1) (v65 : FVec F S16x32x32 .f32) :
    FVec F S16 .f32 :=
  let cst17 : FVec F S_ .f32 := constant S_ .f32 0x3F800000#32
  let w1_0 : FVec F S_ .f32 := id cst17
  let w1_1 : FVec F S16x32x32 .f32 := broadcastInDim S16x32x32 ![] bcast_S_S16x32x32 w1_0
  let v80 : FVec F S16x32x32 .f32 := select v79 v65 w1_1
  let v81 : FVec F S16x32x32 .f32 := Host.sqrt v80
  let cst18 : FVec F S_ .f32 := constant S_ .f32 0x40800000#32
  let v82 : FVec F S16x32x32 .f32 := broadcastInDim S16x32x32 ![] bcast_S_S16x32x32 cst18
  let v83 : FVec F S16x32x32 .f32 := subf v82 v81
  let cst19 : FVec F S_ .f32 := constant S_ .f32 0x00000000#32
  let v84 : FVec F S16x32x32 .f32 := broadcastInDim S16x32x32 ![] bcast_S_S16x32x32 cst19
  let v85 : FVec F S16x32x32 .f32 := maximumf v83 v84
  let v86 : FVec F S16x32x32 .f32 := mulf v85 v85
  let cst20 : FVec F S_ .f32 := constant S_ .f32 0x00000000#32
  let w2_0 : FVec F S_ .f32 := id cst20
  let w2_1 : FVec F S16x32x32 .f32 := broadcastInDim S16x32x32 ![] bcast_S_S16x32x32 w2_0
  let v87 : FVec F S16x32x32 .f32 := select v79 v86 w2_1
  let cst21 : FVec F S_ .f32 := constant S_ .f32 0x00000000#32
  let v88 : FVec F S16 .f32 := Host.reduceAdd v87 cst21 reducesTo_S16x32x32_S16_d1_2 h_S_
  let cst22 : FVec F S_ .f32 := constant S_ .f32 0x40000000#32
  let v89 : FVec F S16 .f32 := broadcastInDim S16 ![] bcast_S_S16 cst22
  let v90 : FVec F S16 .f32 := Host.divf v88 v89
  v90

/-- The halved sum `v90` over the number of a batch's pairs of clusters, read from the count `k28` of its clusters
    that hold a point as `k28` times the larger of `k28 - 1` and one. -/
def spread (k28 : FVec F S16 .f32) (v90 : FVec F S16 .f32) :
    FVec F S16 .f32 :=
  let cst23 : FVec F S_ .f32 := constant S_ .f32 0x3F800000#32
  let v91 : FVec F S16 .f32 := broadcastInDim S16 ![] bcast_S_S16 cst23
  let v92 : FVec F S16 .f32 := subf k28 v91
  let cst24 : FVec F S_ .f32 := constant S_ .f32 0x3F800000#32
  let v93 : FVec F S16 .f32 := broadcastInDim S16 ![] bcast_S_S16 cst24
  let v94 : FVec F S16 .f32 := maximumf v92 v93
  let v95 : FVec F S16 .f32 := mulf k28 v94
  let v96 : FVec F S16 .f32 := Host.divf v90 v95
  v96

/-- What the norm of a cluster's mean exceeds the root of eight by, where it does, summed over a batch's clusters
    that hold a point and divided by their number. -/
def reach (c58 : FVec F S16x32x8 .f32) (p25 : IVec S16x32 1) (k28 : FVec F S16 .f32) :
    FVec F S16 .f32 :=
  let v97 : FVec F S16x32x8 .f32 := mulf c58 c58
  let cst25 : FVec F S_ .f32 := constant S_ .f32 0x00000000#32
  let v98 : FVec F S16x32 .f32 := Host.reduceAdd v97 cst25 reducesTo_S16x32x8_S16x32_d2 h_S_
  let cst26 : FVec F S_ .f32 := constant S_ .f32 0x3F800000#32
  let w3_0 : FVec F S_ .f32 := id cst26
  let w3_1 : FVec F S16x32 .f32 := broadcastInDim S16x32 ![] bcast_S_S16x32 w3_0
  let v99 : FVec F S16x32 .f32 := select p25 v98 w3_1
  let v100 : FVec F S16x32 .f32 := Host.sqrt v99
  let cst27 : FVec F S_ .f32 := constant S_ .f32 0x403504F3#32
  let v101 : FVec F S16x32 .f32 := broadcastInDim S16x32 ![] bcast_S_S16x32 cst27
  let v102 : FVec F S16x32 .f32 := subf v100 v101
  let cst28 : FVec F S_ .f32 := constant S_ .f32 0x00000000#32
  let v103 : FVec F S16x32 .f32 := broadcastInDim S16x32 ![] bcast_S_S16x32 cst28
  let v104 : FVec F S16x32 .f32 := maximumf v102 v103
  let cst29 : FVec F S_ .f32 := constant S_ .f32 0x00000000#32
  let w4_0 : FVec F S_ .f32 := id cst29
  let w4_1 : FVec F S16x32 .f32 := broadcastInDim S16x32 ![] bcast_S_S16x32 w4_0
  let v105 : FVec F S16x32 .f32 := select p25 v104 w4_1
  let cst30 : FVec F S_ .f32 := constant S_ .f32 0x00000000#32
  let v106 : FVec F S16 .f32 := Host.reduceAdd v105 cst30 reducesTo_S16x32_S16_d1 h_S_
  let v107 : FVec F S16 .f32 := Host.divf v106 k28
  v107

/-- The three terms of a batch added, kept where the batch has more than one cluster that holds a point and read as zero
    elsewhere; summed over the sixteen batches and divided by sixteen. -/
def total (k28 : FVec F S16 .f32) (v57 : FVec F S16 .f32) (v96 : FVec F S16 .f32) (v107 : FVec F S16 .f32) :
    FVec F S_ .f32 :=
  let cst31 : FVec F S_ .f32 := constant S_ .f32 0x3F800000#32
  let v108 : FVec F S16 .f32 := broadcastInDim S16 ![] bcast_S_S16 cst31
  let v109 : IVec S16 1 := cmpf (F := F) .ogt k28 v108
  let cst32 : FVec F S_ .f32 := constant S_ .f32 0x3F800000#32
  let v110 : FVec F S16 .f32 := broadcastInDim S16 ![] bcast_S_S16 cst32
  let v111 : FVec F S16 .f32 := mulf v110 v57
  let cst33 : FVec F S_ .f32 := constant S_ .f32 0x3F800000#32
  let v112 : FVec F S16 .f32 := broadcastInDim S16 ![] bcast_S_S16 cst33
  let v113 : FVec F S16 .f32 := mulf v112 v96
  let v114 : FVec F S16 .f32 := addf v111 v113
  let cst34 : FVec F S_ .f32 := constant S_ .f32 0x3F800000#32
  let v115 : FVec F S16 .f32 := broadcastInDim S16 ![] bcast_S_S16 cst34
  let v116 : FVec F S16 .f32 := mulf v115 v107
  let v117 : FVec F S16 .f32 := addf v114 v116
  let cst35 : FVec F S_ .f32 := constant S_ .f32 0x00000000#32
  let w5_0 : FVec F S_ .f32 := id cst35
  let w5_1 : FVec F S16 .f32 := broadcastInDim S16 ![] bcast_S_S16 w5_0
  let v118 : FVec F S16 .f32 := select v109 v117 w5_1
  let cst36 : FVec F S_ .f32 := constant S_ .f32 0x00000000#32
  let v119 : FVec F S_ .f32 := Host.reduceAdd v118 cst36 reducesTo_S16_S_d0 h_S_
  let cst37 : FVec F S_ .f32 := constant S_ .f32 0x41800000#32
  let v120 : FVec F S_ .f32 := Host.divf v119 cst37
  v120

/-- The shared end of the two programs, as a function of the means `c58` (batch by cluster by coordinate), the mask `p25`
    of the clusters that hold a point (batch by cluster), the number `k28` of such clusters in each batch and the
    batches' variance term `v57`. Each stage above binds one value per operation, in the programs' order. -/
def tail (c58 : FVec F S16x32x8 .f32) (p25 : IVec S16x32 1) (k28 : FVec F S16 .f32) (v57 : FVec F S16 .f32) :
    FVec F S_ .f32 :=
  total k28 v57 (spread k28 (repel (pairMask p25) (pairSq c58))) (reach c58 p25 k28)

/-- The reference's last value is the shared end of its means, its mask, its cluster count and its variance term. -/
theorem ref_tail (x0 : (⟨S16x8x512x512, .f32⟩ : BufTy).Contents (Elt F)) (x1 : (⟨S16x512x512, .i32⟩ : BufTy).Contents (Elt F)) :
    ReadP.val_main_v120 (F := F) x0 x1
      = tail (ReadP.val_main_v58 (F := F) x0 x1) (ReadP.val_main_v25 (F := F) x1) (ReadP.val_main_v28 (F := F) x1)
          (ReadP.val_main_v57 (F := F) x0 x1) := rfl

end Reference

/-! ## The idealized kernel program's last host operations -/

section Kernel

open Cert.KernelIdeal Cert.KernelIdeal.Gen Idealize.ShloMosaic Idealize.ShloMosaic.TcCoe Idealize.SL.Sem

variable {F : FTy → Type} [FloatOps F] [Cert.ReferenceIdeal.Facts] [Cert.KernelIdeal.Facts]

/-- The first three host operations after the second kernel: they make the variance term and the means. -/
abbrev pre2 : List (HloOp τ sig (Elt F)) :=
  [ StableHlo.reshape main_v17 main_v18 rfl shapeCasts_S16x1x1_S16,
    StableHlo.binary main_v18 main_v16 main_v19 (Host.divf : (⟨S16, .f32⟩ : BufTy).Contents (Elt F) → (⟨S16, .f32⟩ : BufTy).Contents (Elt F) → (⟨S16, .f32⟩ : BufTy).Contents (Elt F)),
    StableHlo.unary main_v11 main_v20 ((transpose S16x32x8 [0, 2, 1] · transposes_S16x8x32_S16x32x8_0_2_1) : (⟨S16x8x32, .f32⟩ : BufTy).Contents (Elt F) → (⟨S16x32x8, .f32⟩ : BufTy).Contents (Elt F)) ]

/-- The host operations after them, up to the first selection. -/
abbrev rest2 : List (HloOp τ sig (Elt F)) :=
  [ StableHlo.unary main_v20 main_v21 (broadcastInDim S16x32x1x8 ![0, 1, 3] bcast_S16x32x8_S16x32x1x8_0_1_3 : (⟨S16x32x8, .f32⟩ : BufTy).Contents (Elt F) → (⟨S16x32x1x8, .f32⟩ : BufTy).Contents (Elt F)),
    StableHlo.unary main_v20 main_v22 (broadcastInDim S16x1x32x8 ![0, 2, 3] bcast_S16x32x8_S16x1x32x8_0_2_3 : (⟨S16x32x8, .f32⟩ : BufTy).Contents (Elt F) → (⟨S16x1x32x8, .f32⟩ : BufTy).Contents (Elt F)),
    StableHlo.unary main_v21 main_v23 (broadcastInDim S16x32x32x8 ![0, 1, 2, 3] bcast_S16x32x1x8_S16x32x32x8_0_1_2_3 : (⟨S16x32x1x8, .f32⟩ : BufTy).Contents (Elt F) → (⟨S16x32x32x8, .f32⟩ : BufTy).Contents (Elt F)),
    StableHlo.unary main_v22 main_v24 (broadcastInDim S16x32x32x8 ![0, 1, 2, 3] bcast_S16x1x32x8_S16x32x32x8_0_1_2_3 : (⟨S16x1x32x8, .f32⟩ : BufTy).Contents (Elt F) → (⟨S16x32x32x8, .f32⟩ : BufTy).Contents (Elt F)),
    StableHlo.binary main_v23 main_v24 main_v25 (subf : (⟨S16x32x32x8, .f32⟩ : BufTy).Contents (Elt F) → (⟨S16x32x32x8, .f32⟩ : BufTy).Contents (Elt F) → (⟨S16x32x32x8, .f32⟩ : BufTy).Contents (Elt F)),
    StableHlo.binary main_v25 main_v25 main_v26 (mulf : (⟨S16x32x32x8, .f32⟩ : BufTy).Contents (Elt F) → (⟨S16x32x32x8, .f32⟩ : BufTy).Contents (Elt F) → (⟨S16x32x32x8, .f32⟩ : BufTy).Contents (Elt F)),
    StableHlo.nullary main_cst_1 (constant S_ .f32 0x00000000#32),
    StableHlo.binary main_v26 main_cst_1 main_v27 ((fun x v => Host.reduceAdd x v reducesTo_S16x32x32x8_S16x32x32_d3 h_S_) : (⟨S16x32x32x8, .f32⟩ : BufTy).Contents (Elt F) → (⟨S_, .f32⟩ : BufTy).Contents (Elt F) → (⟨S16x32x32, .f32⟩ : BufTy).Contents (Elt F)),
    StableHlo.nullary main_v28 (iotaInDim S32x32 32 0),
    StableHlo.nullary main_v29 (iotaInDim S32x32 32 1),
    StableHlo.nullary main_c_2 (constantI S_ 32 0#32),
    StableHlo.unary main_c_2 main_v30 (broadcastInDim S32x32 ![] bcast_S_S32x32 : (⟨S_, .i32⟩ : BufTy).Contents (Elt F) → (⟨S32x32, .i32⟩ : BufTy).Contents (Elt F)),
    StableHlo.binary main_v28 main_v30 main_v31 (addi : (⟨S32x32, .i32⟩ : BufTy).Contents (Elt F) → (⟨S32x32, .i32⟩ : BufTy).Contents (Elt F) → (⟨S32x32, .i32⟩ : BufTy).Contents (Elt F)),
    StableHlo.binary main_v31 main_v29 main_v32 (cmpi .eq : (⟨S32x32, .i32⟩ : BufTy).Contents (Elt F) → (⟨S32x32, .i32⟩ : BufTy).Contents (Elt F) → (⟨S32x32, .i1⟩ : BufTy).Contents (Elt F)),
    StableHlo.unary main_v32 main_v33 (noti : (⟨S32x32, .i1⟩ : BufTy).Contents (Elt F) → (⟨S32x32, .i1⟩ : BufTy).Contents (Elt F)),
    StableHlo.unary main_v33 main_v34 (broadcastInDim S1x32x32 ![1, 2] bcast_S32x32_S1x32x32_1_2 : (⟨S32x32, .i1⟩ : BufTy).Contents (Elt F) → (⟨S1x32x32, .i1⟩ : BufTy).Contents (Elt F)),
    StableHlo.unary main_v13 main_v35 (broadcastInDim S16x32x1 ![0, 1] bcast_S16x32_S16x32x1_0_1 : (⟨S16x32, .i1⟩ : BufTy).Contents (Elt F) → (⟨S16x32x1, .i1⟩ : BufTy).Contents (Elt F)),
    StableHlo.unary main_v34 main_v36 (broadcastInDim S16x32x32 ![0, 1, 2] bcast_S1x32x32_S16x32x32_0_1_2 : (⟨S1x32x32, .i1⟩ : BufTy).Contents (Elt F) → (⟨S16x32x32, .i1⟩ : BufTy).Contents (Elt F)),
    StableHlo.unary main_v35 main_v37 (broadcastInDim S16x32x32 ![0, 1, 2] bcast_S16x32x1_S16x32x32_0_1_2 : (⟨S16x32x1, .i1⟩ : BufTy).Contents (Elt F) → (⟨S16x32x32, .i1⟩ : BufTy).Contents (Elt F)),
    StableHlo.binary main_v36 main_v37 main_v38 (andi : (⟨S16x32x32, .i1⟩ : BufTy).Contents (Elt F) → (⟨S16x32x32, .i1⟩ : BufTy).Contents (Elt F) → (⟨S16x32x32, .i1⟩ : BufTy).Contents (Elt F)),
    StableHlo.unary main_v13 main_v39 (broadcastInDim S16x1x32 ![0, 2] bcast_S16x32_S16x1x32_0_2 : (⟨S16x32, .i1⟩ : BufTy).Contents (Elt F) → (⟨S16x1x32, .i1⟩ : BufTy).Contents (Elt F)),
    StableHlo.unary main_v39 main_v40 (broadcastInDim S16x32x32 ![0, 1, 2] bcast_S16x1x32_S16x32x32_0_1_2 : (⟨S16x1x32, .i1⟩ : BufTy).Contents (Elt F) → (⟨S16x32x32, .i1⟩ : BufTy).Contents (Elt F)),
    StableHlo.binary main_v38 main_v40 main_v41 (andi : (⟨S16x32x32, .i1⟩ : BufTy).Contents (Elt F) → (⟨S16x32x32, .i1⟩ : BufTy).Contents (Elt F) → (⟨S16x32x32, .i1⟩ : BufTy).Contents (Elt F)),
    StableHlo.nullary main_cst_3 (constant S_ .f32 0x3F800000#32) ]

/-- The stretch of host operations after the second kernel is those three and then the rest. -/
theorem hostOps2_split : (hostOps2 : List (HloOp τ sig (Elt F))) = pre2 ++ rest2 := rfl
set_option maxHeartbeats 4000000 in
set_option maxRecDepth 8192 in
/-- What the last host operations leave at the program's result buffer, from any contents `X` of the buffers before them:
    the shared end of the contents of the four buffers they read — the means, the mask, the cluster count and the
    variance term. Each operation's result is its function of its operands' contents; the two chains then agree
    operation by operation. -/
theorem ker_tail (X : Valuation τ sig (Elt F)) :
    StableHlo.after hostOps2_10 (StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after rest2 X)))))))))) (Proc.devRef .tc main_v82)
      = tail (X (Proc.devRef .tc main_v20)) (X (Proc.devRef .tc main_v13)) (X (Proc.devRef .tc main_v16))
          (X (Proc.devRef .tc main_v19)) := by
  after_results_simp
  rfl

end Kernel

end Cert.Tail

end
-- ==== Proof.Bridge.lean ====
/-
  The two programs' results are one. The idealized kernel program's last value is the shared end of four values its
  last host stretch reads, and the reference's last value is the same function of four values of its own. The four
  agree: the clusters' means (each cluster's sum of its points over the larger of its count and one), the mask of the
  clusters that hold a point (count above zero), the number of such clusters, and the batches' variance term (the sum
  of the points' hinges over that number). What the two kernel regions leave, and what the reference's scatters and
  gathers compute, enter as the shared definitions' sums, counts and hinge sums.
-/
import proofs.«417056_j24696061952722_1_alg».proof.Defs
import proofs.«417056_j24696061952722_1_alg».proof.Proof.Gen.Pre_finite_inputs
import proofs.«417056_j24696061952722_1_alg».proof.Proof.Gen.KernelIdeal
import proofs.«417056_j24696061952722_1_alg».proof.Proof.Gen.ReferenceIdeal
import proofs.«417056_j24696061952722_1_alg».proof.Proof.KI.Chain
import proofs.«417056_j24696061952722_1_alg».proof.Proof.RefReadP
import proofs.«417056_j24696061952722_1_alg».proof.Proof.PreLab
import proofs.«417056_j24696061952722_1_alg».proof.Proof.RefHead2
import proofs.«417056_j24696061952722_1_alg».proof.Proof.RefHinge
import proofs.«417056_j24696061952722_1_alg».proof.Proof.KI.Vals0
import proofs.«417056_j24696061952722_1_alg».proof.Proof.KI.Vals1
import proofs.«417056_j24696061952722_1_alg».proof.Proof.Tail
import proofs.«417056_j24696061952722_1_alg».proof.Proof.Spec

set_option maxRecDepth 16384

noncomputable section

namespace Cert.Bridge

open Cert.KernelIdeal Cert.KernelIdeal.Gen Cert.KernelIdeal.R0 Cert.KernelIdeal.R1 Cert.KernelIdeal.Run
open Cert.KernelIdeal.Chain
open Idealize.ShloMosaic Idealize.ShloMosaic.TcCoe Idealize.ShloMosaic.ValueIdx

variable (m : (ℓ : Loc nD τ sig) → Buf (Elt Ideal) ℓ) (c : Dev nD)

/-- The coordinates as launched. -/
abbrev A0 : S16x8x512x512.Idx → EReal := m ((c.tc : Thread nD τ).loc main_arg0)
/-- The labels as launched. -/
abbrev A1 : S16x512x512.Idx → BitVec 32 := m ((c.tc : Thread nD τ).loc main_arg1)

/-- The last stretches of the idealized kernel program, from contents `X`, at the result buffer. -/
abbrev kerEnd (X : Valuation τ sig (Elt Ideal)) : S_.Idx → EReal :=
  StableHlo.after hostOps2_10 (StableHlo.after hostOps2_9 (StableHlo.after hostOps2_8 (StableHlo.after hostOps2_7
    (StableHlo.after hostOps2_6 (StableHlo.after hostOps2_5 (StableHlo.after hostOps2_4 (StableHlo.after hostOps2_3
    (StableHlo.after hostOps2_2 (StableHlo.after hostOps2_1 (StableHlo.after Host.rest2 X)))))))))) (Proc.devRef .tc main_v82)

/-- What the argument takes from the two kernel regions' value proofs, from the reference's reading and from the shared
    end `T` of the two programs. -/
structure Parts (T : (S16x32x8.Idx → EReal) → (S16x32.Idx → BitVec 1) → (S16.Idx → EReal) → (S16.Idx → EReal) → S_.Idx → EReal) :
    Prop where
  /-- The kernel program's last stretches compute the shared end of the four buffers they read. -/
  ker_tail : ∀ X : Valuation τ sig (Elt Ideal),
    kerEnd X = T (X (Proc.devRef .tc main_v20)) (X (Proc.devRef .tc main_v13)) (X (Proc.devRef .tc main_v16)) (X (Proc.devRef .tc main_v19))
  /-- The reference's last value is the shared end of its four values. -/
  ref_tail : Cert.ReferenceIdeal.ReadP.val_main_v120 (F := Ideal) (A0 m c) (A1 m c)
    = T (Cert.ReferenceIdeal.ReadP.val_main_v58 (F := Ideal) (A0 m c) (A1 m c)) (Cert.ReferenceIdeal.ReadP.val_main_v25 (F := Ideal) (A1 m c))
        (Cert.ReferenceIdeal.ReadP.val_main_v28 (F := Ideal) (A1 m c)) (Cert.ReferenceIdeal.ReadP.val_main_v57 (F := Ideal) (A0 m c) (A1 m c))
  /-- The first region leaves the clusters' sums in rows 0–7 … -/
  stats_sums : ∀ (b : Fin 16) (d : Fin 8) (cl : Fin 32),
    S m c (ix3 b ⟨d.val, by have := d.isLt; omega⟩ cl)
      = Cert.Spec.sums (VA m c main_v0 : Cert.Spec.SX.Idx → EReal)
          (fun i => (VA m c main_v2 : S16x1x262144.Idx → BitVec 32) (ix3 (i 0) 0 (i 1))) b d cl
  /-- … and their counts in row 8. -/
  stats_cnt : ∀ (b : Fin 16) (cl : Fin 32),
    S m c (ix3 b 8 cl)
      = Cert.Spec.cnt (fun i => (VA m c main_v2 : S16x1x262144.Idx → BitVec 32) (ix3 (i 0) 0 (i 1))) b cl
  /-- The second region leaves the batches' hinge sums. -/
  hinge_arr : ∀ b : Fin 16,
    H m c (ix3 b 0 0)
      = Cert.Spec.hsum (VB m c main_v0 : Cert.Spec.SX.Idx → EReal)
          (fun b d cl => (VB m c main_v11 : S16x8x32.Idx → EReal) (ix3 b d cl))
          (fun i => (VB m c main_v2 : S16x1x262144.Idx → BitVec 32) (ix3 (i 0) 0 (i 1))) b
  /-- The reference's means … -/
  ref_ctr : ∀ (b : Fin 16) (cl : Fin 32) (d : Fin 8),
    Cert.ReferenceIdeal.ReadP.val_main_v58 (F := Ideal) (A0 m c) (A1 m c) (ix3 b cl d)
      = Cert.Spec.ctr (Cert.Spec.xsOf (A0 m c)) (Cert.Spec.lsOf (A1 m c)) b d cl
  /-- … its mask … -/
  ref_present : ∀ (b : Fin 16) (cl : Fin 32),
    Cert.ReferenceIdeal.ReadP.val_main_v25 (F := Ideal) (A1 m c) (ix2 b cl)
      = Ideal.cmp .ogt (Cert.Spec.cnt (Cert.Spec.lsOf (A1 m c)) b cl) (Ideal.ofBits .f32 0x00000000#32)
  /-- … and its hinge sums about its own means. -/
  ref_hsum : ∀ b : Fin 16,
    Cert.ReferenceIdeal.ReadP.val_main_v56 (F := Ideal) (A0 m c) (A1 m c) (ix1 b)
      = Cert.Spec.hsum (Cert.Spec.xsOf (A0 m c)) (Cert.Spec.ctr (Cert.Spec.xsOf (A0 m c)) (Cert.Spec.lsOf (A1 m c)))
          (Cert.Spec.lsOf (A1 m c)) b

section
variable {m c}
variable {T : (S16x32x8.Idx → EReal) → (S16x32.Idx → BitVec 1) → (S16.Idx → EReal) → (S16.Idx → EReal) → S_.Idx → EReal}
variable (P : Parts m c T)
include P

/-! ## The regions' arrays in the shared definitions -/

/-- The labels the first region is entered with, point by point. -/
theorem lsA_eq : (fun i : Cert.Spec.SL.Idx => (VA m c main_v2 : S16x1x262144.Idx → BitVec 32) (ix3 (i 0) 0 (i 1))) = LS m c := by
  funext i
  rw [VA_l m c (i 0) (i 1)]
  exact congrArg (LS m c) (eq_ix2 i).symm

/-- The labels the second region is entered with, point by point. -/
theorem lsB_eq : (fun i : Cert.Spec.SL.Idx => (VB m c main_v2 : S16x1x262144.Idx → BitVec 32) (ix3 (i 0) 0 (i 1))) = LS m c := by
  funext i
  rw [VB_l m c (i 0) (i 1)]
  exact congrArg (LS m c) (eq_ix2 i).symm

/-- The first region's sums are the clusters' sums over the launched points. -/
theorem S_sums (b : Fin 16) (d : Fin 8) (cl : Fin 32) :
    S m c (ix3 b ⟨d.val, by have := d.isLt; omega⟩ cl) = Cert.Spec.sums (XS m c) (LS m c) b d cl := by
  rw [P.stats_sums b d cl, lsA_eq P, VA_x m c]

/-- The first region's counts are the clusters' counts over the launched labels. -/
theorem S_cnt (b : Fin 16) (cl : Fin 32) : S m c (ix3 b 8 cl) = Cert.Spec.cnt (LS m c) b cl := by
  rw [P.stats_cnt b cl, lsA_eq P]

/-- The second region is entered with the clusters' means over the launched points. -/
theorem VB_ctr (b : Fin 16) (d : Fin 8) (cl : Fin 32) :
    (VB m c main_v11 : S16x8x32.Idx → EReal) (ix3 b d cl) = Cert.Spec.ctr (XS m c) (LS m c) b d cl := by
  rw [VB_m m c b d cl, S_sums P, S_cnt P]
  rfl

/-- The second region's result is the hinge sums about those means. -/
theorem H_hsum (b : Fin 16) :
    H m c (ix3 b 0 0) = Cert.Spec.hsum (XS m c) (Cert.Spec.ctr (XS m c) (LS m c)) (LS m c) b := by
  rw [P.hinge_arr b, lsB_eq P, VB_x m c]
  exact congrArg (fun mm => Cert.Spec.hsum (XS m c) mm (LS m c) b) (funext fun b => funext fun d => funext fun cl => VB_ctr P b d cl)

/-! ## The four values -/

/-- The means agree. -/
theorem means_eq :
    (Z m c (Proc.devRef .tc main_v20) : S16x32x8.Idx → EReal)
      = Cert.ReferenceIdeal.ReadP.val_main_v58 (F := Ideal) (A0 m c) (A1 m c) := by
  refine funext fun (i : S16x32x8.Idx) => ?_
  obtain ⟨b, cl, d, rfl⟩ : ∃ (b : Fin 16) (cl : Fin 32) (d : Fin 8), i = ix3 b cl d := ⟨i 0, i 1, i 2, eq_ix3 i⟩
  rw [Z_v20 m c b cl d, Y_m m c b d cl, VB_ctr P b d cl]
  exact (P.ref_ctr b cl d).symm

/-- The masks agree. -/
theorem mask_eq :
    (Y m c (Proc.devRef .tc main_v13) : S16x32.Idx → BitVec 1)
      = Cert.ReferenceIdeal.ReadP.val_main_v25 (F := Ideal) (A1 m c) := by
  refine funext fun (i : S16x32.Idx) => ?_
  obtain ⟨b, cl, rfl⟩ : ∃ (b : Fin 16) (cl : Fin 32), i = ix2 b cl := ⟨i 0, i 1, eq_ix2 i⟩
  rw [Y_p m c b cl, S_cnt P b cl]
  exact (P.ref_present b cl).symm

/-- The cluster counts agree. -/
theorem count_eq :
    (Y m c (Proc.devRef .tc main_v16) : S16.Idx → EReal)
      = Cert.ReferenceIdeal.ReadP.val_main_v28 (F := Ideal) (A1 m c) := by
  rw [Y_K m c, mask_eq P]
  rfl

/-- The variance terms agree. -/
theorem var_eq :
    (Z m c (Proc.devRef .tc main_v19) : S16.Idx → EReal)
      = Cert.ReferenceIdeal.ReadP.val_main_v57 (F := Ideal) (A0 m c) (A1 m c) := by
  refine funext fun (i : S16.Idx) => ?_
  obtain ⟨b, rfl⟩ : ∃ b : Fin 16, i = ix1 b := ⟨i 0, eq_ix1 i⟩
  rw [Z_v19 m c b, Y_h m c, H_hsum P b, count_eq P,
    Cert.ReferenceIdeal.ReadP.val_main_v57_apply, Ideal.hostDivf_def, P.ref_hsum b]

/-- THE TWO RESULTS ARE ONE, from the parts. -/
theorem result_of_parts :
    Gen.V15 m (outs m) c (Proc.devRef .tc main_v82)
      = Cert.ReferenceIdeal.ReadP.val_main_v120 (F := Ideal) (A0 m c) (A1 m c) := by
  rw [V15_eq m c]
  refine (P.ker_tail (Z m c)).trans ?_
  rw [P.ref_tail]
  have e : ∀ (a a' : S16x32x8.Idx → EReal) (p p' : S16x32.Idx → BitVec 1) (k k' v v' : S16.Idx → EReal),
      a = a' → p = p' → k = k' → v = v' → T a p k v = T a' p' k' v' := by
    intro a a' p p' k k' v v' h1 h2 h3 h4
    rw [h1, h2, h3, h4]
  exact e _ _ _ _ _ _ _ _ (means_eq P) ((Z_v13 m c).trans (mask_eq P)) ((Z_v16 m c).trans (count_eq P)) (var_eq P)

end

/-! ## The labels' range, and the reference's three values -/

/-- Where the precondition holds, every launched label word read as a signed integer lies in [0, 32). -/
theorem hlab_of_pre (hpre : Cert.Pre_KernelIdeal (hPre_finite_inputs := Cert.Pre_finite_inputs.Gen.facts) m) :
    ∀ i, (0 : Int) ≤ (A1 m c i).toInt ∧ (A1 m c i).toInt < 32 :=
  Cert.PreLab.lab_of_pre (F := Ideal) (A0 m c) (A1 m c) (hpre c)

/-- THE TWO RESULTS ARE ONE, from the shared end `T` of the two programs and what the two kernel regions leave. -/
theorem kernel_result_of
    (T : (S16x32x8.Idx → EReal) → (S16x32.Idx → BitVec 1) → (S16.Idx → EReal) → (S16.Idx → EReal) → S_.Idx → EReal)
    (hker : ∀ X : Valuation τ sig (Elt Ideal),
      kerEnd X = T (X (Proc.devRef .tc main_v20)) (X (Proc.devRef .tc main_v13)) (X (Proc.devRef .tc main_v16)) (X (Proc.devRef .tc main_v19)))
    (href : Cert.ReferenceIdeal.ReadP.val_main_v120 (F := Ideal) (A0 m c) (A1 m c)
      = T (Cert.ReferenceIdeal.ReadP.val_main_v58 (F := Ideal) (A0 m c) (A1 m c)) (Cert.ReferenceIdeal.ReadP.val_main_v25 (F := Ideal) (A1 m c))
          (Cert.ReferenceIdeal.ReadP.val_main_v28 (F := Ideal) (A1 m c)) (Cert.ReferenceIdeal.ReadP.val_main_v57 (F := Ideal) (A0 m c) (A1 m c)))
    (hhinge : ∀ b : Fin 16,
      H m c (ix3 b 0 0)
        = Cert.Spec.hsum (VB m c main_v0 : Cert.Spec.SX.Idx → EReal)
            (fun b d cl => (VB m c main_v11 : S16x8x32.Idx → EReal) (ix3 b d cl))
            (fun i => (VB m c main_v2 : S16x1x262144.Idx → BitVec 32) (ix3 (i 0) 0 (i 1))) b)
    (hpre : Cert.Pre_KernelIdeal (hPre_finite_inputs := Cert.Pre_finite_inputs.Gen.facts) m) :
    Gen.V15 m (outs m) c (Proc.devRef .tc main_v82)
      = Cert.ReferenceIdeal.ReadP.val_main_v120 (F := Ideal) (A0 m c) (A1 m c) :=
  result_of_parts (T := T)
    { ker_tail := hker, ref_tail := href, hinge_arr := hhinge
      stats_sums := fun b d cl => R0.stats_sums (VA m) c b d cl
      stats_cnt := fun b cl => R0.stats_cnt (VA m) c b cl
      ref_ctr := fun b cl d => Cert.RefHead.ref_ctr (A0 m c) (A1 m c) (hlab_of_pre m c hpre) b cl d
      ref_present := fun b cl => Cert.RefHead.ref_present (A1 m c) (hlab_of_pre m c hpre) b cl
      ref_hsum := fun b => Cert.RefHinge.ref_hsum (A0 m c) (A1 m c) (hlab_of_pre m c hpre) b }

/-- THE TWO RESULTS ARE ONE: the idealized kernel program's last value, over the launch memory, is the reference's value
    of the launched arguments. -/
theorem kernel_result (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.Gen.V15 m (Cert.KernelIdeal.Run.outs m) c (Proc.devRef .tc Cert.KernelIdeal.main_v82)
      = Cert.ReferenceIdeal.ReadP.val_main_v120 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  kernel_result_of m c (Cert.Tail.tail (F := Ideal)) (fun X => Cert.Tail.ker_tail X) (Cert.Tail.ref_tail _ _)
    (fun b => Cert.KernelIdeal.R1.Vals1.hinge_arr (VB m) c b) hpre

end Cert.Bridge

end
-- ==== Proof.Final.lean ====
/-
  The two programs' results agree. The kernel program's run leaves every buffer at the last item's contents; its result
  buffer there is the closing computation of the means, the presence mask, the cluster count and the variance term,
  each read back through the host stretches to the two regions' arrays and from those to sums over the batch's points.
  The reference's result is the same closing computation of its own four values, which are the same sums.
-/
import proofs.«417056_j24696061952722_1_alg».proof.Defs
import proofs.«417056_j24696061952722_1_alg».proof.Proof.KI.RunAll
import proofs.«417056_j24696061952722_1_alg».proof.Proof.RefReadP
import proofs.«417056_j24696061952722_1_alg».proof.Proof.Gen.Pre_finite_inputs
import proofs.«417056_j24696061952722_1_alg».proof.Proof.Gen.ReferenceIdeal
import proofs.«417056_j24696061952722_1_alg».proof.Proof.Gen.KernelIdeal
import proofs.«417056_j24696061952722_1_alg».proof.Proof.Bridge

noncomputable section

namespace Cert.Final

open Idealize.ShloMosaic Idealize.ShloMosaic.TcCoe Idealize.SL.Sem
open Cert.KernelIdeal.Run

/-- The kernel program's result buffer after the run, as the last item's contents. -/
abbrev kres (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v82) :=
  Cert.KernelIdeal.Gen.V15 m (outs m) c (Proc.devRef .tc Cert.KernelIdeal.main_v82)

/-- The kernel program's result is the reference's stage term of the same arguments. -/
theorem kernel_result (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    kres m c = Cert.ReferenceIdeal.ReadP.val_main_v120 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
  Cert.Bridge.kernel_result m hpre c

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => kres m c, ?_, ?_⟩
  · refine (θ_run Cert.KernelIdeal.defs _ _).mono (fun r h c => ⟨?_, ?_, ?_⟩) (Cert.KernelIdeal.Run.run_all (F := Ideal) m ρ)
    · exact h c (Proc.devRef .tc Cert.KernelIdeal.main_v82) (Finset.mem_filter.mpr ⟨StableHlo.devRef_mem_tcRefs Cert.KernelIdeal.main_v82, by decide⟩)
    · exact (h c (Proc.devRef .tc Cert.KernelIdeal.main_arg0) (Finset.mem_filter.mpr ⟨StableHlo.devRef_mem_tcRefs Cert.KernelIdeal.main_arg0, by decide⟩)).trans
        (Cert.KernelIdeal.Gen.V15_main_arg0 m (outs m) c)
    · exact (h c (Proc.devRef .tc Cert.KernelIdeal.main_arg1) (Finset.mem_filter.mpr ⟨StableHlo.devRef_mem_tcRefs Cert.KernelIdeal.main_arg1, by decide⟩)).trans
        (Cert.KernelIdeal.Gen.V15_main_arg1 m (outs m) c)
  · refine (θ_run Cert.ReferenceIdeal.defs _ _).mono (fun r h c => ⟨(h c).1.trans ?_, (h c).2.1, (h c).2.2⟩)
      (Cert.ReferenceIdeal.ValueP.run (F := Ideal) m' ρ')
    rw [Cert.ReferenceIdeal.ReadP.val_main_v120_eq, (hagree c).1, (hagree c).2]
    exact (kernel_result m hpre c).symm

end Cert.Final

end
-- ==== Proof.lean ====
/-
  The certificate's proof. Both programs cluster the points of each batch by label: per cluster the sum and the count
  of its points, the mean, then per point the hinge of its distance to its own cluster's mean, summed over the batch; a
  closing computation over the 32 means of each batch gives the scalar result. The kernel program computes the sums and
  counts by matrix products with the clusters' weights in a first region (two tiles of a batch accumulated in scratch)
  and the hinge sums in a second; the reference program scatters rows to segments and gathers each point's mean. Under
  the precondition — every coordinate finite, every label in [0, 32) — the two are one function over the extended
  reals: a point's weights pick exactly its own cluster, finite sums commute and reassociate, and the closing
  computation is the same operations on equal inputs.

  The three frames: the kernel program's (word level and idealized) by the library's launch of a
  program given as segments, over each region's body certificate; the reference's is its run with the result dropped. `preserves` is the one rewrite's rule.
-/
import proofs.«417056_j24696061952722_1_alg».proof.Defs
import proofs.«417056_j24696061952722_1_alg».proof.Proof.Gen.Kernel
import proofs.«417056_j24696061952722_1_alg».proof.Proof.Gen.KernelIdeal
import proofs.«417056_j24696061952722_1_alg».proof.Proof.Gen.ReferenceIdeal
import proofs.«417056_j24696061952722_1_alg».proof.Proof.Gen.Pre_finite_inputs
import proofs.«417056_j24696061952722_1_alg».proof.Proof.K.Run
import proofs.«417056_j24696061952722_1_alg».proof.Proof.KI.Run
import proofs.«417056_j24696061952722_1_alg».proof.Proof.RefRunP
import proofs.«417056_j24696061952722_1_alg».proof.Proof.Final

noncomputable section

namespace Cert.Proof

open Idealize.ShloMosaic Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Run.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference program's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass's one rewrite: a weight widened back from bf16 is the weight. -/
theorem preserves : Cert.preserves_Kernel_KernelIdeal := IdealRules.truncf_extf.statement _ .f32 .bf16

/-- The idealized kernel program and the idealized reference, run from memories agreeing on the arguments, end with
    equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Final.algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
